-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x64 : Shape := ⟨2, ![128, 64]⟩
abbrev S128x1 : Shape := ⟨2, ![128, 1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S1024x128 .f32) (main_arg1 : FVec F S1024x1024 .f32) (main_arg2 : FVec F S128x64 .f32) (main_arg3 : FVec F S128x1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S1024x128 : Shape := ⟨2, ![1024, 128]⟩
abbrev S1024x1024 : Shape := ⟨2, ![1024, 1024]⟩
abbrev S128x64 : Shape := ⟨2, ![128, 64]⟩
abbrev S128x1 : Shape := ⟨2, ![128, 1]⟩
abbrev S1024x64 : Shape := ⟨2, ![1024, 64]⟩
abbrev S256x128 : Shape := ⟨2, ![256, 128]⟩
abbrev S256x1024 : Shape := ⟨2, ![256, 1024]⟩
abbrev S256x64 : Shape := ⟨2, ![256, 64]⟩
abbrev S64x1 : Shape := ⟨2, ![64, 1]⟩
abbrev S1024x1 : Shape := ⟨2, ![1024, 1]⟩
abbrev S256x1 : Shape := ⟨2, ![256, 1]⟩
abbrev S1x1024 : Shape := ⟨2, ![1, 1024]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S128x64, .f32⟩
  | .hbm, ⟨3, _⟩ => ⟨S128x1, .f32⟩
  | .hbm, ⟨4, _⟩ => ⟨S1024x64, .f32⟩
  | .local _ .vmem, ⟨0, _⟩ => ⟨S1024x128, .f32⟩
  | .local _ .vmem, ⟨1, _⟩ => ⟨S256x128, .f32⟩
  | .local _ .vmem, ⟨2, _⟩ => ⟨S256x128, .f32⟩
  | .local _ .vmem, ⟨3, _⟩ => ⟨S256x1024, .f32⟩
  | .local _ .vmem, ⟨4, _⟩ => ⟨S256x1024, .f32⟩
  | .local _ .vmem, ⟨5, _⟩ => ⟨S128x64, .f32⟩
  | .local _ .vmem, ⟨6, _⟩ => ⟨S128x1, .f32⟩
  | .local _ .vmem, ⟨7, _⟩ => ⟨S256x64, .f32⟩
  | .local _ .vmem, ⟨8, _⟩ => ⟨S256x64, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  slices_S128x1_o64_0_S64x1 : S128x1.Slices ![64, 0] S64x1
  inb_S256x128_S256x128_0_0 : ∀ a, (![0, 0] : Fin 2 → Nat) a + S256x128.size a ≤ S256x128.size a
  h_S256x128 : 0 < S256x128.numel
  slices_S128x1_o0_0_S64x1 : S128x1.Slices ![0, 0] S64x1
  shapeCasts_S1024x1_S1x1024 : S1024x1.ShapeCasts S1x1024
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  inb_S256x64_S256x64_0_0 : ∀ a, (![0, 0] : Fin 2 → Nat) a + S256x64.size a ≤ S256x64.size a
  h_S256x64 : 0 < S256x64.numel
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S1024x128.size a
  hwx0_1 : ∀ i : grid0.Coords, EltTy.bits .f32 = 32 ∨ (Rect.block (s := S1024x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S1024x64.size a
  hwx0_5 : ∀ i : grid0.Coords, EltTy.bits .f32 = 32 ∨ (Rect.block (s := S1024x64) S256x64.size (cc0_transform_5 i) (hinb0_5 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x64 : Shape := ⟨2, ![128, 64]⟩
abbrev S128x1 : Shape := ⟨2, ![128, 1]⟩
abbrev S1024x64 : Shape := ⟨2, ![1024, 64]⟩
abbrev S_ : Shape := ⟨0, ![]⟩
abbrev S1048576 : Shape := ⟨1, ![1048576]⟩
abbrev S1048576x1 : Shape := ⟨2, ![1048576, 1]⟩
abbrev S1 : Shape := ⟨1, ![1]⟩
abbrev S1x1 : Shape := ⟨2, ![1, 1]⟩
abbrev S1048576x64 : Shape := ⟨2, ![1048576, 64]⟩
abbrev S1048576x128 : Shape := ⟨2, ![1048576, 128]⟩
abbrev S1048576x2 : Shape := ⟨2, ![1048576, 2]⟩
abbrev S1024 : Shape := ⟨1, ![1024]⟩
abbrev S1024x1 : Shape := ⟨2, ![1024, 1]⟩

abbrev nBuf : Space → Nat
  | .hbm => 254
  | .vmem => 0
  | .smem => 0
  | _ => 0

abbrev hbmTy0_0 (i : Nat) : BufTy := match i % 128 with
  | 0 => ⟨S1024x128, .f32⟩
  | 1 => ⟨S1024x1024, .f32⟩
  | 2 => ⟨S128x64, .f32⟩
  | 3 => ⟨S128x1, .f32⟩
  | 4 => ⟨S1024x64, .f32⟩
  | 5 => ⟨S_, .f32⟩
  | 6 => ⟨S1024x1024, .f32⟩
  | 7 => ⟨S1024x1024, .i1⟩
  | 8 => ⟨S1024x1024, .i32⟩
  | 9 => ⟨S_, .i32⟩
  | 10 => ⟨S_, .i32⟩
  | 11 => ⟨S_, .f32⟩
  | 12 => ⟨S1024x1024, .f32⟩
  | 13 => ⟨S1024x1024, .i1⟩
  | 14 => ⟨S1048576, .i1⟩
  | 15 => ⟨S1048576, .i32⟩
  | 16 => ⟨S_, .i32⟩
  | 17 => ⟨S_, .i32⟩
  | 18 => ⟨S1048576, .i32⟩
  | 19 => ⟨S_, .i32⟩
  | 20 => ⟨S1048576, .i32⟩
  | 21 => ⟨S_, .i32⟩
  | 22 => ⟨S_, .i32⟩
  | 23 => ⟨S1048576, .i32⟩
  | 24 => ⟨S1048576, .i32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S1048576x1, .i32⟩
  | 33 => ⟨S_, .i32⟩
  | 34 => ⟨S1048576, .i32⟩
  | 35 => ⟨S1048576, .i32⟩
  | 36 => ⟨S_, .i32⟩
  | 37 => ⟨S_, .i32⟩
  | 38 => ⟨S1048576, .i32⟩
  | 39 => ⟨S_, .i32⟩
  | 40 => ⟨S1048576, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S1048576, .i32⟩
  | 47 => ⟨S1048576, .i32⟩
  | 48 => ⟨S_, .i32⟩
  | 49 => ⟨S1048576, .i32⟩
  | 50 => ⟨S1048576, .i1⟩
  | 51 => ⟨S1048576, .i1⟩
  | 52 => ⟨S_, .i32⟩
  | 53 => ⟨S1048576, .i32⟩
  | 54 => ⟨S1048576, .i32⟩
  | 55 => ⟨S1048576, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i1⟩
  | 70 => ⟨S_, .i32⟩
  | 71 => ⟨S_, .i1⟩
  | 72 => ⟨S1048576, .i1⟩
  | 73 => ⟨S1048576, .i1⟩
  | 74 => ⟨S1048576, .i1⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S1048576, .i32⟩
  | 86 => ⟨S1048576, .i32⟩
  | 87 => ⟨S_, .i32⟩
  | 88 => ⟨S1048576, .i32⟩
  | 89 => ⟨S1048576, .i1⟩
  | 90 => ⟨S1048576, .i1⟩
  | 91 => ⟨S_, .i32⟩
  | 92 => ⟨S1048576, .i32⟩
  | 93 => ⟨S1048576, .i32⟩
  | 94 => ⟨S1048576, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i1⟩
  | 106 => ⟨S_, .i32⟩
  | 107 => ⟨S1048576, .i32⟩
  | 108 => ⟨S1048576, .i1⟩
  | 109 => ⟨S_, .i32⟩
  | 110 => ⟨S_, .i1⟩
  | 111 => ⟨S1048576, .i1⟩
  | 112 => ⟨S1048576, .i1⟩
  | 113 => ⟨S1048576, .i1⟩
  | 114 => ⟨S1048576, .i32⟩
  | 115 => ⟨S1048576, .i32⟩
  | 116 => ⟨S1048576, .i32⟩
  | 117 => ⟨S1048576, .i32⟩
  | 118 => ⟨S1024x1024, .i32⟩
  | 119 => ⟨S_, .i32⟩
  | 120 => ⟨S_, .i32⟩
  | 121 => ⟨S1048576, .i32⟩
  | 122 => ⟨S1048576, .i1⟩
  | 123 => ⟨S_, .i32⟩
  | 124 => ⟨S_, .i32⟩
  | 125 => ⟨S1048576, .i32⟩
  | 126 => ⟨S1048576, .i32⟩
  | 127 => ⟨S_, .i32⟩
  | _ => ⟨S1024x128, .f32⟩

abbrev hbmTy0_1 (i : Nat) : BufTy := match i % 128 with
  | 0 => ⟨S_, .i32⟩
  | 1 => ⟨S1048576, .i32⟩
  | 2 => ⟨S1048576, .i32⟩
  | 3 => ⟨S1048576, .i32⟩
  | 4 => ⟨S1048576, .i32⟩
  | 5 => ⟨S1048576, .i1⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S1, .i32⟩
  | 15 => ⟨S_, .i32⟩
  | 16 => ⟨S1048576x1, .i32⟩
  | 17 => ⟨S1048576x1, .i1⟩
  | 18 => ⟨S1x1, .i32⟩
  | 19 => ⟨S1048576x1, .i32⟩
  | 20 => ⟨S1048576x1, .i1⟩
  | 21 => ⟨S1048576x1, .i1⟩
  | 22 => ⟨S_, .i1⟩
  | 23 => ⟨S1048576, .i1⟩
  | 24 => ⟨S1048576x64, .f32⟩
  | 25 => ⟨S1048576x64, .i1⟩
  | 26 => ⟨S_, .f32⟩
  | 27 => ⟨S1048576x64, .f32⟩
  | 28 => ⟨S1048576x64, .f32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S1048576x1, .i32⟩
  | 37 => ⟨S1, .i32⟩
  | 38 => ⟨S_, .i32⟩
  | 39 => ⟨S1048576x1, .i32⟩
  | 40 => ⟨S1048576x1, .i1⟩
  | 41 => ⟨S1x1, .i32⟩
  | 42 => ⟨S1048576x1, .i32⟩
  | 43 => ⟨S1048576x1, .i1⟩
  | 44 => ⟨S1048576x1, .i1⟩
  | 45 => ⟨S_, .i1⟩
  | 46 => ⟨S1048576, .i1⟩
  | 47 => ⟨S1048576x64, .f32⟩
  | 48 => ⟨S1048576x64, .i1⟩
  | 49 => ⟨S_, .f32⟩
  | 50 => ⟨S1048576x64, .f32⟩
  | 51 => ⟨S1048576x64, .f32⟩
  | 52 => ⟨S1048576x128, .f32⟩
  | 53 => ⟨S1048576x1, .f32⟩
  | 54 => ⟨S_, .f32⟩
  | 55 => ⟨S_, .f32⟩
  | 56 => ⟨S1048576x1, .f32⟩
  | 57 => ⟨S1048576x1, .i1⟩
  | 58 => ⟨S_, .f32⟩
  | 59 => ⟨S1048576x1, .f32⟩
  | 60 => ⟨S1048576x1, .f32⟩
  | 61 => ⟨S1048576x1, .f32⟩
  | 62 => ⟨S1048576, .f32⟩
  | 63 => ⟨S_, .f32⟩
  | 64 => ⟨S_, .f32⟩
  | 65 => ⟨S1048576, .f32⟩
  | 66 => ⟨S1048576, .f32⟩
  | 67 => ⟨S_, .f32⟩
  | 68 => ⟨S1024x1024, .f32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i32⟩
  | 82 => ⟨S1048576, .i32⟩
  | 83 => ⟨S1048576x1, .i32⟩
  | 84 => ⟨S1048576x1, .i32⟩
  | 85 => ⟨S1048576x2, .i32⟩
  | 86 => ⟨S1024x1024, .f32⟩
  | 87 => ⟨S_, .f32⟩
  | 88 => ⟨S1024x1024, .f32⟩
  | 89 => ⟨S_, .f32⟩
  | 90 => ⟨S1024x1024, .f32⟩
  | 91 => ⟨S1024x1024, .f32⟩
  | 92 => ⟨S_, .f32⟩
  | 93 => ⟨S1024x1024, .f32⟩
  | 94 => ⟨S1024x1024, .i1⟩
  | 95 => ⟨S1024x1024, .f32⟩
  | 96 => ⟨S_, .f32⟩
  | 97 => ⟨S1024, .f32⟩
  | 98 => ⟨S_, .f32⟩
  | 99 => ⟨S1024, .f32⟩
  | 100 => ⟨S1024, .f32⟩
  | 101 => ⟨S1024x1, .f32⟩
  | 102 => ⟨S1024x1024, .f32⟩
  | 103 => ⟨S1024x1024, .f32⟩
  | 104 => ⟨S1024x1024, .f32⟩
  | 105 => ⟨S_, .f32⟩
  | 106 => ⟨S1024, .f32⟩
  | 107 => ⟨S1024x1, .f32⟩
  | 108 => ⟨S1024x1024, .f32⟩
  | 109 => ⟨S1024x1024, .f32⟩
  | 110 => ⟨S1024x64, .f32⟩
  | 111 => ⟨S_, .f32⟩
  | 112 => ⟨S1024x64, .f32⟩
  | 113 => ⟨S1024x64, .i1⟩
  | 114 => ⟨S_, .f32⟩
  | 115 => ⟨S1024x64, .f32⟩
  | 116 => ⟨S1024x64, .i1⟩
  | 117 => ⟨S_, .f32⟩
  | 118 => ⟨S_, .f32⟩
  | 119 => ⟨S1024x64, .f32⟩
  | 120 => ⟨S1024x64, .f32⟩
  | 121 => ⟨S1024x64, .f32⟩
  | 122 => ⟨S_, .f32⟩
  | 123 => ⟨S1024x64, .f32⟩
  | 124 => ⟨S1024x64, .f32⟩
  | 125 => ⟨S1024x64, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_call0_c : Ref sig .tc := ⟨.hbm, 16, rfl⟩
abbrev main_call1_call0_v0 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_c_0 : Ref sig .tc := ⟨.hbm, 21, rfl⟩
abbrev main_call2_v0 : Ref sig .tc := ⟨.hbm, 22, rfl⟩
abbrev main_call2_v1 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_call3_call0_c : Ref sig .tc := ⟨.hbm, 36, rfl⟩
abbrev main_call3_call0_v0 : Ref sig .tc := ⟨.hbm, 37, rfl⟩
abbrev main_v15 : Ref sig .tc := ⟨.hbm, 38, rfl⟩
abbrev main_c_4 : Ref sig .tc := ⟨.hbm, 39, rfl⟩
abbrev main_call4_v0 : Ref sig .tc := ⟨.hbm, 40, rfl⟩
abbrev main_call4_v1 : Ref sig .tc := ⟨.hbm, 41, rfl⟩
abbrev main_call4_v2 : Ref sig .tc := ⟨.hbm, 42, rfl⟩
abbrev main_call4_v3 : Ref sig .tc := ⟨.hbm, 43, rfl⟩
abbrev main_call4_v4 : Ref sig .tc := ⟨.hbm, 44, rfl⟩
abbrev main_call4_v5 : Ref sig .tc := ⟨.hbm, 45, rfl⟩
abbrev main_call4_v6 : Ref sig .tc := ⟨.hbm, 46, rfl⟩
abbrev main_call4_v7 : Ref sig .tc := ⟨.hbm, 47, rfl⟩
abbrev main_call4_c : Ref sig .tc := ⟨.hbm, 48, rfl⟩
abbrev main_call4_v8 : Ref sig .tc := ⟨.hbm, 49, rfl⟩
abbrev main_call4_v9 : Ref sig .tc := ⟨.hbm, 50, rfl⟩
abbrev main_call4_v10 : Ref sig .tc := ⟨.hbm, 51, rfl⟩
abbrev main_call4_c_0 : Ref sig .tc := ⟨.hbm, 52, rfl⟩
abbrev main_call4_v11 : Ref sig .tc := ⟨.hbm, 53, rfl⟩
abbrev main_call4_v12 : Ref sig .tc := ⟨.hbm, 54, rfl⟩
abbrev main_v16 : Ref sig .tc := ⟨.hbm, 55, rfl⟩
abbrev main_c_5 : Ref sig .tc := ⟨.hbm, 56, rfl⟩
abbrev main_call5_v0 : Ref sig .tc := ⟨.hbm, 57, rfl⟩
abbrev main_call5_c : Ref sig .tc := ⟨.hbm, 58, rfl⟩
abbrev main_call5_v1 : Ref sig .tc := ⟨.hbm, 59, rfl⟩
abbrev main_call5_c_0 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_call5_c_1 : Ref sig .tc := ⟨.hbm, 64, rfl⟩
abbrev main_call5_v5 : Ref sig .tc := ⟨.hbm, 65, rfl⟩
abbrev main_call5_v6 : Ref sig .tc := ⟨.hbm, 66, rfl⟩
abbrev main_call5_c_2 : Ref sig .tc := ⟨.hbm, 67, rfl⟩
abbrev main_call5_v7 : Ref sig .tc := ⟨.hbm, 68, rfl⟩
abbrev main_call5_v8 : Ref sig .tc := ⟨.hbm, 69, rfl⟩
abbrev main_call5_c_3 : Ref sig .tc := ⟨.hbm, 70, rfl⟩
abbrev main_call5_v9 : Ref sig .tc := ⟨.hbm, 71, rfl⟩
abbrev main_call5_v10 : Ref sig .tc := ⟨.hbm, 72, rfl⟩
abbrev main_call5_v11 : Ref sig .tc := ⟨.hbm, 73, rfl⟩
abbrev main_call5_v12 : Ref sig .tc := ⟨.hbm, 74, rfl⟩
abbrev main_call5_v13 : Ref sig .tc := ⟨.hbm, 75, rfl⟩
abbrev main_call5_v14 : Ref sig .tc := ⟨.hbm, 76, rfl⟩
abbrev main_v17 : Ref sig .tc := ⟨.hbm, 77, rfl⟩
abbrev main_c_6 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_call6_v5 : Ref sig .tc := ⟨.hbm, 84, rfl⟩
abbrev main_call6_v6 : Ref sig .tc := ⟨.hbm, 85, rfl⟩
abbrev main_call6_v7 : Ref sig .tc := ⟨.hbm, 86, rfl⟩
abbrev main_call6_c : Ref sig .tc := ⟨.hbm, 87, rfl⟩
abbrev main_call6_v8 : Ref sig .tc := ⟨.hbm, 88, rfl⟩
abbrev main_call6_v9 : Ref sig .tc := ⟨.hbm, 89, rfl⟩
abbrev main_call6_v10 : Ref sig .tc := ⟨.hbm, 90, rfl⟩
abbrev main_call6_c_0 : Ref sig .tc := ⟨.hbm, 91, rfl⟩
abbrev main_call6_v11 : Ref sig .tc := ⟨.hbm, 92, rfl⟩
abbrev main_call6_v12 : Ref sig .tc := ⟨.hbm, 93, rfl⟩
abbrev main_v18 : Ref sig .tc := ⟨.hbm, 94, rfl⟩
abbrev main_c_7 : Ref sig .tc := ⟨.hbm, 95, rfl⟩
abbrev main_call7_v0 : Ref sig .tc := ⟨.hbm, 96, rfl⟩
abbrev main_call7_c : Ref sig .tc := ⟨.hbm, 97, rfl⟩
abbrev main_call7_v1 : Ref sig .tc := ⟨.hbm, 98, rfl⟩
abbrev main_call7_c_0 : Ref sig .tc := ⟨.hbm, 99, rfl⟩
abbrev main_call7_v2 : Ref sig .tc := ⟨.hbm, 100, rfl⟩
abbrev main_call7_v3 : Ref sig .tc := ⟨.hbm, 101, rfl⟩
abbrev main_call7_v4 : Ref sig .tc := ⟨.hbm, 102, rfl⟩
abbrev main_call7_c_1 : Ref sig .tc := ⟨.hbm, 103, rfl⟩
abbrev main_call7_v5 : Ref sig .tc := ⟨.hbm, 104, rfl⟩
abbrev main_call7_v6 : Ref sig .tc := ⟨.hbm, 105, rfl⟩
abbrev main_call7_c_2 : Ref sig .tc := ⟨.hbm, 106, rfl⟩
abbrev main_call7_v7 : Ref sig .tc := ⟨.hbm, 107, rfl⟩
abbrev main_call7_v8 : Ref sig .tc := ⟨.hbm, 108, rfl⟩
abbrev main_call7_c_3 : Ref sig .tc := ⟨.hbm, 109, rfl⟩
abbrev main_call7_v9 : Ref sig .tc := ⟨.hbm, 110, rfl⟩
abbrev main_call7_v10 : Ref sig .tc := ⟨.hbm, 111, rfl⟩
abbrev main_call7_v11 : Ref sig .tc := ⟨.hbm, 112, rfl⟩
abbrev main_call7_v12 : Ref sig .tc := ⟨.hbm, 113, rfl⟩
abbrev main_call7_v13 : Ref sig .tc := ⟨.hbm, 114, rfl⟩
abbrev main_call7_v14 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_c_8 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_c_9 : Ref sig .tc := ⟨.hbm, 123, rfl⟩
abbrev main_call8_v0 : Ref sig .tc := ⟨.hbm, 124, rfl⟩
abbrev main_call8_v1 : Ref sig .tc := ⟨.hbm, 125, rfl⟩
abbrev main_v25 : Ref sig .tc := ⟨.hbm, 126, rfl⟩
abbrev main_c_10 : Ref sig .tc := ⟨.hbm, 127, rfl⟩
abbrev main_call9_v0 : Ref sig .tc := ⟨.hbm, 128, rfl⟩
abbrev main_call9_v1 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_call10_c : Ref sig .tc := ⟨.hbm, 134, rfl⟩
abbrev main_call10_v0 : Ref sig .tc := ⟨.hbm, 135, rfl⟩
abbrev main_call10_v1 : Ref sig .tc := ⟨.hbm, 136, rfl⟩
abbrev main_call10_c_0 : Ref sig .tc := ⟨.hbm, 137, rfl⟩
abbrev main_call10_v2 : Ref sig .tc := ⟨.hbm, 138, rfl⟩
abbrev main_call10_v3 : Ref sig .tc := ⟨.hbm, 139, rfl⟩
abbrev main_call10_v4 : Ref sig .tc := ⟨.hbm, 140, rfl⟩
abbrev main_call10_v5 : Ref sig .tc := ⟨.hbm, 141, rfl⟩
abbrev main_call10_c_1 : Ref sig .tc := ⟨.hbm, 142, rfl⟩
abbrev main_call10_c_2 : Ref sig .tc := ⟨.hbm, 143, rfl⟩
abbrev main_call10_v6 : Ref sig .tc := ⟨.hbm, 144, rfl⟩
abbrev main_call10_v7 : Ref sig .tc := ⟨.hbm, 145, rfl⟩
abbrev main_call10_v8 : Ref sig .tc := ⟨.hbm, 146, rfl⟩
abbrev main_call10_v9 : Ref sig .tc := ⟨.hbm, 147, rfl⟩
abbrev main_call10_v10 : Ref sig .tc := ⟨.hbm, 148, rfl⟩
abbrev main_call10_v11 : Ref sig .tc := ⟨.hbm, 149, rfl⟩
abbrev main_call10_c_3 : Ref sig .tc := ⟨.hbm, 150, rfl⟩
abbrev main_call10_v12 : Ref sig .tc := ⟨.hbm, 151, rfl⟩
abbrev main_call10_v13 : Ref sig .tc := ⟨.hbm, 152, rfl⟩
abbrev main_call10_v14 : Ref sig .tc := ⟨.hbm, 153, rfl⟩
abbrev main_call10_cst : Ref sig .tc := ⟨.hbm, 154, rfl⟩
abbrev main_call10_v15 : Ref sig .tc := ⟨.hbm, 155, rfl⟩
abbrev main_v30 : Ref sig .tc := ⟨.hbm, 156, rfl⟩
abbrev main_call11_c : Ref sig .tc := ⟨.hbm, 157, rfl⟩
abbrev main_call11_v0 : Ref sig .tc := ⟨.hbm, 158, rfl⟩
abbrev main_call11_v1 : Ref sig .tc := ⟨.hbm, 159, rfl⟩
abbrev main_call11_c_0 : Ref sig .tc := ⟨.hbm, 160, rfl⟩
abbrev main_call11_v2 : Ref sig .tc := ⟨.hbm, 161, rfl⟩
abbrev main_call11_v3 : Ref sig .tc := ⟨.hbm, 162, rfl⟩
abbrev main_call11_v4 : Ref sig .tc := ⟨.hbm, 163, rfl⟩
abbrev main_call11_v5 : Ref sig .tc := ⟨.hbm, 164, rfl⟩
abbrev main_call11_c_1 : Ref sig .tc := ⟨.hbm, 165, rfl⟩
abbrev main_call11_c_2 : Ref sig .tc := ⟨.hbm, 166, rfl⟩
abbrev main_call11_v6 : Ref sig .tc := ⟨.hbm, 167, rfl⟩
abbrev main_call11_v7 : Ref sig .tc := ⟨.hbm, 168, rfl⟩
abbrev main_call11_v8 : Ref sig .tc := ⟨.hbm, 169, rfl⟩
abbrev main_call11_v9 : Ref sig .tc := ⟨.hbm, 170, rfl⟩
abbrev main_call11_v10 : Ref sig .tc := ⟨.hbm, 171, rfl⟩
abbrev main_call11_v11 : Ref sig .tc := ⟨.hbm, 172, rfl⟩
abbrev main_call11_c_3 : Ref sig .tc := ⟨.hbm, 173, rfl⟩
abbrev main_call11_v12 : Ref sig .tc := ⟨.hbm, 174, rfl⟩
abbrev main_call11_v13 : Ref sig .tc := ⟨.hbm, 175, rfl⟩
abbrev main_call11_v14 : Ref sig .tc := ⟨.hbm, 176, rfl⟩
abbrev main_call11_cst : Ref sig .tc := ⟨.hbm, 177, rfl⟩
abbrev main_call11_v15 : Ref sig .tc := ⟨.hbm, 178, rfl⟩
abbrev main_v31 : Ref sig .tc := ⟨.hbm, 179, rfl⟩
abbrev main_v32 : Ref sig .tc := ⟨.hbm, 180, rfl⟩
abbrev main_v33 : Ref sig .tc := ⟨.hbm, 181, rfl⟩
abbrev main_cst_11 : Ref sig .tc := ⟨.hbm, 182, rfl⟩
abbrev main_call12_cst : Ref sig .tc := ⟨.hbm, 183, rfl⟩
abbrev main_call12_v0 : Ref sig .tc := ⟨.hbm, 184, rfl⟩
abbrev main_call12_v1 : Ref sig .tc := ⟨.hbm, 185, rfl⟩
abbrev main_call12_v2 : Ref sig .tc := ⟨.hbm, 186, rfl⟩
abbrev main_call12_v3 : Ref sig .tc := ⟨.hbm, 187, rfl⟩
abbrev main_call12_v4 : Ref sig .tc := ⟨.hbm, 188, rfl⟩
abbrev main_v34 : Ref sig .tc := ⟨.hbm, 189, rfl⟩
abbrev main_v35 : Ref sig .tc := ⟨.hbm, 190, rfl⟩
abbrev main_cst_12 : Ref sig .tc := ⟨.hbm, 191, rfl⟩
abbrev main_call13_v0 : Ref sig .tc := ⟨.hbm, 192, rfl⟩
abbrev main_call13_v1 : Ref sig .tc := ⟨.hbm, 193, rfl⟩
abbrev main_v36 : Ref sig .tc := ⟨.hbm, 194, rfl⟩
abbrev main_cst_13 : Ref sig .tc := ⟨.hbm, 195, rfl⟩
abbrev main_v37 : Ref sig .tc := ⟨.hbm, 196, rfl⟩
abbrev main_c_14 : Ref sig .tc := ⟨.hbm, 197, rfl⟩
abbrev main_v38 : Ref sig .tc := ⟨.hbm, 198, rfl⟩
abbrev main_v39 : Ref sig .tc := ⟨.hbm, 199, rfl⟩
abbrev main_c_15 : Ref sig .tc := ⟨.hbm, 200, rfl⟩
abbrev main_v40 : Ref sig .tc := ⟨.hbm, 201, rfl⟩
abbrev main_v41 : Ref sig .tc := ⟨.hbm, 202, rfl⟩
abbrev main_v42 : Ref sig .tc := ⟨.hbm, 203, rfl⟩
abbrev main_c_16 : Ref sig .tc := ⟨.hbm, 204, rfl⟩
abbrev main_v43 : Ref sig .tc := ⟨.hbm, 205, rfl⟩
abbrev main_v44 : Ref sig .tc := ⟨.hbm, 206, rfl⟩
abbrev main_c_17 : Ref sig .tc := ⟨.hbm, 207, rfl⟩
abbrev main_v45 : Ref sig .tc := ⟨.hbm, 208, rfl⟩
abbrev main_v46 : Ref sig .tc := ⟨.hbm, 209, rfl⟩
abbrev main_v47 : Ref sig .tc := ⟨.hbm, 210, rfl⟩
abbrev main_v48 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_cst_18 : Ref sig .tc := ⟨.hbm, 215, rfl⟩
abbrev main_v52 : Ref sig .tc := ⟨.hbm, 216, rfl⟩
abbrev main_cst_19 : Ref sig .tc := ⟨.hbm, 217, rfl⟩
abbrev main_v53 : Ref sig .tc := ⟨.hbm, 218, rfl⟩
abbrev main_v54 : Ref sig .tc := ⟨.hbm, 219, rfl⟩
abbrev main_cst_20 : Ref sig .tc := ⟨.hbm, 220, rfl⟩
abbrev main_v55 : Ref sig .tc := ⟨.hbm, 221, rfl⟩
abbrev main_v56 : Ref sig .tc := ⟨.hbm, 222, rfl⟩
abbrev main_v57 : Ref sig .tc := ⟨.hbm, 223, rfl⟩
abbrev main_cst_21 : Ref sig .tc := ⟨.hbm, 224, rfl⟩
abbrev main_v58 : Ref sig .tc := ⟨.hbm, 225, rfl⟩
abbrev main_cst_22 : Ref sig .tc := ⟨.hbm, 226, rfl⟩
abbrev main_v59 : Ref sig .tc := ⟨.hbm, 227, rfl⟩
abbrev main_v60 : Ref sig .tc := ⟨.hbm, 228, rfl⟩
abbrev main_v61 : Ref sig .tc := ⟨.hbm, 229, rfl⟩
abbrev main_v62 : Ref sig .tc := ⟨.hbm, 230, rfl⟩
abbrev main_v63 : Ref sig .tc := ⟨.hbm, 231, rfl⟩
abbrev main_v64 : Ref sig .tc := ⟨.hbm, 232, rfl⟩
abbrev main_cst_23 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_v68 : Ref sig .tc := ⟨.hbm, 237, rfl⟩
abbrev main_v69 : Ref sig .tc := ⟨.hbm, 238, rfl⟩
abbrev main_call15_cst : Ref sig .tc := ⟨.hbm, 239, rfl⟩
abbrev main_call15_v0 : Ref sig .tc := ⟨.hbm, 240, rfl⟩
abbrev main_call15_v1 : Ref sig .tc := ⟨.hbm, 241, rfl⟩
abbrev main_call15_cst_0 : Ref sig .tc := ⟨.hbm, 242, rfl⟩
abbrev main_call15_v2 : Ref sig .tc := ⟨.hbm, 243, rfl⟩
abbrev main_call15_v3 : Ref sig .tc := ⟨.hbm, 244, rfl⟩
abbrev main_call15_cst_1 : Ref sig .tc := ⟨.hbm, 245, rfl⟩
abbrev main_call15_call0_v0 : Ref sig .tc := ⟨.hbm, 246, rfl⟩
abbrev main_call15_call0_v1 : Ref sig .tc := ⟨.hbm, 247, rfl⟩
abbrev main_call15_v4 : Ref sig .tc := ⟨.hbm, 248, rfl⟩
abbrev main_call15_v5 : Ref sig .tc := ⟨.hbm, 249, rfl⟩
abbrev main_call15_cst_2 : Ref sig .tc := ⟨.hbm, 250, rfl⟩
abbrev main_call15_v6 : Ref sig .tc := ⟨.hbm, 251, rfl⟩
abbrev main_call15_v7 : Ref sig .tc := ⟨.hbm, 252, rfl⟩
abbrev main_v70 : Ref sig .tc := ⟨.hbm, 253, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  natLt_1_32 : 1 < 32
  reducesTo_S1024x1024_S_d0_1 : S1024x1024.ReducesTo [0, 1] S_
  h_S_ : 0 < S_.numel
  shapeCasts_S1024x1024_S1048576 : S1024x1024.ShapeCasts S1048576
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  bcast_S1048576_S1048576x64_0 : S1048576.BroadcastsInDim S1048576x64 (![0] : Fin 1 → Fin S1048576x64.rank)
  bcast_S_S1048576x64 : S_.BroadcastsInDim S1048576x64 (![] : Fin 0 → Fin S1048576x64.rank)
  concatenates_S1048576x64_S1048576x64_S1048576x128_d1 : Shape.Concatenates [S1048576x64, S1048576x64] S1048576x128 1
  shapeCasts_S1048576x1_S1048576 : S1048576x1.ShapeCasts S1048576
  concatenates_S1048576x1_S1048576x1_S1048576x2_d1 : Shape.Concatenates [S1048576x1, S1048576x1] S1048576x2 1
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S_S1024x64 : S_.BroadcastsInDim S1024x64 (![] : Fin 0 → Fin S1024x64.rank)
  dot_S1024x128_S128x64_S1024x64_1_0_0_1_n_n_wf : DotDims.WF S1024x128 S128x64 S1024x64 [1] [0] [0] [1] [] []
  scatter_S1048576_S1048576x1_S1048576_n_0_0_1_wf : ScatterDims.WF S1048576 S1048576x1 S1048576 [] [0] [0] 1
  gather_S1024x64_S1048576x1_S1048576x64_1_0_n_n_0_1_164_wf : GatherDims.WF S1024x64 S1048576x1 S1048576x64 [1] [0] [] [0] [] 1 ![1, 64]
  dot_S1048576x128_S128x1_S1048576x1_1_0_0_1_n_n_wf : DotDims.WF S1048576x128 S128x1 S1048576x1 [1] [0] [0] [1] [] []
  scatter_S1024x1024_S1048576x2_S1048576_n_01_01_1_wf : ScatterDims.WF S1024x1024 S1048576x2 S1048576 [] [0, 1] [0, 1] 1
  dot_S1024x1024_S1024x64_S1024x64_1_0_0_1_n_n_wf : DotDims.WF S1024x1024 S1024x64 S1024x64 [1] [0] [0] [1] [] []

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def gather_S1024x64_S1048576x1_S1048576x64_1_0_n_n_0_1_164 : GatherDims S1024x64 S1048576x1 S1048576x64 where
  offsetDims := [1]
  collapsedSliceDims := [0]
  operandBatchingDims := []
  startIndicesBatchingDims := []
  startIndexMap := [0]
  indexVectorDim := 1
  sliceSizes := ![1, 64]
  wf := gather_S1024x64_S1048576x1_S1048576x64_1_0_n_n_0_1_164_wf
def dot_S1048576x128_S128x1_S1048576x1_1_0_0_1_n_n : DotDims S1048576x128 S128x1 S1048576x1 where
  lhsContracting := [1]
  rhsContracting := [0]
  lhsNonContracting := [0]
  rhsNonContracting := [1]
  lhsBatch := []
  rhsBatch := []
  wf := dot_S1048576x128_S128x1_S1048576x1_1_0_0_1_n_n_wf
def scatter_S1024x1024_S1048576x2_S1048576_n_01_01_1 : ScatterDims S1024x1024 S1048576x2 S1048576 where
  updateWindowDims := []
  insertedWindowDims := [0, 1]
  scatterDimsToOperandDims := [0, 1]
  indexVectorDim := 1
  wf := scatter_S1024x1024_S1048576x2_S1048576_n_01_01_1_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

class Facts : Prop extends Facts₀ where

variable [Facts]
-- ==== Proof.Spec.lean ====
/-
  The mathematics both programs compute, as ONE function of the four argument arrays over the extended reals.

  A graph-attention layer on N = 1024 nodes with 128 input and 64 output features. With h = x·W the projected
  features, the score of the ordered pair (i, j) is leaky(f i + g j), where f i = h i · a[0:64] and
  g j = h j · a[64:128] (one inner product with the 128-vector a, split at its middle). A pair enters the row
  softmax with its score where adj i j > 0 and with the fill -9e15 elsewhere; the row's weights are
  exp(logit - rowmax) normalised by their sum; the output is elu of the weighted sum of the rows of h.
  Comparisons and selections are spelled as the instance spells them (an i1 and a select on it), so that
  either program's text reads onto these definitions without a case split.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals. -/
abbrev Arr (n0 n1 : Nat) : Type := (⟨2, ![n0, n1]⟩ : Shape).Idx → EReal

/-- The float zero, the leaky slope 0.2, the masked fill -9e15 and the float one, each as the value its f32 word denotes. -/
def zero : EReal := Ideal.ofBits .f32 0x00000000#32
def slope : EReal := Ideal.ofBits .f32 0x3E4CCCCD#32
def negBig : EReal := Ideal.ofBits .f32 0xD9FFCB9E#32
def one : EReal := Ideal.ofBits .f32 0x3F800000#32

/-- Row c of a's upper half, and of its lower half: a is one column of 128 entries. -/
def lo (c : Fin 64) : Fin 128 := ⟨c.val, by omega⟩
def hi (c : Fin 64) : Fin 128 := ⟨64 + c.val, by omega⟩

section
variable (x : Arr 1024 128) (adj : Arr 1024 1024) (W : Arr 128 64) (a : Arr 128 1)

/-- The projected features h = x·W. -/
def h (i : Fin 1024) (c : Fin 64) : EReal := ∑ k : Fin 128, x (ix2 i k) * W (ix2 k c)

/-- The source half of a pair's score: h i against a's first 64 entries. -/
def f (i : Fin 1024) : EReal := ∑ c : Fin 64, h x W i c * a (ix2 (lo c) (0 : Fin 1))

/-- The target half: h j against a's last 64 entries. -/
def g (j : Fin 1024) : EReal := ∑ c : Fin 64, h x W j c * a (ix2 (hi c) (0 : Fin 1))

/-- leaky_relu with slope 0.2: s where s ≥ 0, else 0.2·s. -/
def leaky (s : EReal) : EReal := Scalar.select (Ideal.cmp .oge s zero) s (slope * s)

/-- The pair's raw score. -/
def score (i j : Fin 1024) : EReal := leaky (f x W a i + g x W a j)

/-- The pair's logit: its score on an edge (adj > 0), the fill elsewhere. -/
def logit (i j : Fin 1024) : EReal := Scalar.select (Ideal.cmp .ogt (adj (ix2 i j)) zero) (score x W a i j) negBig

/-- The row's maximum, folded from -∞. -/
def rowMax (i : Fin 1024) : EReal := (Finset.univ : Finset (Fin 1024)).fold max ⊥ (fun j => logit x adj W a i j)

/-- The unnormalised weight. -/
def wgt (i j : Fin 1024) : EReal := Ideal.exp (logit x adj W a i j - rowMax x adj W a i)

/-- The row's normaliser. -/
def den (i : Fin 1024) : EReal := ∑ j : Fin 1024, wgt x adj W a i j

/-- The attention weight of j in row i. -/
def att (i j : Fin 1024) : EReal := Ideal.div (wgt x adj W a i j) (den x adj W a i)

/-- The aggregated features before the activation. -/
def agg (i : Fin 1024) (c : Fin 64) : EReal := ∑ j : Fin 1024, att x adj W a i j * h x W j c

/-- elu: y where y > 0, else exp y - 1. -/
def elu (y : EReal) : EReal := Scalar.select (Ideal.cmp .ogt y zero) y (Ideal.exp y - one)

/-- The layer's output. -/
def G : Arr 1024 64 := fun i => elu (agg x adj W a (i 0) (i 1))

theorem G_apply (p : Fin 1024) (q : Fin 64) : G x adj W a (ix2 p q) = elu (agg x adj W a p q) := rfl

end

end Cert.Spec

end
-- ==== Proof.RefTerm.lean ====
/-
  The reference program's result as ONE pure term of its four argument arrays, stage by stage: each definition is the
  function one stretch of @main's operations applies (an outlined jnp function is one stage). The stages follow the
  source: h = x·W; the nonzero mask of adj, its running count, the histogram of that count and the histogram's running
  sum (jnp.nonzero's flat positions); row and column of each position; the endpoints' features gathered, scored against a
  and passed through leaky_relu; the scores scattered back to a dense matrix; the masked row softmax; the aggregation; elu.
-/
import proofs.«123027_g70274254897801_cont_sun_c4_842_6_alg».proof.ReferenceIdeal

noncomputable section

namespace Cert.ReferenceIdeal.Term

open Idealize.ShloMosaic Cert.ReferenceIdeal

variable {F : FTy → Type} [FloatOps F] [Facts]
open Facts₀ Facts

/-- A 32-bit word splat over the flat positions. -/
def splat (v : BitVec 32) : IVec S1048576 32 := broadcastInDim S1048576 ![] bcast_S_S1048576 (constantI S_ 32 v)

/-- A scalar word splat over the flat positions. -/
def splatS (d : IVec S_ 32) : IVec S1048576 32 := broadcastInDim S1048576 ![] bcast_S_S1048576 d

/-- The float zero splat over the adjacency's shape. -/
def zerosNN : FVec F S1024x1024 .f32 := broadcastInDim S1024x1024 ![] bcast_S_S1024x1024 (constant S_ .f32 0x00000000#32)

/-- h = x·W on the host. -/
def feat (x : FVec F S1024x128 .f32) (W : FVec F S128x64 .f32) : FVec F S1024x64 .f32 :=
  Host.dotGeneral dot_S1024x128_S128x64_S1024x64_1_0_0_1_n_n none x W

/-- Where adj is nonzero. -/
def nz (adj : FVec F S1024x1024 .f32) : IVec S1024x1024 1 := cmpf .une adj zerosNN

/-- The number of nonzero entries of adj. -/
def count (adj : FVec F S1024x1024 .f32) : IVec S_ 32 :=
  Host.reduce IntOp.addi (extui 32 (nz adj) natLt_1_32) (constantI S_ 32 0#32) reducesTo_S1024x1024_S_d0_1 h_S_

/-- jnp.cumsum of 32-bit words: a full-width window padded low. -/
def cumsum (v : IVec S1048576 32) : IVec S1048576 32 :=
  Host.reduceWindow IntOp.addi ![1048576] ![1] ![1048575] ![0] v (broadcastInDim S_ ![] bcast_S_S_ (constantI S_ 32 0#32))
    reduceWindows_S1048576_S1048576_w1048576s1p1048575_0 h_S_

/-- The running count of nonzero entries, in row-major order. -/
def running (adj : FVec F S1024x1024 .f32) : IVec S1048576 32 :=
  cumsum (extui 32 (shapeCast S1048576 (nz adj) shapeCasts_S1024x1024_S1048576) natLt_1_32)

/-- A negative index wrapped by the axis length n (jnp's index normalisation). -/
def wrap (n : BitVec 32) (v : IVec S1048576 32) : IVec S1048576 32 :=
  select (cmpi .slt v (splat 0#32)) (addi v (splat n)) v

/-- The histogram's bin of each position: its running count, clipped below at zero and wrapped. -/
def binOf (adj : FVec F S1024x1024 .f32) : IVec S1048576 32 :=
  wrap 1048576#32 (maxsi (splatS (constantI S_ 32 0#32)) (running adj))

/-- jnp.bincount of the running counts: how many positions have each running count (a count equal to the length is dropped). -/
def hist (adj : FVec F S1024x1024 .f32) : IVec S1048576 32 :=
  Host.scatter scatter_S1048576_S1048576x1_S1048576_n_0_0_1 IntOp.addi (splat 0#32)
    (broadcastInDim S1048576x1 ![0] bcast_S1048576_S1048576x1_0 (binOf adj)) (splat 1#32)

/-- The flat position of the k-th nonzero entry: the histogram's running sum. -/
def flat (adj : FVec F S1024x1024 .f32) : IVec S1048576 32 := cumsum (hist adj)

/-- jnp.floor_divide by a scalar word. -/
def floorDiv (v : IVec S1048576 32) (d : IVec S_ 32) : IVec S1048576 32 :=
  select (andi (cmpi .ne (signi v) (splatS (signi d))) (cmpi .ne (Host.remsi v (splatS d)) (splat 0#32)))
    (subi (Host.divsi v (splatS d)) (splat 1#32)) (Host.divsi v (splatS d))

/-- The divisor jnp.remainder uses: 1 in place of 0. -/
def safeDiv (d : IVec S_ 32) : IVec S_ 32 := select (cmpi .eq d (constantI S_ 32 0#32)) (constantI S_ 32 1#32) d

/-- jnp.remainder by a scalar word (the result takes the divisor's sign). -/
def remainder (v : IVec S1048576 32) (d : IVec S_ 32) : IVec S1048576 32 :=
  select
    (andi (cmpi .ne (cmpi .slt (Host.remsi v (splatS (safeDiv d))) (splat 0#32))
                    (broadcastInDim S1048576 ![] bcast_S_S1048576 (cmpi .slt (safeDiv d) (constantI S_ 32 0#32))))
          (cmpi .ne (Host.remsi v (splatS (safeDiv d))) (splat 0#32)))
    (addi (Host.remsi v (splatS (safeDiv d))) (splatS (safeDiv d)))
    (Host.remsi v (splatS (safeDiv d)))

/-- The positions 0, 1, 2, … -/
def iota : IVec S1048576 32 := iotaInDim S1048576 32 0

/-- Slots past the number of nonzero entries: filled with index 0. -/
def pastEnd (adj : FVec F S1024x1024 .f32) : IVec S1048576 1 := cmpi .sge iota (splatS (count adj))

/-- The row of each listed entry. -/
def src (adj : FVec F S1024x1024 .f32) : IVec S1048576 32 :=
  select (pastEnd adj) (splatS (constantI S_ 32 0#32))
    (remainder (floorDiv (flat adj) (constantI S_ 32 1024#32)) (constantI S_ 32 1024#32))

/-- The column of each listed entry. -/
def dst (adj : FVec F S1024x1024 .f32) : IVec S1048576 32 :=
  select (pastEnd adj) (splatS (constantI S_ 32 0#32))
    (remainder (floorDiv (flat adj) (constantI S_ 32 1#32)) (constantI S_ 32 1024#32))

/-- Slots that list an entry. -/
def valid (adj : FVec F S1024x1024 .f32) : IVec S1048576 1 := cmpi .slt iota (splatS (count adj))

/-- The gather's start indices: the wrapped row numbers as a column. -/
def takeIdx (idx : IVec S1048576 32) : IVec S1048576x1 32 :=
  broadcastInDim S1048576x1 ![0] bcast_S1048576_S1048576x1_0 (wrap 1024#32 idx)

/-- Which start indices lie in the table. -/
def takeOk (idx : IVec S1048576 32) : IVec S1048576 1 :=
  Host.reduce IntOp.andi
    (andi (cmpi .sge (takeIdx idx) (broadcastInDim S1048576x1 ![] bcast_S_S1048576x1 (constantI S_ 32 0#32)))
          (cmpi .sle (takeIdx idx) (broadcastInDim S1048576x1 ![0, 1] bcast_S1x1_S1048576x1_0_1
            (broadcastInDim S1x1 ![1] bcast_S1_S1x1_1 (constantI S1 32 1023#32)))))
    (constantI S_ 1 1#1) reducesTo_S1048576x1_S1048576_d1 h_S_

/-- jnp.take of rows of h (a row outside the table reads as NaN). -/
def take (hf : FVec F S1024x64 .f32) (idx : IVec S1048576 32) : FVec F S1048576x64 .f32 :=
  select (broadcastInDim S1048576x64 ![0] bcast_S1048576_S1048576x64_0 (takeOk idx))
    (Host.gather gather_S1024x64_S1048576x1_S1048576x64_1_0_n_n_0_1_164 hf (takeIdx idx))
    (broadcastInDim S1048576x64 ![] bcast_S_S1048576x64 (constant S_ .f32 0x7FC00000#32))

/-- Both endpoints' features side by side. -/
def edgeFeat (hf : FVec F S1024x64 .f32) (adj : FVec F S1024x1024 .f32) : FVec F S1048576x128 .f32 :=
  concatenate S1048576x128 1 [⟨S1048576x64, take hf (src adj)⟩, ⟨S1048576x64, take hf (dst adj)⟩]
    concatenates_S1048576x64_S1048576x64_S1048576x128_d1

/-- jax.nn.leaky_relu on a column. -/
def leakyCol (v : FVec F S1048576x1 .f32) (s : FVec F S_ .f32) : FVec F S1048576x1 .f32 :=
  select (cmpf .oge v (broadcastInDim S1048576x1 ![] bcast_S_S1048576x1 (constant S_ .f32 0x00000000#32))) v
    (mulf (broadcastInDim S1048576x1 ![] bcast_S_S1048576x1 s) v)

/-- Each listed entry's score, zero on the slots past the end. -/
def edgeScore (hf : FVec F S1024x64 .f32) (adj : FVec F S1024x1024 .f32) (a : FVec F S128x1 .f32) : FVec F S1048576 .f32 :=
  select (valid adj)
    (shapeCast S1048576
      (leakyCol (Host.dotGeneral dot_S1048576x128_S128x1_S1048576x1_1_0_0_1_n_n none (edgeFeat hf adj) a) (constant S_ .f32 0x3E4CCCCD#32))
      shapeCasts_S1048576x1_S1048576)
    (broadcastInDim S1048576 ![] bcast_S_S1048576 (constant S_ .f32 0x00000000#32))

/-- The scatter's index pairs (row, column), each wrapped. -/
def pairs (adj : FVec F S1024x1024 .f32) : IVec S1048576x2 32 :=
  concatenate S1048576x2 1
    [⟨S1048576x1, broadcastInDim S1048576x1 ![0] bcast_S1048576_S1048576x1_0 (wrap 1024#32 (src adj))⟩,
     ⟨S1048576x1, broadcastInDim S1048576x1 ![0] bcast_S1048576_S1048576x1_0 (wrap 1024#32 (dst adj))⟩]
    concatenates_S1048576x1_S1048576x1_S1048576x2_d1

/-- The scores scattered back to a dense matrix of zeros. -/
def dense (hf : FVec F S1024x64 .f32) (adj : FVec F S1024x1024 .f32) (a : FVec F S128x1 .f32) : FVec F S1024x1024 .f32 :=
  Host.scatterAdd scatter_S1024x1024_S1048576x2_S1048576_n_01_01_1 zerosNN (pairs adj) (edgeScore hf adj a)

/-- The fill -9e15 times ones. -/
def fill : FVec F S1024x1024 .f32 :=
  mulf (broadcastInDim S1024x1024 ![] bcast_S_S1024x1024 (constant S_ .f32 0xD9FFCB9E#32))
       (broadcastInDim S1024x1024 ![] bcast_S_S1024x1024 (constant S_ .f32 0x3F800000#32))

/-- The logits: the dense scores where adj > 0, the fill elsewhere. -/
def logits (hf : FVec F S1024x64 .f32) (adj : FVec F S1024x1024 .f32) (a : FVec F S128x1 .f32) : FVec F S1024x1024 .f32 :=
  select (cmpf .ogt adj zerosNN) (dense hf adj a) fill

/-- jax.nn.softmax along the rows. -/
def softmax (l : FVec F S1024x1024 .f32) : FVec F S1024x1024 .f32 :=
  Host.divf
    (Host.exp (subf l (broadcastInDim S1024x1024 ![0, 1] bcast_S1024x1_S1024x1024_0_1 (broadcastInDim S1024x1 ![0] bcast_S1024_S1024x1_0
      (maximumf (broadcastInDim S1024 ![] bcast_S_S1024 (constant S_ .f32 0xFF800000#32))
        (Host.reduce FloatOps.maximumf l (constant S_ .f32 0xFF800000#32) reducesTo_S1024x1024_S1024_d1 h_S_))))))
    (broadcastInDim S1024x1024 ![0, 1] bcast_S1024x1_S1024x1024_0_1 (broadcastInDim S1024x1 ![0] bcast_S1024_S1024x1_0
      (Host.reduceAdd
        (Host.exp (subf l (broadcastInDim S1024x1024 ![0, 1] bcast_S1024x1_S1024x1024_0_1 (broadcastInDim S1024x1 ![0] bcast_S1024_S1024x1_0
          (maximumf (broadcastInDim S1024 ![] bcast_S_S1024 (constant S_ .f32 0xFF800000#32))
            (Host.reduce FloatOps.maximumf l (constant S_ .f32 0xFF800000#32) reducesTo_S1024x1024_S1024_d1 h_S_))))))
        (constant S_ .f32 0x00000000#32) reducesTo_S1024x1024_S1024_d1 h_S_)))

/-- jax.nn.elu. -/
def eluV (y : FVec F S1024x64 .f32) : FVec F S1024x64 .f32 :=
  select (cmpf .ogt y (broadcastInDim S1024x64 ![] bcast_S_S1024x64 (constant S_ .f32 0x00000000#32))) y
    (mulf (broadcastInDim S1024x64 ![] bcast_S_S1024x64 (constant S_ .f32 0x3F800000#32))
      (Host.expm1 (select (cmpf .ogt y (broadcastInDim S1024x64 ![] bcast_S_S1024x64 (constant S_ .f32 0x00000000#32)))
        (broadcastInDim S1024x64 ![] bcast_S_S1024x64 (constant S_ .f32 0x00000000#32)) y)))

/-- The reference's result. -/
def out (x : FVec F S1024x128 .f32) (adj : FVec F S1024x1024 .f32) (W : FVec F S128x64 .f32) (a : FVec F S128x1 .f32) :
    FVec F S1024x64 .f32 :=
  eluV (Host.dotGeneral dot_S1024x1024_S1024x64_S1024x64_1_0_0_1_n_n none (softmax (logits (feat x W) adj a)) (feat x W))

end Cert.ReferenceIdeal.Term

end
-- ==== Proof.RefRunA.lean ====
/-
  The reference's run, first stretch: h = x·W; the count of nonzero entries of adj; the nonzero mask; its running count
  (the mask flattened, widened to words, summed by a full-width window); the histogram of the running counts (clipped
  below at zero and wrapped by the length, then scattered as ones onto zeros) and the histogram's running sum, which is
  the flat position of each nonzero entry. Thirty-five operations; the outlined functions' operations stand in place at
  their calls, over that call's buffers.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The stretch's operations, in order. -/
abbrev opsA : List (HloOp τ sig (Elt F)) :=
  [ binary main_arg0 main_arg2 main_v0 (fun l r => Host.dotGeneral dot_S1024x128_S128x64_S1024x64_1_0_0_1_n_n none l r),
    -- count_nonzero(adj)
    nullary main_call0_cst (constant S_ .f32 0x00000000#32),
    unary main_call0_cst main_call0_v0 (broadcastInDim S1024x1024 ![] bcast_S_S1024x1024),
    binary main_arg1 main_call0_v0 main_call0_v1 (cmpf .une),
    unary main_call0_v1 main_call0_v2 (extui 32 · natLt_1_32),
    nullary main_call0_c (constantI S_ 32 0#32),
    binary main_call0_v2 main_call0_c main_v1 (fun x v => Host.reduce IntOp.addi x v reducesTo_S1024x1024_S_d0_1 h_S_),
    -- adj ≠ 0
    nullary main_cst (constant S_ .f32 0x00000000#32),
    unary main_cst main_v2 (broadcastInDim S1024x1024 ![] bcast_S_S1024x1024),
    binary main_arg1 main_v2 main_v3 (cmpf .une),
    -- cumsum of the mask
    reshape main_v3 main_call1_v0 rfl shapeCasts_S1024x1024_S1048576,
    unary main_call1_v0 main_call1_v1 (extui 32 · natLt_1_32),
    nullary main_call1_call0_c (constantI S_ 32 0#32),
    unary main_call1_call0_c main_call1_call0_v0 (broadcastInDim S_ ![] bcast_S_S_),
    binary main_call1_v1 main_call1_call0_v0 main_v4 (fun x v => Host.reduceWindow IntOp.addi ![1048576] ![1] ![1048575] ![0] x v reduceWindows_S1048576_S1048576_w1048576s1p1048575_0 h_S_),
    -- the zeros the histogram is scattered onto
    nullary main_c (constantI S_ 32 0#32),
    unary main_c main_v5 (broadcastInDim S1048576 ![] bcast_S_S1048576),
    -- clip below at zero
    nullary main_c_0 (constantI S_ 32 0#32),
    unary main_c_0 main_call2_v0 id,
    unary main_call2_v0 main_call2_v1 (broadcastInDim S1048576 ![] bcast_S_S1048576),
    binary main_call2_v1 main_v4 main_v6 maxsi,
    -- wrap a negative bin by the length
    nullary main_c_1 (constantI S_ 32 0#32),
    unary main_c_1 main_v7 (broadcastInDim S1048576 ![] bcast_S_S1048576),
    binary main_v6 main_v7 main_v8 (cmpi .slt),
    nullary main_c_2 (constantI S_ 32 1048576#32),
    unary main_c_2 main_v9 (broadcastInDim S1048576 ![] bcast_S_S1048576),
    binary main_v6 main_v9 main_v10 addi,
    ternary main_v8 main_v10 main_v6 main_v11 select,
    -- the histogram
    unary main_v11 main_v12 (broadcastInDim S1048576x1 ![0] bcast_S1048576_S1048576x1_0),
    nullary main_c_3 (constantI S_ 32 1#32),
    unary main_c_3 main_v13 (broadcastInDim S1048576 ![] bcast_S_S1048576),
    ternary main_v5 main_v12 main_v13 main_v14 (fun x i u => Host.scatter scatter_S1048576_S1048576x1_S1048576_n_0_0_1 IntOp.addi x i u),
    -- its running sum
    nullary main_call3_call0_c (constantI S_ 32 0#32),
    unary main_call3_call0_c main_call3_call0_v0 (broadcastInDim S_ ![] bcast_S_S_),
    binary main_v14 main_call3_call0_v0 main_v15 (fun x v => Host.reduceWindow IntOp.addi ![1048576] ![1] ![1048575] ![0] x v reduceWindows_S1048576_S1048576_w1048576s1p1048575_0 h_S_) ]

/-- Every operation of the stretch touches TensorCore buffers only. -/
theorem opsA_sub : (opsA : List (HloOp τ sig (Elt F))).Forall fun op => op.bufs ⊆ tcRefs τ sig :=
  ⟨binary_bufs_sub ..,
    nullary_bufs_sub .., unary_bufs_sub .., binary_bufs_sub .., unary_bufs_sub .., nullary_bufs_sub .., binary_bufs_sub ..,
    nullary_bufs_sub .., unary_bufs_sub .., binary_bufs_sub ..,
    reshape_bufs_sub .., unary_bufs_sub .., nullary_bufs_sub .., unary_bufs_sub .., binary_bufs_sub ..,
    nullary_bufs_sub .., unary_bufs_sub ..,
    nullary_bufs_sub .., unary_bufs_sub .., unary_bufs_sub .., binary_bufs_sub ..,
    nullary_bufs_sub .., unary_bufs_sub .., binary_bufs_sub .., nullary_bufs_sub .., unary_bufs_sub .., binary_bufs_sub .., ternary_bufs_sub ..,
    unary_bufs_sub .., nullary_bufs_sub .., unary_bufs_sub .., ternary_bufs_sub ..,
    nullary_bufs_sub .., unary_bufs_sub .., binary_bufs_sub ..⟩

/-- Every operation of the stretch determines its result. -/
theorem opsA_fresh : ∀ op ∈ (opsA : List (HloOp τ sig (Elt F))), op.fresh = ∅ := by
  intro _ h; (repeat (cases h with | head => rfl | tail _ h => ?_)); exact nomatch h

/-- The buffers the stretch writes. -/
abbrev opsA_W : List (Ref sig .tc) :=
  [main_v0, main_call0_cst, main_call0_v0, main_call0_v1, main_call0_v2, main_call0_c, main_v1, main_cst, main_v2, main_v3,
    main_call1_v0, main_call1_v1, main_call1_call0_c, main_call1_call0_v0, main_v4, main_c, main_v5, main_c_0, main_call2_v0,
    main_call2_v1, main_v6, main_c_1, main_v7, main_v8, main_c_2, main_v9, main_v10, main_v11, main_v12, main_c_3, main_v13,
    main_v14, main_call3_call0_c, main_call3_call0_v0, main_v15]

theorem opsA_writes : (opsA : List (HloOp τ sig (Elt F))).Forall fun op =>
    op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsA_keep (V : Valuation τ sig (Elt F)) (r : Ref sig .tc) (h : r ∉ opsA_W) :
    after opsA V (Proc.devRef .tc r) = V (Proc.devRef .tc r) :=
  after_of_writes_sub opsA _ opsA_writes h

attribute [local irreducible] Host.reduce Host.reduceWindow Host.scatter

set_option maxRecDepth 8192 in
/-- h = x·W. -/
theorem opsA_v0 (V : Valuation τ sig (Elt F)) :
    after opsA V (Proc.devRef .tc main_v0) = Term.feat (V (Proc.devRef .tc main_arg0)) (V (Proc.devRef .tc main_arg2)) := by
  simp only [opsA]
  after_results_simp
  rfl

set_option maxRecDepth 8192 in
/-- The number of nonzero entries. -/
theorem opsA_v1 (V : Valuation τ sig (Elt F)) :
    after opsA V (Proc.devRef .tc main_v1) = Term.count (V (Proc.devRef .tc main_arg1)) := by
  simp only [opsA]
  after_results_simp
  rfl

set_option maxRecDepth 8192 in
/-- The nonzero mask. -/
theorem opsA_v3 (V : Valuation τ sig (Elt F)) :
    after opsA V (Proc.devRef .tc main_v3) = Term.nz (V (Proc.devRef .tc main_arg1)) := by
  simp only [opsA]
  after_results_simp
  rfl

set_option maxRecDepth 8192 in
/-- The flat position of each nonzero entry. -/
theorem opsA_v15 (V : Valuation τ sig (Elt F)) :
    after opsA V (Proc.devRef .tc main_v15) = Term.flat (V (Proc.devRef .tc main_arg1)) := by
  simp only [opsA]
  after_results_simp
  rfl

end Cert.ReferenceIdeal.Run

end
-- ==== Proof.RefRunB.lean ====
/-
  The reference's run, second stretch: the row of each flat position. jnp.floor_divide by the row length 1024 (the
  truncated quotient, lowered by one where the signs differ and the remainder is nonzero), then jnp.remainder by 1024
  (the truncated remainder, raised by the divisor where its sign differs from the divisor's and it is nonzero; a zero
  divisor is replaced by one). Thirty-nine operations over the two calls' buffers.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The stretch's operations, in order. -/
abbrev opsB : List (HloOp τ sig (Elt F)) :=
  [ nullary main_c_4 (constantI S_ 32 1024#32),
    -- floor_divide(v15, 1024)
    unary main_c_4 main_call4_v0 (broadcastInDim S1048576 ![] bcast_S_S1048576),
    binary main_v15 main_call4_v0 main_call4_v1 Host.divsi,
    unary main_v15 main_call4_v2 signi,
    unary main_c_4 main_call4_v3 signi,
    unary main_call4_v3 main_call4_v4 (broadcastInDim S1048576 ![] bcast_S_S1048576),
    binary main_call4_v2 main_call4_v4 main_call4_v5 (cmpi .ne),
    unary main_c_4 main_call4_v6 (broadcastInDim S1048576 ![] bcast_S_S1048576),
    binary main_v15 main_call4_v6 main_call4_v7 Host.remsi,
    nullary main_call4_c (constantI S_ 32 0#32),
    unary main_call4_c main_call4_v8 (broadcastInDim S1048576 ![] bcast_S_S1048576),
    binary main_call4_v7 main_call4_v8 main_call4_v9 (cmpi .ne),
    binary main_call4_v5 main_call4_v9 main_call4_v10 andi,
    nullary main_call4_c_0 (constantI S_ 32 1#32),
    unary main_call4_c_0 main_call4_v11 (broadcastInDim S1048576 ![] bcast_S_S1048576),
    binary main_call4_v1 main_call4_v11 main_call4_v12 subi,
    ternary main_call4_v10 main_call4_v12 main_call4_v1 main_v16 select,
    nullary main_c_5 (constantI S_ 32 1024#32),
    -- remainder(v16, 1024)
    unary main_c_5 main_call5_v0 id,
    nullary main_call5_c (constantI S_ 32 0#32),
    binary main_call5_v0 main_call5_c main_call5_v1 (cmpi .eq),
    nullary main_call5_c_0 (constantI S_ 32 1#32),
    ternary main_call5_v1 main_call5_c_0 main_call5_v0 main_call5_v2 select,
    unary main_call5_v2 main_call5_v3 (broadcastInDim S1048576 ![] bcast_S_S1048576),
    binary main_v16 main_call5_v3 main_call5_v4 Host.remsi,
    nullary main_call5_c_1 (constantI S_ 32 0#32),
    unary main_call5_c_1 main_call5_v5 (broadcastInDim S1048576 ![] bcast_S_S1048576),
    binary main_call5_v4 main_call5_v5 main_call5_v6 (cmpi .ne),
    nullary main_call5_c_2 (constantI S_ 32 0#32),
    unary main_call5_c_2 main_call5_v7 (broadcastInDim S1048576 ![] bcast_S_S1048576),
    binary main_call5_v4 main_call5_v7 main_call5_v8 (cmpi .slt),
    nullary main_call5_c_3 (constantI S_ 32 0#32),
    binary main_call5_v2 main_call5_c_3 main_call5_v9 (cmpi .slt),
    unary main_call5_v9 main_call5_v10 (broadcastInDim S1048576 ![] bcast_S_S1048576),
    binary main_call5_v8 main_call5_v10 main_call5_v11 (cmpi .ne),
    binary main_call5_v11 main_call5_v6 main_call5_v12 andi,
    unary main_call5_v2 main_call5_v13 (broadcastInDim S1048576 ![] bcast_S_S1048576),
    binary main_call5_v4 main_call5_v13 main_call5_v14 addi,
    ternary main_call5_v12 main_call5_v14 main_call5_v4 main_v17 select ]

/-- Every operation of the stretch touches TensorCore buffers only. -/
theorem opsB_sub : (opsB : List (HloOp τ sig (Elt F))).Forall fun op => op.bufs ⊆ tcRefs τ sig :=
  ⟨nullary_bufs_sub ..,
    unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    nullary_bufs_sub ..,
    unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Every operation of the stretch determines its result. -/
theorem opsB_fresh : ∀ op ∈ (opsB : List (HloOp τ sig (Elt F))), op.fresh = ∅ := by
  intro _ h; (repeat (cases h with | head => rfl | tail _ h => ?_)); exact nomatch h

/-- The buffers the stretch writes. -/
abbrev opsB_W : List (Ref sig .tc) :=
  [main_c_4, main_call4_v0, main_call4_v1, main_call4_v2, main_call4_v3, main_call4_v4, main_call4_v5, main_call4_v6, main_call4_v7, main_call4_c, main_call4_v8, main_call4_v9, main_call4_v10, main_call4_c_0, main_call4_v11, main_call4_v12, main_v16,
    main_c_5, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v17]

theorem opsB_writes : (opsB : List (HloOp τ sig (Elt F))).Forall fun op =>
    op.writes ⊆ (opsB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsB_keep (V : Valuation τ sig (Elt F)) (r : Ref sig .tc) (h : r ∉ opsB_W) :
    after opsB V (Proc.devRef .tc r) = V (Proc.devRef .tc r) :=
  after_of_writes_sub opsB _ opsB_writes h

attribute [local irreducible] Host.reduce Host.reduceWindow Host.scatter

set_option maxRecDepth 8192 in
/-- The row of each flat position, before the slots past the end are filled. -/
theorem opsB_v17 (V : Valuation τ sig (Elt F)) :
    after opsB V (Proc.devRef .tc main_v17) = Term.remainder (Term.floorDiv (V (Proc.devRef .tc main_v15)) (constantI S_ 32 1024#32)) (constantI S_ 32 1024#32) := by
  simp only [opsB]
  after_results_simp
  rfl

end Cert.ReferenceIdeal.Run

end
-- ==== Proof.RefRunC.lean ====
/-
  The reference's run, third stretch: the column of each flat position. jnp.floor_divide by the stride 1 of the last
  axis, then jnp.remainder by the row length 1024: the same two functions as for the row, over their own calls'
  buffers. Thirty-nine operations.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The stretch's operations, in order. -/
abbrev opsC : List (HloOp τ sig (Elt F)) :=
  [ nullary main_c_6 (constantI S_ 32 1#32),
    -- floor_divide(v15, 1)
    unary main_c_6 main_call6_v0 (broadcastInDim S1048576 ![] bcast_S_S1048576),
    binary main_v15 main_call6_v0 main_call6_v1 Host.divsi,
    unary main_v15 main_call6_v2 signi,
    unary main_c_6 main_call6_v3 signi,
    unary main_call6_v3 main_call6_v4 (broadcastInDim S1048576 ![] bcast_S_S1048576),
    binary main_call6_v2 main_call6_v4 main_call6_v5 (cmpi .ne),
    unary main_c_6 main_call6_v6 (broadcastInDim S1048576 ![] bcast_S_S1048576),
    binary main_v15 main_call6_v6 main_call6_v7 Host.remsi,
    nullary main_call6_c (constantI S_ 32 0#32),
    unary main_call6_c main_call6_v8 (broadcastInDim S1048576 ![] bcast_S_S1048576),
    binary main_call6_v7 main_call6_v8 main_call6_v9 (cmpi .ne),
    binary main_call6_v5 main_call6_v9 main_call6_v10 andi,
    nullary main_call6_c_0 (constantI S_ 32 1#32),
    unary main_call6_c_0 main_call6_v11 (broadcastInDim S1048576 ![] bcast_S_S1048576),
    binary main_call6_v1 main_call6_v11 main_call6_v12 subi,
    ternary main_call6_v10 main_call6_v12 main_call6_v1 main_v18 select,
    nullary main_c_7 (constantI S_ 32 1024#32),
    -- remainder(v18, 1024)
    unary main_c_7 main_call7_v0 id,
    nullary main_call7_c (constantI S_ 32 0#32),
    binary main_call7_v0 main_call7_c main_call7_v1 (cmpi .eq),
    nullary main_call7_c_0 (constantI S_ 32 1#32),
    ternary main_call7_v1 main_call7_c_0 main_call7_v0 main_call7_v2 select,
    unary main_call7_v2 main_call7_v3 (broadcastInDim S1048576 ![] bcast_S_S1048576),
    binary main_v18 main_call7_v3 main_call7_v4 Host.remsi,
    nullary main_call7_c_1 (constantI S_ 32 0#32),
    unary main_call7_c_1 main_call7_v5 (broadcastInDim S1048576 ![] bcast_S_S1048576),
    binary main_call7_v4 main_call7_v5 main_call7_v6 (cmpi .ne),
    nullary main_call7_c_2 (constantI S_ 32 0#32),
    unary main_call7_c_2 main_call7_v7 (broadcastInDim S1048576 ![] bcast_S_S1048576),
    binary main_call7_v4 main_call7_v7 main_call7_v8 (cmpi .slt),
    nullary main_call7_c_3 (constantI S_ 32 0#32),
    binary main_call7_v2 main_call7_c_3 main_call7_v9 (cmpi .slt),
    unary main_call7_v9 main_call7_v10 (broadcastInDim S1048576 ![] bcast_S_S1048576),
    binary main_call7_v8 main_call7_v10 main_call7_v11 (cmpi .ne),
    binary main_call7_v11 main_call7_v6 main_call7_v12 andi,
    unary main_call7_v2 main_call7_v13 (broadcastInDim S1048576 ![] bcast_S_S1048576),
    binary main_call7_v4 main_call7_v13 main_call7_v14 addi,
    ternary main_call7_v12 main_call7_v14 main_call7_v4 main_v19 select ]

/-- Every operation of the stretch touches TensorCore buffers only. -/
theorem opsC_sub : (opsC : List (HloOp τ sig (Elt F))).Forall fun op => op.bufs ⊆ tcRefs τ sig :=
  ⟨nullary_bufs_sub ..,
    unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    nullary_bufs_sub ..,
    unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Every operation of the stretch determines its result. -/
theorem opsC_fresh : ∀ op ∈ (opsC : List (HloOp τ sig (Elt F))), op.fresh = ∅ := by
  intro _ h; (repeat (cases h with | head => rfl | tail _ h => ?_)); exact nomatch h

/-- The buffers the stretch writes. -/
abbrev opsC_W : List (Ref sig .tc) :=
  [main_c_6, main_call6_v0, main_call6_v1, main_call6_v2, main_call6_v3, main_call6_v4, main_call6_v5, main_call6_v6, main_call6_v7, main_call6_c, main_call6_v8, main_call6_v9, main_call6_v10, main_call6_c_0, main_call6_v11, main_call6_v12, main_v18,
    main_c_7, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v19]

theorem opsC_writes : (opsC : List (HloOp τ sig (Elt F))).Forall fun op =>
    op.writes ⊆ (opsC_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsC_keep (V : Valuation τ sig (Elt F)) (r : Ref sig .tc) (h : r ∉ opsC_W) :
    after opsC V (Proc.devRef .tc r) = V (Proc.devRef .tc r) :=
  after_of_writes_sub opsC _ opsC_writes h

attribute [local irreducible] Host.reduce Host.reduceWindow Host.scatter

set_option maxRecDepth 8192 in
/-- The column of each flat position, before the slots past the end are filled. -/
theorem opsC_v19 (V : Valuation τ sig (Elt F)) :
    after opsC V (Proc.devRef .tc main_v19) = Term.remainder (Term.floorDiv (V (Proc.devRef .tc main_v15)) (constantI S_ 32 1#32)) (constantI S_ 32 1024#32) := by
  simp only [opsC]
  after_results_simp
  rfl

end Cert.ReferenceIdeal.Run

end
-- ==== Proof.RefRunD.lean ====
/-
  The reference's run, fourth stretch: the positions 0, 1, 2, …; the count of nonzero entries again (the mask widened and
  summed); which slots lie past that count; the row list and the column list with those slots filled by index 0
  (jnp.where with a scalar branch: the scalar converted to its own type, broadcast, selected); and which slots list an
  entry. Seventeen operations.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The stretch's operations, in order. -/
abbrev opsD : List (HloOp τ sig (Elt F)) :=
  [ nullary main_v20 (iotaInDim S1048576 32 0),
    unary main_v3 main_v21 (extui 32 · natLt_1_32),
    nullary main_c_8 (constantI S_ 32 0#32),
    binary main_v21 main_c_8 main_v22 (fun x v => Host.reduce IntOp.addi x v reducesTo_S1024x1024_S_d0_1 h_S_),
    unary main_v22 main_v23 (broadcastInDim S1048576 ![] bcast_S_S1048576),
    binary main_v20 main_v23 main_v24 (cmpi .sge),
    nullary main_c_9 (constantI S_ 32 0#32),
    -- where(past the end, 0, rows)
    unary main_c_9 main_call8_v0 id,
    unary main_call8_v0 main_call8_v1 (broadcastInDim S1048576 ![] bcast_S_S1048576),
    ternary main_v24 main_call8_v1 main_v17 main_v25 select,
    nullary main_c_10 (constantI S_ 32 0#32),
    -- where(past the end, 0, columns)
    unary main_c_10 main_call9_v0 id,
    unary main_call9_v0 main_call9_v1 (broadcastInDim S1048576 ![] bcast_S_S1048576),
    ternary main_v24 main_call9_v1 main_v19 main_v26 select,
    nullary main_v27 (iotaInDim S1048576 32 0),
    unary main_v1 main_v28 (broadcastInDim S1048576 ![] bcast_S_S1048576),
    binary main_v27 main_v28 main_v29 (cmpi .slt) ]

/-- Every operation of the stretch touches TensorCore buffers only. -/
theorem opsD_sub : (opsD : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub ..,
    unary_bufs_sub .., unary_bufs_sub .., ternary_bufs_sub .., nullary_bufs_sub ..,
    unary_bufs_sub .., unary_bufs_sub .., ternary_bufs_sub ..,
    nullary_bufs_sub .., unary_bufs_sub .., binary_bufs_sub ..⟩

/-- Every operation of the stretch determines its result. -/
theorem opsD_fresh : ∀ op ∈ (opsD : List (HloOp τ sig (Elt F))), op.fresh = ∅ := by
  intro _ h; (repeat (cases h with | head => rfl | tail _ h => ?_)); exact nomatch h

/-- The buffers the stretch writes. -/
abbrev opsD_W : List (Ref sig .tc) :=
  [main_v20, main_v21, main_c_8, main_v22, main_v23, main_v24, main_c_9, main_call8_v0, main_call8_v1, main_v25, main_c_10,
    main_call9_v0, main_call9_v1, main_v26, main_v27, main_v28, main_v29]

theorem opsD_writes : (opsD : List (HloOp τ sig (Elt F))).Forall fun op =>
    op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsD_keep (V : Valuation τ sig (Elt F)) (r : Ref sig .tc) (h : r ∉ opsD_W) :
    after opsD V (Proc.devRef .tc r) = V (Proc.devRef .tc r) :=
  after_of_writes_sub opsD _ opsD_writes h

attribute [local irreducible] Host.reduce Host.reduceWindow Host.scatter

set_option maxRecDepth 8192 in
/-- The row list: index 0 on the slots past the count, the given rows elsewhere. -/
theorem opsD_v25 (V : Valuation τ sig (Elt F)) :
    after opsD V (Proc.devRef .tc main_v25) = select (cmpi .sge Term.iota (Term.splatS (Host.reduce IntOp.addi (extui 32 (V (Proc.devRef .tc main_v3)) natLt_1_32) (constantI S_ 32 0#32) reducesTo_S1024x1024_S_d0_1 h_S_)))
        (Term.splatS (constantI S_ 32 0#32)) (V (Proc.devRef .tc main_v17)) := by
  simp only [opsD]
  after_results_simp
  rfl

set_option maxRecDepth 8192 in
/-- The column list: index 0 on the slots past the count, the given columns elsewhere. -/
theorem opsD_v26 (V : Valuation τ sig (Elt F)) :
    after opsD V (Proc.devRef .tc main_v26) = select (cmpi .sge Term.iota (Term.splatS (Host.reduce IntOp.addi (extui 32 (V (Proc.devRef .tc main_v3)) natLt_1_32) (constantI S_ 32 0#32) reducesTo_S1024x1024_S_d0_1 h_S_)))
        (Term.splatS (constantI S_ 32 0#32)) (V (Proc.devRef .tc main_v19)) := by
  simp only [opsD]
  after_results_simp
  rfl

set_option maxRecDepth 8192 in
/-- The slots below the given count. -/
theorem opsD_v29 (V : Valuation τ sig (Elt F)) :
    after opsD V (Proc.devRef .tc main_v29) = cmpi .slt Term.iota (Term.splatS (V (Proc.devRef .tc main_v1))) := by
  simp only [opsD]
  after_results_simp
  rfl

end Cert.ReferenceIdeal.Run

end
-- ==== Proof.RefRunE.lean ====
/-
  The reference's run, fifth stretch: jnp.take of rows of h at the row list. A negative index is wrapped by the table's
  1024 rows; the wrapped indices become a column of start indices; an index is in range when it lies in [0, 1023]
  (the two comparisons, their conjunction, reduced along the unit axis); the gather reads one row per start index;
  a row out of range reads as NaN. Twenty-three operations over the call's buffers.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The stretch's operations, in order. -/
abbrev opsE : List (HloOp τ sig (Elt F)) :=
  [
    nullary main_call10_c (constantI S_ 32 0#32),
    unary main_call10_c main_call10_v0 (broadcastInDim S1048576 ![] bcast_S_S1048576),
    binary main_v25 main_call10_v0 main_call10_v1 (cmpi .slt),
    nullary main_call10_c_0 (constantI S_ 32 1024#32),
    unary main_call10_c_0 main_call10_v2 (broadcastInDim S1048576 ![] bcast_S_S1048576),
    binary main_v25 main_call10_v2 main_call10_v3 addi,
    ternary main_call10_v1 main_call10_v3 main_v25 main_call10_v4 select,
    unary main_call10_v4 main_call10_v5 (broadcastInDim S1048576x1 ![0] bcast_S1048576_S1048576x1_0),
    nullary main_call10_c_1 (constantI S1 32 1023#32),
    nullary main_call10_c_2 (constantI S_ 32 0#32),
    unary main_call10_c_2 main_call10_v6 (broadcastInDim S1048576x1 ![] bcast_S_S1048576x1),
    binary main_call10_v5 main_call10_v6 main_call10_v7 (cmpi .sge),
    unary main_call10_c_1 main_call10_v8 (broadcastInDim S1x1 ![1] bcast_S1_S1x1_1),
    unary main_call10_v8 main_call10_v9 (broadcastInDim S1048576x1 ![0, 1] bcast_S1x1_S1048576x1_0_1),
    binary main_call10_v5 main_call10_v9 main_call10_v10 (cmpi .sle),
    binary main_call10_v7 main_call10_v10 main_call10_v11 andi,
    nullary main_call10_c_3 (constantI S_ 1 1#1),
    binary main_call10_v11 main_call10_c_3 main_call10_v12 (fun x v => Host.reduce IntOp.andi x v reducesTo_S1048576x1_S1048576_d1 h_S_),
    binary main_v0 main_call10_v5 main_call10_v13 (fun x i => Host.gather gather_S1024x64_S1048576x1_S1048576x64_1_0_n_n_0_1_164 x i),
    unary main_call10_v12 main_call10_v14 (broadcastInDim S1048576x64 ![0] bcast_S1048576_S1048576x64_0),
    nullary main_call10_cst (constant S_ .f32 0x7FC00000#32),
    unary main_call10_cst main_call10_v15 (broadcastInDim S1048576x64 ![] bcast_S_S1048576x64),
    ternary main_call10_v14 main_call10_v13 main_call10_v15 main_v30 select ]

/-- Every operation of the stretch touches TensorCore buffers only. -/
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the stretch determines its result. -/
theorem opsE_fresh : ∀ op ∈ (opsE : List (HloOp τ sig (Elt F))), op.fresh = ∅ := by
  intro _ h; (repeat (cases h with | head => rfl | tail _ h => ?_)); exact nomatch h

/-- The buffers the stretch writes. -/
abbrev opsE_W : List (Ref sig .tc) :=
  [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v30]

theorem opsE_writes : (opsE : List (HloOp τ sig (Elt F))).Forall fun op =>
    op.writes ⊆ (opsE_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsE_keep (V : Valuation τ sig (Elt F)) (r : Ref sig .tc) (h : r ∉ opsE_W) :
    after opsE V (Proc.devRef .tc r) = V (Proc.devRef .tc r) :=
  after_of_writes_sub opsE _ opsE_writes h

attribute [local irreducible] Host.reduce Host.gather

set_option maxRecDepth 8192 in
/-- The rows of h at the given indices. -/
theorem opsE_v30 (V : Valuation τ sig (Elt F)) :
    after opsE V (Proc.devRef .tc main_v30) = Term.take (V (Proc.devRef .tc main_v0)) (V (Proc.devRef .tc main_v25)) := by
  simp only [opsE]
  after_results_simp
  rfl

end Cert.ReferenceIdeal.Run

end
-- ==== Proof.RefRunF.lean ====
/-
  The reference's run, sixth stretch: jnp.take of rows of h at the column list: the same function as for the row list,
  over its own call's buffers. Twenty-three operations.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The stretch's operations, in order. -/
abbrev opsF : List (HloOp τ sig (Elt F)) :=
  [
    nullary main_call11_c (constantI S_ 32 0#32),
    unary main_call11_c main_call11_v0 (broadcastInDim S1048576 ![] bcast_S_S1048576),
    binary main_v26 main_call11_v0 main_call11_v1 (cmpi .slt),
    nullary main_call11_c_0 (constantI S_ 32 1024#32),
    unary main_call11_c_0 main_call11_v2 (broadcastInDim S1048576 ![] bcast_S_S1048576),
    binary main_v26 main_call11_v2 main_call11_v3 addi,
    ternary main_call11_v1 main_call11_v3 main_v26 main_call11_v4 select,
    unary main_call11_v4 main_call11_v5 (broadcastInDim S1048576x1 ![0] bcast_S1048576_S1048576x1_0),
    nullary main_call11_c_1 (constantI S1 32 1023#32),
    nullary main_call11_c_2 (constantI S_ 32 0#32),
    unary main_call11_c_2 main_call11_v6 (broadcastInDim S1048576x1 ![] bcast_S_S1048576x1),
    binary main_call11_v5 main_call11_v6 main_call11_v7 (cmpi .sge),
    unary main_call11_c_1 main_call11_v8 (broadcastInDim S1x1 ![1] bcast_S1_S1x1_1),
    unary main_call11_v8 main_call11_v9 (broadcastInDim S1048576x1 ![0, 1] bcast_S1x1_S1048576x1_0_1),
    binary main_call11_v5 main_call11_v9 main_call11_v10 (cmpi .sle),
    binary main_call11_v7 main_call11_v10 main_call11_v11 andi,
    nullary main_call11_c_3 (constantI S_ 1 1#1),
    binary main_call11_v11 main_call11_c_3 main_call11_v12 (fun x v => Host.reduce IntOp.andi x v reducesTo_S1048576x1_S1048576_d1 h_S_),
    binary main_v0 main_call11_v5 main_call11_v13 (fun x i => Host.gather gather_S1024x64_S1048576x1_S1048576x64_1_0_n_n_0_1_164 x i),
    unary main_call11_v12 main_call11_v14 (broadcastInDim S1048576x64 ![0] bcast_S1048576_S1048576x64_0),
    nullary main_call11_cst (constant S_ .f32 0x7FC00000#32),
    unary main_call11_cst main_call11_v15 (broadcastInDim S1048576x64 ![] bcast_S_S1048576x64),
    ternary main_call11_v14 main_call11_v13 main_call11_v15 main_v31 select ]

/-- Every operation of the stretch touches TensorCore buffers only. -/
theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the stretch determines its result. -/
theorem opsF_fresh : ∀ op ∈ (opsF : List (HloOp τ sig (Elt F))), op.fresh = ∅ := by
  intro _ h; (repeat (cases h with | head => rfl | tail _ h => ?_)); exact nomatch h

/-- The buffers the stretch writes. -/
abbrev opsF_W : List (Ref sig .tc) :=
  [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v31]

theorem opsF_writes : (opsF : List (HloOp τ sig (Elt F))).Forall fun op =>
    op.writes ⊆ (opsF_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsF_keep (V : Valuation τ sig (Elt F)) (r : Ref sig .tc) (h : r ∉ opsF_W) :
    after opsF V (Proc.devRef .tc r) = V (Proc.devRef .tc r) :=
  after_of_writes_sub opsF _ opsF_writes h

attribute [local irreducible] Host.reduce Host.gather

set_option maxRecDepth 8192 in
/-- The rows of h at the given indices. -/
theorem opsF_v31 (V : Valuation τ sig (Elt F)) :
    after opsF V (Proc.devRef .tc main_v31) = Term.take (V (Proc.devRef .tc main_v0)) (V (Proc.devRef .tc main_v26)) := by
  simp only [opsF]
  after_results_simp
  rfl

end Cert.ReferenceIdeal.Run

end
-- ==== Proof.RefRunG.lean ====
/-
  The reference's run, seventh stretch: each listed entry's score. The two gathered feature blocks side by side; their
  product with the attention vector a; jax.nn.leaky_relu with slope 0.2 (the comparison with zero, the slope converted
  to its own type, broadcast and multiplied, the select); the column flattened; zero on the slots that list no entry
  (jnp.where with a scalar branch). Fifteen operations.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The stretch's operations, in order. -/
abbrev opsG : List (HloOp τ sig (Elt F)) :=
  [ binary main_v30 main_v31 main_v32 (fun a b => concatenate S1048576x128 1 [⟨S1048576x64, a⟩, ⟨S1048576x64, b⟩] concatenates_S1048576x64_S1048576x64_S1048576x128_d1),
    binary main_v32 main_arg3 main_v33 (fun l r => Host.dotGeneral dot_S1048576x128_S128x1_S1048576x1_1_0_0_1_n_n none l r),
    nullary main_cst_11 (constant S_ .f32 0x3E4CCCCD#32),
    -- leaky_relu
    nullary main_call12_cst (constant S_ .f32 0x00000000#32),
    unary main_call12_cst main_call12_v0 (broadcastInDim S1048576x1 ![] bcast_S_S1048576x1),
    binary main_v33 main_call12_v0 main_call12_v1 (cmpf .oge),
    unary main_cst_11 main_call12_v2 id,
    unary main_call12_v2 main_call12_v3 (broadcastInDim S1048576x1 ![] bcast_S_S1048576x1),
    binary main_call12_v3 main_v33 main_call12_v4 mulf,
    ternary main_call12_v1 main_v33 main_call12_v4 main_v34 select,
    reshape main_v34 main_v35 rfl shapeCasts_S1048576x1_S1048576,
    nullary main_cst_12 (constant S_ .f32 0x00000000#32),
    -- where(valid, score, 0)
    unary main_cst_12 main_call13_v0 id,
    unary main_call13_v0 main_call13_v1 (broadcastInDim S1048576 ![] bcast_S_S1048576),
    ternary main_v29 main_v35 main_call13_v1 main_v36 select ]

/-- Every operation of the stretch touches TensorCore buffers only. -/
theorem opsG_sub : (opsG : List (HloOp τ sig (Elt F))).Forall fun op => op.bufs ⊆ tcRefs τ sig :=
  ⟨binary_bufs_sub .., binary_bufs_sub .., nullary_bufs_sub ..,
    nullary_bufs_sub .., unary_bufs_sub .., binary_bufs_sub .., unary_bufs_sub .., unary_bufs_sub .., binary_bufs_sub .., ternary_bufs_sub ..,
    reshape_bufs_sub .., nullary_bufs_sub ..,
    unary_bufs_sub .., unary_bufs_sub .., ternary_bufs_sub ..⟩

/-- Every operation of the stretch determines its result. -/
theorem opsG_fresh : ∀ op ∈ (opsG : List (HloOp τ sig (Elt F))), op.fresh = ∅ := by
  intro _ h; (repeat (cases h with | head => rfl | tail _ h => ?_)); exact nomatch h

/-- The buffers the stretch writes. -/
abbrev opsG_W : List (Ref sig .tc) :=
  [main_v32, main_v33, main_cst_11, main_call12_cst, main_call12_v0, main_call12_v1, main_call12_v2, main_call12_v3, main_call12_v4,
    main_v34, main_v35, main_cst_12, main_call13_v0, main_call13_v1, main_v36]

theorem opsG_writes : (opsG : List (HloOp τ sig (Elt F))).Forall fun op =>
    op.writes ⊆ (opsG_W.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsG_keep (V : Valuation τ sig (Elt F)) (r : Ref sig .tc) (h : r ∉ opsG_W) :
    after opsG V (Proc.devRef .tc r) = V (Proc.devRef .tc r) :=
  after_of_writes_sub opsG _ opsG_writes h

attribute [local irreducible] concatenate

set_option maxRecDepth 8192 in
/-- Each slot's score: leaky_relu of the paired features against a where the slot is valid, zero elsewhere. -/
theorem opsG_v36 (V : Valuation τ sig (Elt F)) :
    after opsG V (Proc.devRef .tc main_v36) = select (V (Proc.devRef .tc main_v29))
        (shapeCast S1048576
          (Term.leakyCol (Host.dotGeneral dot_S1048576x128_S128x1_S1048576x1_1_0_0_1_n_n none
              (concatenate S1048576x128 1 [⟨S1048576x64, V (Proc.devRef .tc main_v30)⟩, ⟨S1048576x64, V (Proc.devRef .tc main_v31)⟩]
                concatenates_S1048576x64_S1048576x64_S1048576x128_d1)
              (V (Proc.devRef .tc main_arg3)))
            (constant S_ .f32 0x3E4CCCCD#32))
          shapeCasts_S1048576x1_S1048576)
        (broadcastInDim S1048576 ![] bcast_S_S1048576 (constant S_ .f32 0x00000000#32)) := by
  simp only [opsG]
  after_results_simp
  rfl

end Cert.ReferenceIdeal.Run

end
-- ==== Proof.RefRunH.lean ====
/-
  The reference's run, eighth stretch, in two pieces (the printed program's two windows part between them): the zero
  matrix the scores are scattered onto, and the row list compared with zero and shifted by 1024; then the two lists
  wrapped (a negative index raised by the axis length 1024) and each made a column. Eight and ten operations.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The first piece's operations, in order. -/
abbrev opsH1 : List (HloOp τ sig (Elt F)) :=
  [ nullary main_cst_13 (constant S_ .f32 0x00000000#32),
    unary main_cst_13 main_v37 (broadcastInDim S1024x1024 ![] bcast_S_S1024x1024),
    nullary main_c_14 (constantI S_ 32 0#32),
    unary main_c_14 main_v38 (broadcastInDim S1048576 ![] bcast_S_S1048576),
    binary main_v25 main_v38 main_v39 (cmpi .slt),
    nullary main_c_15 (constantI S_ 32 1024#32),
    unary main_c_15 main_v40 (broadcastInDim S1048576 ![] bcast_S_S1048576),
    binary main_v25 main_v40 main_v41 addi ]

/-- Every operation of the stretch touches TensorCore buffers only. -/
theorem opsH1_sub : (opsH1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub ..⟩

/-- Every operation of the stretch determines its result. -/
theorem opsH1_fresh : ∀ op ∈ (opsH1 : List (HloOp τ sig (Elt F))), op.fresh = ∅ := by
  intro _ h; (repeat (cases h with | head => rfl | tail _ h => ?_)); exact nomatch h

/-- The buffers the stretch writes. -/
abbrev opsH1_W : List (Ref sig .tc) :=
  [main_cst_13, main_v37, main_c_14, main_v38, main_v39, main_c_15, main_v40, main_v41]

theorem opsH1_writes : (opsH1 : List (HloOp τ sig (Elt F))).Forall fun op =>
    op.writes ⊆ (opsH1_W.map (Proc.devRef (τ := τ) .tc)).toFinset := by
  simp only [List.Forall]
  refine ⟨?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsH1_keep (V : Valuation τ sig (Elt F)) (r : Ref sig .tc) (h : r ∉ opsH1_W) :
    after opsH1 V (Proc.devRef .tc r) = V (Proc.devRef .tc r) :=
  after_of_writes_sub opsH1 _ opsH1_writes h

/-- The second piece's operations, in order. -/
abbrev opsH2 : List (HloOp τ sig (Elt F)) :=
  [ ternary main_v39 main_v41 main_v25 main_v42 select,
    nullary main_c_16 (constantI S_ 32 0#32),
    unary main_c_16 main_v43 (broadcastInDim S1048576 ![] bcast_S_S1048576),
    binary main_v26 main_v43 main_v44 (cmpi .slt),
    nullary main_c_17 (constantI S_ 32 1024#32),
    unary main_c_17 main_v45 (broadcastInDim S1048576 ![] bcast_S_S1048576),
    binary main_v26 main_v45 main_v46 addi,
    ternary main_v44 main_v46 main_v26 main_v47 select,
    unary main_v42 main_v48 (broadcastInDim S1048576x1 ![0] bcast_S1048576_S1048576x1_0),
    unary main_v47 main_v49 (broadcastInDim S1048576x1 ![0] bcast_S1048576_S1048576x1_0) ]

/-- Every operation of the stretch touches TensorCore buffers only. -/
theorem opsH2_sub : (opsH2 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub ..⟩

/-- Every operation of the stretch determines its result. -/
theorem opsH2_fresh : ∀ op ∈ (opsH2 : List (HloOp τ sig (Elt F))), op.fresh = ∅ := by
  intro _ h; (repeat (cases h with | head => rfl | tail _ h => ?_)); exact nomatch h

/-- The buffers the stretch writes. -/
abbrev opsH2_W : List (Ref sig .tc) :=
  [main_v42, main_c_16, main_v43, main_v44, main_c_17, main_v45, main_v46, main_v47, main_v48, main_v49]

theorem opsH2_writes : (opsH2 : List (HloOp τ sig (Elt F))).Forall fun op =>
    op.writes ⊆ (opsH2_W.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsH2_keep (V : Valuation τ sig (Elt F)) (r : Ref sig .tc) (h : r ∉ opsH2_W) :
    after opsH2 V (Proc.devRef .tc r) = V (Proc.devRef .tc r) :=
  after_of_writes_sub opsH2 _ opsH2_writes h

set_option maxRecDepth 8192 in
/-- The zero matrix. -/
theorem opsH1_v37 (V : Valuation τ sig (Elt F)) :
    after opsH1 V (Proc.devRef .tc main_v37) = Term.zerosNN := by
  simp only [opsH1]
  after_results_simp
  rfl

set_option maxRecDepth 8192 in
/-- Which rows are negative. -/
theorem opsH1_v39 (V : Valuation τ sig (Elt F)) :
    after opsH1 V (Proc.devRef .tc main_v39) = cmpi .slt (V (Proc.devRef .tc main_v25)) (Term.splat 0#32) := by
  simp only [opsH1]
  after_results_simp
  rfl

set_option maxRecDepth 8192 in
/-- The rows raised by 1024. -/
theorem opsH1_v41 (V : Valuation τ sig (Elt F)) :
    after opsH1 V (Proc.devRef .tc main_v41) = addi (V (Proc.devRef .tc main_v25)) (Term.splat 1024#32) := by
  simp only [opsH1]
  after_results_simp
  rfl

set_option maxRecDepth 8192 in
/-- The wrapped rows as a column. -/
theorem opsH2_v48 (V : Valuation τ sig (Elt F)) :
    after opsH2 V (Proc.devRef .tc main_v48) = broadcastInDim S1048576x1 ![0] bcast_S1048576_S1048576x1_0 (select (V (Proc.devRef .tc main_v39)) (V (Proc.devRef .tc main_v41)) (V (Proc.devRef .tc main_v25))) := by
  simp only [opsH2]
  after_results_simp

set_option maxRecDepth 8192 in
/-- The wrapped columns as a column. -/
theorem opsH2_v49 (V : Valuation τ sig (Elt F)) :
    after opsH2 V (Proc.devRef .tc main_v49) = broadcastInDim S1048576x1 ![0] bcast_S1048576_S1048576x1_0 (Term.wrap 1024#32 (V (Proc.devRef .tc main_v26))) := by
  simp only [opsH2]
  after_results_simp
  rfl

end Cert.ReferenceIdeal.Run

end
-- ==== Proof.RefRunI.lean ====
/-
  The reference's run, last stretch, in two pieces. First the logits: the two index columns side by side; the scores
  scattered (added) onto the zero matrix at those index pairs; the fill -9e15 times ones; the dense scores where
  adj > 0 and the fill elsewhere. Then the masked row softmax (the row maximum, guarded below by -inf; the shifted
  exponentials; their row sums; the quotient), its product with h, and jax.nn.elu (the comparison with zero, twice;
  expm1 of the value with its positive part replaced by zero; the select). Eleven and thirty operations.
-/
import proofs.«123027_g70274254897801_cont_sun_c4_842_6_alg».proof.Proof.RefTerm
import proofs.«123027_g70274254897801_cont_sun_c4_842_6_alg».proof.Proof.Gen.ReferenceIdeal
import Idealize.ShloMosaic.Lib.StableHlo.Run

-- one declaration at a time: the results' comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-- The first piece's operations, in order. -/
abbrev opsI1 : List (HloOp τ sig (Elt F)) :=
  [ binary main_v48 main_v49 main_v50 (fun a b => concatenate S1048576x2 1 [⟨S1048576x1, a⟩, ⟨S1048576x1, b⟩] concatenates_S1048576x1_S1048576x1_S1048576x2_d1),
    ternary main_v37 main_v50 main_v36 main_v51 (fun x i u => Host.scatterAdd scatter_S1024x1024_S1048576x2_S1048576_n_01_01_1 x i u),
    nullary main_cst_18 (constant S_ .f32 0x3F800000#32),
    unary main_cst_18 main_v52 (broadcastInDim S1024x1024 ![] bcast_S_S1024x1024),
    nullary main_cst_19 (constant S_ .f32 0xD9FFCB9E#32),
    unary main_cst_19 main_v53 (broadcastInDim S1024x1024 ![] bcast_S_S1024x1024),
    binary main_v53 main_v52 main_v54 mulf,
    nullary main_cst_20 (constant S_ .f32 0x00000000#32),
    unary main_cst_20 main_v55 (broadcastInDim S1024x1024 ![] bcast_S_S1024x1024),
    binary main_arg1 main_v55 main_v56 (cmpf .ogt),
    ternary main_v56 main_v51 main_v54 main_v57 select ]

/-- Every operation of the stretch touches TensorCore buffers only. -/
theorem opsI1_sub : (opsI1 : List (HloOp τ sig (Elt F))).Forall fun op => op.bufs ⊆ tcRefs τ sig :=
  ⟨binary_bufs_sub .., ternary_bufs_sub .., nullary_bufs_sub .., unary_bufs_sub .., nullary_bufs_sub .., unary_bufs_sub .., binary_bufs_sub .., nullary_bufs_sub .., unary_bufs_sub .., binary_bufs_sub .., ternary_bufs_sub ..⟩

/-- Every operation of the stretch determines its result. -/
theorem opsI1_fresh : ∀ op ∈ (opsI1 : List (HloOp τ sig (Elt F))), op.fresh = ∅ := by
  intro _ h; (repeat (cases h with | head => rfl | tail _ h => ?_)); exact nomatch h

/-- The buffers the stretch writes. -/
abbrev opsI1_W : List (Ref sig .tc) :=
  [main_v50, main_v51, main_cst_18, main_v52, main_cst_19, main_v53, main_v54, main_cst_20, main_v55, main_v56, main_v57]

theorem opsI1_writes : (opsI1 : List (HloOp τ sig (Elt F))).Forall fun op =>
    op.writes ⊆ (opsI1_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsI1_keep (V : Valuation τ sig (Elt F)) (r : Ref sig .tc) (h : r ∉ opsI1_W) :
    after opsI1 V (Proc.devRef .tc r) = V (Proc.devRef .tc r) :=
  after_of_writes_sub opsI1 _ opsI1_writes h

/-- The second piece's operations, in order. -/
abbrev opsI2 : List (HloOp τ sig (Elt F)) :=
  [ nullary main_cst_21 (constant S_ .f32 0xFF800000#32),
    binary main_v57 main_cst_21 main_v58 (fun x v => Host.reduce FloatOps.maximumf x v reducesTo_S1024x1024_S1024_d1 h_S_),
    nullary main_cst_22 (constant S_ .f32 0xFF800000#32),
    unary main_cst_22 main_v59 (broadcastInDim S1024 ![] bcast_S_S1024),
    binary main_v59 main_v58 main_v60 maximumf,
    unary main_v60 main_v61 (broadcastInDim S1024x1 ![0] bcast_S1024_S1024x1_0),
    unary main_v61 main_v62 (broadcastInDim S1024x1024 ![0, 1] bcast_S1024x1_S1024x1024_0_1),
    binary main_v57 main_v62 main_v63 subf,
    unary main_v63 main_v64 Host.exp,
    nullary main_cst_23 (constant S_ .f32 0x00000000#32),
    binary main_v64 main_cst_23 main_v65 (fun x v => Host.reduceAdd x v reducesTo_S1024x1024_S1024_d1 h_S_),
    unary main_v65 main_v66 (broadcastInDim S1024x1 ![0] bcast_S1024_S1024x1_0),
    unary main_v66 main_v67 (broadcastInDim S1024x1024 ![0, 1] bcast_S1024x1_S1024x1024_0_1),
    binary main_v64 main_v67 main_v68 Host.divf,
    binary main_v68 main_v0 main_v69 (fun l r => Host.dotGeneral dot_S1024x1024_S1024x64_S1024x64_1_0_0_1_n_n none l r),
    -- elu
    nullary main_call15_cst (constant S_ .f32 0x00000000#32),
    unary main_call15_cst main_call15_v0 (broadcastInDim S1024x64 ![] bcast_S_S1024x64),
    binary main_v69 main_call15_v0 main_call15_v1 (cmpf .ogt),
    nullary main_call15_cst_0 (constant S_ .f32 0x00000000#32),
    unary main_call15_cst_0 main_call15_v2 (broadcastInDim S1024x64 ![] bcast_S_S1024x64),
    binary main_v69 main_call15_v2 main_call15_v3 (cmpf .ogt),
    nullary main_call15_cst_1 (constant S_ .f32 0x00000000#32),
    unary main_call15_cst_1 main_call15_call0_v0 id,
    unary main_call15_call0_v0 main_call15_call0_v1 (broadcastInDim S1024x64 ![] bcast_S_S1024x64),
    ternary main_call15_v3 main_call15_call0_v1 main_v69 main_call15_v4 select,
    unary main_call15_v4 main_call15_v5 Host.expm1,
    nullary main_call15_cst_2 (constant S_ .f32 0x3F800000#32),
    unary main_call15_cst_2 main_call15_v6 (broadcastInDim S1024x64 ![] bcast_S_S1024x64),
    binary main_call15_v6 main_call15_v5 main_call15_v7 mulf,
    ternary main_call15_v1 main_v69 main_call15_v7 main_v70 select ]

/-- Every operation of the stretch touches TensorCore buffers only. -/
theorem opsI2_sub : (opsI2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation of the stretch determines its result. -/
theorem opsI2_fresh : ∀ op ∈ (opsI2 : List (HloOp τ sig (Elt F))), op.fresh = ∅ := by
  intro _ h; (repeat (cases h with | head => rfl | tail _ h => ?_)); exact nomatch h

/-- The buffers the stretch writes. -/
abbrev opsI2_W : List (Ref sig .tc) :=
  [main_cst_21, main_v58, main_cst_22, main_v59, main_v60, main_v61, main_v62, main_v63, main_v64, main_cst_23, main_v65, main_v66, main_v67, main_v68, main_v69,
    main_call15_cst, main_call15_v0, main_call15_v1, main_call15_cst_0, main_call15_v2, main_call15_v3, main_call15_cst_1, main_call15_call0_v0, main_call15_call0_v1,
    main_call15_v4, main_call15_v5, main_call15_cst_2, main_call15_v6, main_call15_v7, main_v70]

theorem opsI2_writes : (opsI2 : List (HloOp τ sig (Elt F))).Forall fun op =>
    op.writes ⊆ (opsI2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))

/-- A buffer the stretch does not write keeps its contents through it. -/
theorem opsI2_keep (V : Valuation τ sig (Elt F)) (r : Ref sig .tc) (h : r ∉ opsI2_W) :
    after opsI2 V (Proc.devRef .tc r) = V (Proc.devRef .tc r) :=
  after_of_writes_sub opsI2 _ opsI2_writes h

attribute [local irreducible] Host.reduce Host.reduceAdd Host.scatterAdd concatenate

set_option maxRecDepth 8192 in
/-- The logits: the scattered scores where adj > 0, the fill elsewhere. -/
theorem opsI1_v57 (V : Valuation τ sig (Elt F)) :
    after opsI1 V (Proc.devRef .tc main_v57) = select (cmpf .ogt (V (Proc.devRef .tc main_arg1)) Term.zerosNN)
        (Host.scatterAdd scatter_S1024x1024_S1048576x2_S1048576_n_01_01_1 (V (Proc.devRef .tc main_v37))
          (concatenate S1048576x2 1 [⟨S1048576x1, V (Proc.devRef .tc main_v48)⟩, ⟨S1048576x1, V (Proc.devRef .tc main_v49)⟩]
            concatenates_S1048576x1_S1048576x1_S1048576x2_d1)
          (V (Proc.devRef .tc main_v36)))
        Term.fill := by
  simp only [opsI1]
  after_results_simp
  rfl

set_option maxRecDepth 8192 in
/-- The result: elu of the softmax of the logits times h. -/
theorem opsI2_v70 (V : Valuation τ sig (Elt F)) :
    after opsI2 V (Proc.devRef .tc main_v70) = Term.eluV (Host.dotGeneral dot_S1024x1024_S1024x64_S1024x64_1_0_0_1_n_n none (Term.softmax (V (Proc.devRef .tc main_v57))) (V (Proc.devRef .tc main_v0))) := by
  simp only [opsI2]
  after_results_simp
  rfl

end Cert.ReferenceIdeal.Run

end
-- ==== Proof.RefRun.lean ====
/-
  The reference's run: @main is one straight line of host operations (every outlined function's operations in place
  at its call, over that call's buffers), so every weakly fair execution ends with the result buffer at the staged term
  of the four arguments and the arguments unchanged. The line is cut in eleven stretches, each with its own module: what
  each stretch leaves in the buffers later stretches read is one stage of the term, and a buffer a stretch does not
  write keeps its contents through it; the stages are threaded here, stretch after stretch.
-/
import proofs.«123027_g70274254897801_cont_sun_c4_842_6_alg».proof.Proof.RefTerm
import proofs.«123027_g70274254897801_cont_sun_c4_842_6_alg».proof.Proof.Gen.ReferenceIdeal
import proofs.«123027_g70274254897801_cont_sun_c4_842_6_alg».proof.Proof.RefRunA
import proofs.«123027_g70274254897801_cont_sun_c4_842_6_alg».proof.Proof.RefRunB
import proofs.«123027_g70274254897801_cont_sun_c4_842_6_alg».proof.Proof.RefRunC
import proofs.«123027_g70274254897801_cont_sun_c4_842_6_alg».proof.Proof.RefRunD
import proofs.«123027_g70274254897801_cont_sun_c4_842_6_alg».proof.Proof.RefRunE
import proofs.«123027_g70274254897801_cont_sun_c4_842_6_alg».proof.Proof.RefRunF
import proofs.«123027_g70274254897801_cont_sun_c4_842_6_alg».proof.Proof.RefRunG
import proofs.«123027_g70274254897801_cont_sun_c4_842_6_alg».proof.Proof.RefRunH
import proofs.«123027_g70274254897801_cont_sun_c4_842_6_alg».proof.Proof.RefRunI
import Idealize.ShloMosaic.Lib.Pipeline.Frame
import Idealize.ShloMosaic.Lib.StableHlo.Run

-- one declaration at a time: the comparisons each hold memory while they run
set_option Elab.async false

noncomputable section

namespace Cert.ReferenceIdeal.Run

open Idealize.ShloMosaic Idealize.ShloMosaic.TcCoe Idealize.ShloMosaic.StableHlo Idealize.SL.Sem Cert.ReferenceIdeal
open Facts₀ Facts

variable {F : FTy → Type} [FloatOps F]

/-! ## The line and the program -/

/-- @main's operations in order: the stretches one after the other. -/
abbrev ops : List (HloOp τ sig (Elt F)) :=
  opsA ++ (opsB ++ (opsC ++ (opsD ++ (opsE ++ (opsF ++ (opsG ++ (opsH1 ++ (opsH2 ++ (opsI1 ++ opsI2)))))))))

/-- @main is that line: its two windows in order, each outlined function's body unfolded at its call over the call's
    buffers (a typed reference's transport of contents is the identity at a literal buffer), the sequencing
    reassociated: all of it by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only: stretch by stretch. -/
theorem ops_sub : (ops : List (HloOp τ sig (Elt F))).Forall fun op => op.bufs ⊆ tcRefs τ sig :=
  List.forall_iff_forall_mem.mpr (by
    intro op h
    simp only [ops, List.mem_append] at h
    rcases h with h | h | h | h | h | h | h | h | h | h | h
    · exact List.forall_iff_forall_mem.mp opsA_sub op h
    · exact List.forall_iff_forall_mem.mp opsB_sub op h
    · exact List.forall_iff_forall_mem.mp opsC_sub op h
    · exact List.forall_iff_forall_mem.mp opsD_sub op h
    · exact List.forall_iff_forall_mem.mp opsE_sub op h
    · exact List.forall_iff_forall_mem.mp opsF_sub op h
    · exact List.forall_iff_forall_mem.mp opsG_sub op h
    · exact List.forall_iff_forall_mem.mp opsH1_sub op h
    · exact List.forall_iff_forall_mem.mp opsH2_sub op h
    · exact List.forall_iff_forall_mem.mp opsI1_sub op h
    · exact List.forall_iff_forall_mem.mp opsI2_sub op h)

/-- Every operation of the line determines its result: stretch by stretch. -/
theorem ops_fresh : ∀ op ∈ (ops : List (HloOp τ sig (Elt F))), op.fresh = ∅ := by
  intro op h
  simp only [ops, List.mem_append] at h
  rcases h with h | h | h | h | h | h | h | h | h | h | h
  · exact opsA_fresh op h
  · exact opsB_fresh op h
  · exact opsC_fresh op h
  · exact opsD_fresh op h
  · exact opsE_fresh op h
  · exact opsF_fresh op h
  · exact opsG_fresh op h
  · exact opsH1_fresh op h
  · exact opsH2_fresh op h
  · exact opsI1_fresh op h
  · exact opsI2_fresh op h

/-! ## The buffers after each stretch -/

section Stages

variable (V : Valuation τ sig (Elt F))

/-- The buffers after the first stretch, the first two, … -/
abbrev vA : Valuation τ sig (Elt F) := after opsA V
abbrev vB : Valuation τ sig (Elt F) := after opsB (vA V)
abbrev vC : Valuation τ sig (Elt F) := after opsC (vB V)
abbrev vD : Valuation τ sig (Elt F) := after opsD (vC V)
abbrev vE : Valuation τ sig (Elt F) := after opsE (vD V)
abbrev vF : Valuation τ sig (Elt F) := after opsF (vE V)
abbrev vG : Valuation τ sig (Elt F) := after opsG (vF V)
abbrev vH1 : Valuation τ sig (Elt F) := after opsH1 (vG V)
abbrev vH2 : Valuation τ sig (Elt F) := after opsH2 (vH1 V)
abbrev vI1 : Valuation τ sig (Elt F) := after opsI1 (vH2 V)
abbrev vI2 : Valuation τ sig (Elt F) := after opsI2 (vI1 V)

/-- The whole line leaves what the last stretch leaves. -/
theorem after_ops : after ops V = vI2 V := by
  simp only [ops, after_append]

attribute [local irreducible] Host.reduce Host.reduceWindow Host.scatter Host.scatterAdd Host.gather Host.reduceAdd concatenate

/-! ### After the first stretch: h, the count, the mask, the flat positions -/

theorem a_arg0 : vA V (Proc.devRef .tc main_arg0) = V (Proc.devRef .tc main_arg0) :=
  (opsA_keep V main_arg0 (by decide)).trans rfl
theorem a_arg1 : vA V (Proc.devRef .tc main_arg1) = V (Proc.devRef .tc main_arg1) :=
  (opsA_keep V main_arg1 (by decide)).trans rfl
theorem a_arg2 : vA V (Proc.devRef .tc main_arg2) = V (Proc.devRef .tc main_arg2) :=
  (opsA_keep V main_arg2 (by decide)).trans rfl
theorem a_arg3 : vA V (Proc.devRef .tc main_arg3) = V (Proc.devRef .tc main_arg3) :=
  (opsA_keep V main_arg3 (by decide)).trans rfl
theorem a_v0 : vA V (Proc.devRef .tc main_v0) = Term.feat (V (Proc.devRef .tc main_arg0)) (V (Proc.devRef .tc main_arg2)) := opsA_v0 V
theorem a_v1 : vA V (Proc.devRef .tc main_v1) = Term.count (V (Proc.devRef .tc main_arg1)) := opsA_v1 V
theorem a_v3 : vA V (Proc.devRef .tc main_v3) = Term.nz (V (Proc.devRef .tc main_arg1)) := opsA_v3 V
theorem a_v15 : vA V (Proc.devRef .tc main_v15) = Term.flat (V (Proc.devRef .tc main_arg1)) := opsA_v15 V

/-! ### After the second: the rows -/

theorem b_arg0 : vB V (Proc.devRef .tc main_arg0) = V (Proc.devRef .tc main_arg0) :=
  (opsB_keep (vA V) main_arg0 (by decide)).trans (a_arg0 V)
theorem b_arg1 : vB V (Proc.devRef .tc main_arg1) = V (Proc.devRef .tc main_arg1) :=
  (opsB_keep (vA V) main_arg1 (by decide)).trans (a_arg1 V)
theorem b_arg2 : vB V (Proc.devRef .tc main_arg2) = V (Proc.devRef .tc main_arg2) :=
  (opsB_keep (vA V) main_arg2 (by decide)).trans (a_arg2 V)
theorem b_arg3 : vB V (Proc.devRef .tc main_arg3) = V (Proc.devRef .tc main_arg3) :=
  (opsB_keep (vA V) main_arg3 (by decide)).trans (a_arg3 V)
theorem b_v0 : vB V (Proc.devRef .tc main_v0) = Term.feat (V (Proc.devRef .tc main_arg0)) (V (Proc.devRef .tc main_arg2)) :=
  (opsB_keep (vA V) main_v0 (by decide)).trans (a_v0 V)
theorem b_v1 : vB V (Proc.devRef .tc main_v1) = Term.count (V (Proc.devRef .tc main_arg1)) :=
  (opsB_keep (vA V) main_v1 (by decide)).trans (a_v1 V)
theorem b_v3 : vB V (Proc.devRef .tc main_v3) = Term.nz (V (Proc.devRef .tc main_arg1)) :=
  (opsB_keep (vA V) main_v3 (by decide)).trans (a_v3 V)
theorem b_v15 : vB V (Proc.devRef .tc main_v15) = Term.flat (V (Proc.devRef .tc main_arg1)) :=
  (opsB_keep (vA V) main_v15 (by decide)).trans (a_v15 V)
theorem b_v17 : vB V (Proc.devRef .tc main_v17) = Term.remainder (Term.floorDiv (Term.flat (V (Proc.devRef .tc main_arg1))) (constantI S_ 32 1024#32)) (constantI S_ 32 1024#32) :=
  (opsB_v17 (vA V)).trans (by rw [a_v15])

/-! ### After the third: the columns -/

theorem c_arg0 : vC V (Proc.devRef .tc main_arg0) = V (Proc.devRef .tc main_arg0) :=
  (opsC_keep (vB V) main_arg0 (by decide)).trans (b_arg0 V)
theorem c_arg1 : vC V (Proc.devRef .tc main_arg1) = V (Proc.devRef .tc main_arg1) :=
  (opsC_keep (vB V) main_arg1 (by decide)).trans (b_arg1 V)
theorem c_arg2 : vC V (Proc.devRef .tc main_arg2) = V (Proc.devRef .tc main_arg2) :=
  (opsC_keep (vB V) main_arg2 (by decide)).trans (b_arg2 V)
theorem c_arg3 : vC V (Proc.devRef .tc main_arg3) = V (Proc.devRef .tc main_arg3) :=
  (opsC_keep (vB V) main_arg3 (by decide)).trans (b_arg3 V)
theorem c_v0 : vC V (Proc.devRef .tc main_v0) = Term.feat (V (Proc.devRef .tc main_arg0)) (V (Proc.devRef .tc main_arg2)) :=
  (opsC_keep (vB V) main_v0 (by decide)).trans (b_v0 V)
theorem c_v1 : vC V (Proc.devRef .tc main_v1) = Term.count (V (Proc.devRef .tc main_arg1)) :=
  (opsC_keep (vB V) main_v1 (by decide)).trans (b_v1 V)
theorem c_v3 : vC V (Proc.devRef .tc main_v3) = Term.nz (V (Proc.devRef .tc main_arg1)) :=
  (opsC_keep (vB V) main_v3 (by decide)).trans (b_v3 V)
theorem c_v17 : vC V (Proc.devRef .tc main_v17) = Term.remainder (Term.floorDiv (Term.flat (V (Proc.devRef .tc main_arg1))) (constantI S_ 32 1024#32)) (constantI S_ 32 1024#32) :=
  (opsC_keep (vB V) main_v17 (by decide)).trans (b_v17 V)
theorem c_v19 : vC V (Proc.devRef .tc main_v19) = Term.remainder (Term.floorDiv (Term.flat (V (Proc.devRef .tc main_arg1))) (constantI S_ 32 1#32)) (constantI S_ 32 1024#32) :=
  (opsC_v19 (vB V)).trans (by rw [b_v15])

/-! ### After the fourth: the row list, the column list, the valid slots -/

theorem d_arg0 : vD V (Proc.devRef .tc main_arg0) = V (Proc.devRef .tc main_arg0) :=
  (opsD_keep (vC V) main_arg0 (by decide)).trans (c_arg0 V)
theorem d_arg1 : vD V (Proc.devRef .tc main_arg1) = V (Proc.devRef .tc main_arg1) :=
  (opsD_keep (vC V) main_arg1 (by decide)).trans (c_arg1 V)
theorem d_arg2 : vD V (Proc.devRef .tc main_arg2) = V (Proc.devRef .tc main_arg2) :=
  (opsD_keep (vC V) main_arg2 (by decide)).trans (c_arg2 V)
theorem d_arg3 : vD V (Proc.devRef .tc main_arg3) = V (Proc.devRef .tc main_arg3) :=
  (opsD_keep (vC V) main_arg3 (by decide)).trans (c_arg3 V)
theorem d_v0 : vD V (Proc.devRef .tc main_v0) = Term.feat (V (Proc.devRef .tc main_arg0)) (V (Proc.devRef .tc main_arg2)) :=
  (opsD_keep (vC V) main_v0 (by decide)).trans (c_v0 V)
theorem d_v25 : vD V (Proc.devRef .tc main_v25) = Term.src (V (Proc.devRef .tc main_arg1)) :=
  (opsD_v25 (vC V)).trans (by rw [c_v3, c_v17]; rfl)
theorem d_v26 : vD V (Proc.devRef .tc main_v26) = Term.dst (V (Proc.devRef .tc main_arg1)) :=
  (opsD_v26 (vC V)).trans (by rw [c_v3, c_v19]; rfl)
theorem d_v29 : vD V (Proc.devRef .tc main_v29) = Term.valid (V (Proc.devRef .tc main_arg1)) :=
  (opsD_v29 (vC V)).trans (by rw [c_v1]; rfl)

/-! ### After the fifth and sixth: the endpoints' features -/

theorem e_arg0 : vE V (Proc.devRef .tc main_arg0) = V (Proc.devRef .tc main_arg0) :=
  (opsE_keep (vD V) main_arg0 (by decide)).trans (d_arg0 V)
theorem e_arg1 : vE V (Proc.devRef .tc main_arg1) = V (Proc.devRef .tc main_arg1) :=
  (opsE_keep (vD V) main_arg1 (by decide)).trans (d_arg1 V)
theorem e_arg2 : vE V (Proc.devRef .tc main_arg2) = V (Proc.devRef .tc main_arg2) :=
  (opsE_keep (vD V) main_arg2 (by decide)).trans (d_arg2 V)
theorem e_arg3 : vE V (Proc.devRef .tc main_arg3) = V (Proc.devRef .tc main_arg3) :=
  (opsE_keep (vD V) main_arg3 (by decide)).trans (d_arg3 V)
theorem e_v0 : vE V (Proc.devRef .tc main_v0) = Term.feat (V (Proc.devRef .tc main_arg0)) (V (Proc.devRef .tc main_arg2)) :=
  (opsE_keep (vD V) main_v0 (by decide)).trans (d_v0 V)
theorem e_v25 : vE V (Proc.devRef .tc main_v25) = Term.src (V (Proc.devRef .tc main_arg1)) :=
  (opsE_keep (vD V) main_v25 (by decide)).trans (d_v25 V)
theorem e_v26 : vE V (Proc.devRef .tc main_v26) = Term.dst (V (Proc.devRef .tc main_arg1)) :=
  (opsE_keep (vD V) main_v26 (by decide)).trans (d_v26 V)
theorem e_v29 : vE V (Proc.devRef .tc main_v29) = Term.valid (V (Proc.devRef .tc main_arg1)) :=
  (opsE_keep (vD V) main_v29 (by decide)).trans (d_v29 V)
theorem e_v30 : vE V (Proc.devRef .tc main_v30) = Term.take (Term.feat (V (Proc.devRef .tc main_arg0)) (V (Proc.devRef .tc main_arg2))) (Term.src (V (Proc.devRef .tc main_arg1))) :=
  (opsE_v30 (vD V)).trans (by rw [d_v0, d_v25])

theorem f_arg0 : vF V (Proc.devRef .tc main_arg0) = V (Proc.devRef .tc main_arg0) :=
  (opsF_keep (vE V) main_arg0 (by decide)).trans (e_arg0 V)
theorem f_arg1 : vF V (Proc.devRef .tc main_arg1) = V (Proc.devRef .tc main_arg1) :=
  (opsF_keep (vE V) main_arg1 (by decide)).trans (e_arg1 V)
theorem f_arg2 : vF V (Proc.devRef .tc main_arg2) = V (Proc.devRef .tc main_arg2) :=
  (opsF_keep (vE V) main_arg2 (by decide)).trans (e_arg2 V)
theorem f_arg3 : vF V (Proc.devRef .tc main_arg3) = V (Proc.devRef .tc main_arg3) :=
  (opsF_keep (vE V) main_arg3 (by decide)).trans (e_arg3 V)
theorem f_v0 : vF V (Proc.devRef .tc main_v0) = Term.feat (V (Proc.devRef .tc main_arg0)) (V (Proc.devRef .tc main_arg2)) :=
  (opsF_keep (vE V) main_v0 (by decide)).trans (e_v0 V)
theorem f_v25 : vF V (Proc.devRef .tc main_v25) = Term.src (V (Proc.devRef .tc main_arg1)) :=
  (opsF_keep (vE V) main_v25 (by decide)).trans (e_v25 V)
theorem f_v26 : vF V (Proc.devRef .tc main_v26) = Term.dst (V (Proc.devRef .tc main_arg1)) :=
  (opsF_keep (vE V) main_v26 (by decide)).trans (e_v26 V)
theorem f_v29 : vF V (Proc.devRef .tc main_v29) = Term.valid (V (Proc.devRef .tc main_arg1)) :=
  (opsF_keep (vE V) main_v29 (by decide)).trans (e_v29 V)
theorem f_v30 : vF V (Proc.devRef .tc main_v30) = Term.take (Term.feat (V (Proc.devRef .tc main_arg0)) (V (Proc.devRef .tc main_arg2))) (Term.src (V (Proc.devRef .tc main_arg1))) :=
  (opsF_keep (vE V) main_v30 (by decide)).trans (e_v30 V)
theorem f_v31 : vF V (Proc.devRef .tc main_v31) = Term.take (Term.feat (V (Proc.devRef .tc main_arg0)) (V (Proc.devRef .tc main_arg2))) (Term.dst (V (Proc.devRef .tc main_arg1))) :=
  (opsF_v31 (vE V)).trans (by rw [e_v0, e_v26])

/-! ### After the seventh: the scores -/

theorem g_arg0 : vG V (Proc.devRef .tc main_arg0) = V (Proc.devRef .tc main_arg0) :=
  (opsG_keep (vF V) main_arg0 (by decide)).trans (f_arg0 V)
theorem g_arg1 : vG V (Proc.devRef .tc main_arg1) = V (Proc.devRef .tc main_arg1) :=
  (opsG_keep (vF V) main_arg1 (by decide)).trans (f_arg1 V)
theorem g_arg2 : vG V (Proc.devRef .tc main_arg2) = V (Proc.devRef .tc main_arg2) :=
  (opsG_keep (vF V) main_arg2 (by decide)).trans (f_arg2 V)
theorem g_arg3 : vG V (Proc.devRef .tc main_arg3) = V (Proc.devRef .tc main_arg3) :=
  (opsG_keep (vF V) main_arg3 (by decide)).trans (f_arg3 V)
theorem g_v0 : vG V (Proc.devRef .tc main_v0) = Term.feat (V (Proc.devRef .tc main_arg0)) (V (Proc.devRef .tc main_arg2)) :=
  (opsG_keep (vF V) main_v0 (by decide)).trans (f_v0 V)
theorem g_v25 : vG V (Proc.devRef .tc main_v25) = Term.src (V (Proc.devRef .tc main_arg1)) :=
  (opsG_keep (vF V) main_v25 (by decide)).trans (f_v25 V)
theorem g_v26 : vG V (Proc.devRef .tc main_v26) = Term.dst (V (Proc.devRef .tc main_arg1)) :=
  (opsG_keep (vF V) main_v26 (by decide)).trans (f_v26 V)
theorem g_v36 : vG V (Proc.devRef .tc main_v36) = Term.edgeScore (Term.feat (V (Proc.devRef .tc main_arg0)) (V (Proc.devRef .tc main_arg2))) (V (Proc.devRef .tc main_arg1)) (V (Proc.devRef .tc main_arg3)) :=
  (opsG_v36 (vF V)).trans (by rw [f_v29, f_v30, f_v31, f_arg3]; rfl)

/-! ### After the eighth: the zero matrix and the wrapped index columns -/

theorem h1_arg0 : vH1 V (Proc.devRef .tc main_arg0) = V (Proc.devRef .tc main_arg0) :=
  (opsH1_keep (vG V) main_arg0 (by decide)).trans (g_arg0 V)
theorem h1_arg1 : vH1 V (Proc.devRef .tc main_arg1) = V (Proc.devRef .tc main_arg1) :=
  (opsH1_keep (vG V) main_arg1 (by decide)).trans (g_arg1 V)
theorem h1_arg2 : vH1 V (Proc.devRef .tc main_arg2) = V (Proc.devRef .tc main_arg2) :=
  (opsH1_keep (vG V) main_arg2 (by decide)).trans (g_arg2 V)
theorem h1_arg3 : vH1 V (Proc.devRef .tc main_arg3) = V (Proc.devRef .tc main_arg3) :=
  (opsH1_keep (vG V) main_arg3 (by decide)).trans (g_arg3 V)
theorem h1_v0 : vH1 V (Proc.devRef .tc main_v0) = Term.feat (V (Proc.devRef .tc main_arg0)) (V (Proc.devRef .tc main_arg2)) :=
  (opsH1_keep (vG V) main_v0 (by decide)).trans (g_v0 V)
theorem h1_v25 : vH1 V (Proc.devRef .tc main_v25) = Term.src (V (Proc.devRef .tc main_arg1)) :=
  (opsH1_keep (vG V) main_v25 (by decide)).trans (g_v25 V)
theorem h1_v26 : vH1 V (Proc.devRef .tc main_v26) = Term.dst (V (Proc.devRef .tc main_arg1)) :=
  (opsH1_keep (vG V) main_v26 (by decide)).trans (g_v26 V)
theorem h1_v36 : vH1 V (Proc.devRef .tc main_v36) = Term.edgeScore (Term.feat (V (Proc.devRef .tc main_arg0)) (V (Proc.devRef .tc main_arg2))) (V (Proc.devRef .tc main_arg1)) (V (Proc.devRef .tc main_arg3)) :=
  (opsH1_keep (vG V) main_v36 (by decide)).trans (g_v36 V)
theorem h1_v37 : vH1 V (Proc.devRef .tc main_v37) = Term.zerosNN := opsH1_v37 (vG V)
theorem h1_v39 : vH1 V (Proc.devRef .tc main_v39) = cmpi .slt (Term.src (V (Proc.devRef .tc main_arg1))) (Term.splat 0#32) :=
  (opsH1_v39 (vG V)).trans (by rw [g_v25])
theorem h1_v41 : vH1 V (Proc.devRef .tc main_v41) = addi (Term.src (V (Proc.devRef .tc main_arg1))) (Term.splat 1024#32) :=
  (opsH1_v41 (vG V)).trans (by rw [g_v25])

theorem h2_arg0 : vH2 V (Proc.devRef .tc main_arg0) = V (Proc.devRef .tc main_arg0) :=
  (opsH2_keep (vH1 V) main_arg0 (by decide)).trans (h1_arg0 V)
theorem h2_arg1 : vH2 V (Proc.devRef .tc main_arg1) = V (Proc.devRef .tc main_arg1) :=
  (opsH2_keep (vH1 V) main_arg1 (by decide)).trans (h1_arg1 V)
theorem h2_arg2 : vH2 V (Proc.devRef .tc main_arg2) = V (Proc.devRef .tc main_arg2) :=
  (opsH2_keep (vH1 V) main_arg2 (by decide)).trans (h1_arg2 V)
theorem h2_arg3 : vH2 V (Proc.devRef .tc main_arg3) = V (Proc.devRef .tc main_arg3) :=
  (opsH2_keep (vH1 V) main_arg3 (by decide)).trans (h1_arg3 V)
theorem h2_v0 : vH2 V (Proc.devRef .tc main_v0) = Term.feat (V (Proc.devRef .tc main_arg0)) (V (Proc.devRef .tc main_arg2)) :=
  (opsH2_keep (vH1 V) main_v0 (by decide)).trans (h1_v0 V)
theorem h2_v36 : vH2 V (Proc.devRef .tc main_v36) = Term.edgeScore (Term.feat (V (Proc.devRef .tc main_arg0)) (V (Proc.devRef .tc main_arg2))) (V (Proc.devRef .tc main_arg1)) (V (Proc.devRef .tc main_arg3)) :=
  (opsH2_keep (vH1 V) main_v36 (by decide)).trans (h1_v36 V)
theorem h2_v37 : vH2 V (Proc.devRef .tc main_v37) = Term.zerosNN :=
  (opsH2_keep (vH1 V) main_v37 (by decide)).trans (h1_v37 V)
theorem h2_v48 : vH2 V (Proc.devRef .tc main_v48) = broadcastInDim S1048576x1 ![0] bcast_S1048576_S1048576x1_0 (Term.wrap 1024#32 (Term.src (V (Proc.devRef .tc main_arg1)))) :=
  (opsH2_v48 (vH1 V)).trans (by rw [h1_v39, h1_v41, h1_v25]; rfl)
theorem h2_v49 : vH2 V (Proc.devRef .tc main_v49) = broadcastInDim S1048576x1 ![0] bcast_S1048576_S1048576x1_0 (Term.wrap 1024#32 (Term.dst (V (Proc.devRef .tc main_arg1)))) :=
  (opsH2_v49 (vH1 V)).trans (by rw [h1_v26])

/-! ### After the last: the logits, and the result -/

theorem i1_arg0 : vI1 V (Proc.devRef .tc main_arg0) = V (Proc.devRef .tc main_arg0) :=
  (opsI1_keep (vH2 V) main_arg0 (by decide)).trans (h2_arg0 V)
theorem i1_arg1 : vI1 V (Proc.devRef .tc main_arg1) = V (Proc.devRef .tc main_arg1) :=
  (opsI1_keep (vH2 V) main_arg1 (by decide)).trans (h2_arg1 V)
theorem i1_arg2 : vI1 V (Proc.devRef .tc main_arg2) = V (Proc.devRef .tc main_arg2) :=
  (opsI1_keep (vH2 V) main_arg2 (by decide)).trans (h2_arg2 V)
theorem i1_arg3 : vI1 V (Proc.devRef .tc main_arg3) = V (Proc.devRef .tc main_arg3) :=
  (opsI1_keep (vH2 V) main_arg3 (by decide)).trans (h2_arg3 V)
theorem i1_v0 : vI1 V (Proc.devRef .tc main_v0) = Term.feat (V (Proc.devRef .tc main_arg0)) (V (Proc.devRef .tc main_arg2)) :=
  (opsI1_keep (vH2 V) main_v0 (by decide)).trans (h2_v0 V)
theorem i1_v57 : vI1 V (Proc.devRef .tc main_v57) = Term.logits (Term.feat (V (Proc.devRef .tc main_arg0)) (V (Proc.devRef .tc main_arg2))) (V (Proc.devRef .tc main_arg1)) (V (Proc.devRef .tc main_arg3)) :=
  (opsI1_v57 (vH2 V)).trans (by rw [h2_arg1, h2_v37, h2_v48, h2_v49, h2_v36]; rfl)

theorem i2_arg0 : vI2 V (Proc.devRef .tc main_arg0) = V (Proc.devRef .tc main_arg0) :=
  (opsI2_keep (vI1 V) main_arg0 (by decide)).trans (i1_arg0 V)
theorem i2_arg1 : vI2 V (Proc.devRef .tc main_arg1) = V (Proc.devRef .tc main_arg1) :=
  (opsI2_keep (vI1 V) main_arg1 (by decide)).trans (i1_arg1 V)
theorem i2_arg2 : vI2 V (Proc.devRef .tc main_arg2) = V (Proc.devRef .tc main_arg2) :=
  (opsI2_keep (vI1 V) main_arg2 (by decide)).trans (i1_arg2 V)
theorem i2_arg3 : vI2 V (Proc.devRef .tc main_arg3) = V (Proc.devRef .tc main_arg3) :=
  (opsI2_keep (vI1 V) main_arg3 (by decide)).trans (i1_arg3 V)
theorem i2_v70 : vI2 V (Proc.devRef .tc main_v70) = Term.out (V (Proc.devRef .tc main_arg0)) (V (Proc.devRef .tc main_arg1)) (V (Proc.devRef .tc main_arg2)) (V (Proc.devRef .tc main_arg3)) :=
  (opsI2_v70 (vI1 V)).trans (by rw [i1_v57, i1_v0]; rfl)

end Stages

/-! ## The run -/

/-- Every weakly fair execution of the reference terminates with its result at the staged term and its arguments kept. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v70)
          = Term.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v70).trans ((congrFun (after_ops (launchContents m c)) _).trans (i2_v70 (launchContents m c))),
        (h c main_arg0).trans ((congrFun (after_ops (launchContents m c)) _).trans (i2_arg0 (launchContents m c))),
        (h c main_arg1).trans ((congrFun (after_ops (launchContents m c)) _).trans (i2_arg1 (launchContents m c))),
        (h c main_arg2).trans ((congrFun (after_ops (launchContents m c)) _).trans (i2_arg2 (launchContents m c))),
        (h c main_arg3).trans ((congrFun (after_ops (launchContents m c)) _).trans (i2_arg3 (launchContents m c)))⟩)
    (run_seq scopedRefs_eq scopedSems_eq defs main (fun _ => ops) main_eq (fun _ => ops_sub) m ρ (fun _ => ops_fresh))

end Cert.ReferenceIdeal.Run

end
-- ==== Proof.Nonzero.lean ====
/-
  Counting the set bits of a finite 0/1 sequence, and finding the k-th one from the counts.

  For mask : Fin N → Bool let cnt k be the number of set positions up to and including k (a running count), total the
  number of set positions, and pos b the number of positions whose running count is at most b. The running count steps
  by one exactly at set positions, so for b < total, pos b is the position of the (b+1)-th set bit: it is set, its
  running count is b + 1, and every set position k is pos (cnt k - 1).
-/
import Mathlib.Data.Fintype.Card
import Mathlib.Data.Finset.Card
import Mathlib.Data.Fin.Basic
import Mathlib.Order.Interval.Finset.Fin
import Mathlib.Tactic.Linarith

namespace Cert.Nonzero

variable {N : Nat} (mask : Fin N → Bool)

/-- The number of set positions up to and including k. -/
def cnt (k : Fin N) : Nat := (Finset.univ.filter fun k' : Fin N => k'.val ≤ k.val ∧ mask k' = true).card

/-- The number of set positions. -/
def total : Nat := (Finset.univ.filter fun k' : Fin N => mask k' = true).card

/-- The number of positions whose running count is at most b. -/
def pos (b : Nat) : Nat := (Finset.univ.filter fun k : Fin N => cnt mask k ≤ b).card

/-- The running count is monotone in the position. -/
theorem cnt_mono {k k' : Fin N} (h : k.val ≤ k'.val) : cnt mask k ≤ cnt mask k' := by
  unfold cnt
  apply Finset.card_le_card
  intro x hx
  simp only [Finset.mem_filter, Finset.mem_univ, true_and] at hx ⊢
  exact ⟨hx.1.trans h, hx.2⟩

/-- The running count strictly grows on arriving at a set position: that position is counted there and not before. -/
theorem cnt_lt_of_set {k k' : Fin N} (h : k.val < k'.val) (hk' : mask k' = true) :
    cnt mask k < cnt mask k' := by
  unfold cnt
  apply Finset.card_lt_card
  rw [Finset.ssubset_iff_of_subset]
  · refine ⟨k', ?_, ?_⟩
    · simp only [Finset.mem_filter, Finset.mem_univ, true_and]
      exact ⟨le_refl _, hk'⟩
    · simp only [Finset.mem_filter, Finset.mem_univ, true_and, not_and]
      intro h'
      omega
  · intro x hx
    simp only [Finset.mem_filter, Finset.mem_univ, true_and] at hx ⊢
    exact ⟨by omega, hx.2⟩

/-- At an unset position that has a predecessor the running count is the predecessor's. -/
theorem cnt_succ_of_unset {j : Nat} (h : j + 1 < N) (hm : mask ⟨j + 1, h⟩ = false) :
    cnt mask ⟨j + 1, h⟩ = cnt mask ⟨j, by omega⟩ := by
  unfold cnt
  congr 1
  apply Finset.filter_congr
  intro x _
  constructor
  · rintro ⟨hx, hmx⟩
    refine ⟨?_, hmx⟩
    by_contra hne
    have : x = ⟨j + 1, h⟩ := Fin.ext (by simp only at hx hne ⊢; omega)
    rw [this, hm] at hmx
    exact Bool.false_ne_true hmx
  · rintro ⟨hx, hmx⟩
    exact ⟨by simp only at hx ⊢; omega, hmx⟩

/-- One position adds at most one to the running count. -/
theorem cnt_succ_le {j : Nat} (h : j + 1 < N) : cnt mask ⟨j + 1, h⟩ ≤ cnt mask ⟨j, by omega⟩ + 1 := by
  unfold cnt
  refine le_trans (Finset.card_le_card (t := insert (⟨j + 1, h⟩ : Fin N)
    (Finset.univ.filter fun k' : Fin N => k'.val ≤ j ∧ mask k' = true)) ?_) (Finset.card_insert_le _ _)
  intro x hx
  simp only [Finset.mem_filter, Finset.mem_univ, true_and, Finset.mem_insert] at hx ⊢
  by_cases hxe : x.val = j + 1
  · exact Or.inl (Fin.ext hxe)
  · exact Or.inr ⟨by omega, hx.2⟩

/-- At the first position the running count is at most one. -/
theorem cnt_zero_le (h : 0 < N) : cnt mask ⟨0, h⟩ ≤ 1 := by
  unfold cnt
  refine le_trans (Finset.card_le_card (t := {(⟨0, h⟩ : Fin N)}) ?_) (by simp)
  intro x hx
  simp only [Finset.mem_filter, Finset.mem_univ, true_and, Finset.mem_singleton] at hx ⊢
  exact Fin.ext (by simp only; omega)

/-- At an unset first position the running count is zero. -/
theorem cnt_zero_of_unset (h : 0 < N) (hm : mask ⟨0, h⟩ = false) : cnt mask ⟨0, h⟩ = 0 := by
  unfold cnt
  rw [Finset.card_eq_zero, Finset.filter_eq_empty_iff]
  intro x _
  rintro ⟨hx, hmx⟩
  have : x = ⟨0, h⟩ := Fin.ext (by simp only at hx ⊢; omega)
  rw [this, hm] at hmx
  exact Bool.false_ne_true hmx

/-- At the last position the running count is the total. -/
theorem cnt_last (h : 0 < N) : cnt mask ⟨N - 1, by omega⟩ = total mask := by
  unfold cnt total
  congr 1
  apply Finset.filter_congr
  intro x _
  constructor
  · exact fun hx => hx.2
  · exact fun hx => ⟨by have := x.isLt; simp only; omega, hx⟩

/-- A set of positions closed under passing to smaller positions is the initial segment of its own size. -/
theorem mem_iff_lt_card_of_downClosed (S : Finset (Fin N))
    (hS : ∀ k k' : Fin N, k.val ≤ k'.val → k' ∈ S → k ∈ S) (k : Fin N) : k ∈ S ↔ k.val < S.card := by
  constructor
  · intro hk
    have hsub : Finset.Iic k ⊆ S := fun x hx => hS x k (Fin.le_def.mp (Finset.mem_Iic.mp hx)) hk
    have hc := Finset.card_le_card hsub
    rw [Fin.card_Iic] at hc
    omega
  · intro hlt
    by_contra hk
    have hsub : S ⊆ Finset.Iio k := fun x hx => by
      rw [Finset.mem_Iio]
      by_contra hx'
      exact hk (hS k x (not_lt.mp hx') hx)
    have hc := Finset.card_le_card hsub
    rw [Fin.card_Iio] at hc
    omega

/-- The positions whose running count is at most b are exactly the first pos b positions. -/
theorem cnt_le_iff (b : Nat) (k : Fin N) : cnt mask k ≤ b ↔ k.val < pos mask b := by
  have hS : ∀ k k' : Fin N, k.val ≤ k'.val →
      k' ∈ (Finset.univ.filter fun k : Fin N => cnt mask k ≤ b) →
      k ∈ (Finset.univ.filter fun k : Fin N => cnt mask k ≤ b) := by
    intro k k' h hk'
    simp only [Finset.mem_filter, Finset.mem_univ, true_and] at hk' ⊢
    exact (cnt_mono mask h).trans hk'
  have key := mem_iff_lt_card_of_downClosed _ hS k
  simp only [Finset.mem_filter, Finset.mem_univ, true_and] at key
  exact key

/-- If the position numbered pos b is unset its running count is still at most b: it has the count of its predecessor,
which is among the first pos b positions (or it is the first position, with count zero). -/
theorem cnt_le_of_unset_at_pos {b p : Nat} (hp : pos mask b = p) (hpN : p < N) (hm : mask ⟨p, hpN⟩ = false) :
    cnt mask ⟨p, hpN⟩ ≤ b := by
  cases p with
  | zero => rw [cnt_zero_of_unset mask hpN hm]; exact Nat.zero_le _
  | succ j =>
    rw [cnt_succ_of_unset mask hpN hm]
    exact (cnt_le_iff mask b ⟨j, by omega⟩).mpr (by simp only; omega)

/-- The running count of the position numbered pos b is at most b + 1: one more than its predecessor's. -/
theorem cnt_at_pos_le {b p : Nat} (hp : pos mask b = p) (hpN : p < N) : cnt mask ⟨p, hpN⟩ ≤ b + 1 := by
  cases p with
  | zero => exact (cnt_zero_le mask hpN).trans (by omega)
  | succ j =>
    have h1 := cnt_succ_le mask hpN
    have h2 : cnt mask ⟨j, by omega⟩ ≤ b := (cnt_le_iff mask b ⟨j, by omega⟩).mpr (by simp only; omega)
    omega

theorem cnt_le_total (k : Fin N) : cnt mask k ≤ total mask := by
  unfold cnt total
  apply Finset.card_le_card
  intro x hx
  simp only [Finset.mem_filter, Finset.mem_univ, true_and] at hx ⊢
  exact hx.2

theorem total_le : total mask ≤ N := by
  unfold total
  exact (Finset.card_filter_le _ _).trans (by simp)

theorem pos_le (b : Nat) : pos mask b ≤ N := by
  unfold pos
  exact (Finset.card_filter_le _ _).trans (by simp)

theorem pos_lt {b : Nat} (hb : b < total mask) : pos mask b < N := by
  have hN : 0 < N := lt_of_lt_of_le (Nat.zero_lt_of_lt hb) (total_le mask)
  by_contra hge
  have hlast : cnt mask ⟨N - 1, by omega⟩ ≤ b := (cnt_le_iff mask b ⟨N - 1, by omega⟩).mpr (by simp only; omega)
  rw [cnt_last mask hN] at hlast
  omega

/-- Past the last set bit every position counts: pos is N. -/
theorem pos_of_total_le {b : Nat} (hb : total mask ≤ b) : pos mask b = N := by
  unfold pos
  rw [Finset.filter_true_of_mem (fun k _ => (cnt_le_total mask k).trans hb)]
  simp

theorem mask_pos {b : Nat} (hb : b < total mask) : mask ⟨pos mask b, pos_lt mask hb⟩ = true := by
  have hgt : ¬ cnt mask ⟨pos mask b, pos_lt mask hb⟩ ≤ b := fun h =>
    lt_irrefl _ ((cnt_le_iff mask b ⟨pos mask b, pos_lt mask hb⟩).mp h)
  by_contra hm
  rw [Bool.not_eq_true] at hm
  exact hgt (cnt_le_of_unset_at_pos mask rfl (pos_lt mask hb) hm)

theorem cnt_pos {b : Nat} (hb : b < total mask) : cnt mask ⟨pos mask b, pos_lt mask hb⟩ = b + 1 := by
  have hgt : ¬ cnt mask ⟨pos mask b, pos_lt mask hb⟩ ≤ b := fun h =>
    lt_irrefl _ ((cnt_le_iff mask b ⟨pos mask b, pos_lt mask hb⟩).mp h)
  have hle : cnt mask ⟨pos mask b, pos_lt mask hb⟩ ≤ b + 1 := cnt_at_pos_le mask rfl (pos_lt mask hb)
  omega

theorem cnt_pos_of_set {k : Fin N} (hk : mask k = true) : 0 < cnt mask k := by
  unfold cnt
  apply Finset.card_pos.mpr
  exact ⟨k, by simp only [Finset.mem_filter, Finset.mem_univ, true_and]; exact ⟨le_refl _, hk⟩⟩

theorem pos_cnt {k : Fin N} (hk : mask k = true) : pos mask (cnt mask k - 1) = k.val := by
  have h0 := cnt_pos_of_set mask hk
  have hset : (Finset.univ.filter fun k' : Fin N => cnt mask k' ≤ cnt mask k - 1) = Finset.Iio k := by
    ext x
    simp only [Finset.mem_filter, Finset.mem_univ, true_and, Finset.mem_Iio]
    constructor
    · intro hx
      by_contra hnlt
      have := cnt_mono mask (not_lt.mp hnlt : k.val ≤ x.val)
      omega
    · intro hx
      have := cnt_lt_of_set mask (k := x) (k' := k) hx hk
      omega
  unfold pos
  rw [hset, Fin.card_Iio]

theorem cnt_sub_one_lt {k : Fin N} (hk : mask k = true) : cnt mask k - 1 < total mask := by
  have h0 := cnt_pos_of_set mask hk
  have h1 := cnt_le_total mask k
  omega

theorem pos_injOn {b b' : Nat} (hb : b < total mask) (hb' : b' < total mask) (h : pos mask b = pos mask b') : b = b' := by
  have h1 := cnt_pos mask hb
  have h2 := cnt_pos mask hb'
  have he : (⟨pos mask b, pos_lt mask hb⟩ : Fin N) = ⟨pos mask b', pos_lt mask hb'⟩ := Fin.ext h
  rw [he, h2] at h1
  omega

end Cert.Nonzero
-- ==== Proof.RefCumsum.lean ====
/-
  jnp.cumsum of 32-bit words, read at a position: the window of full width padded low holds exactly the entries at
  positions up to and including k, so the windowed sum is the prefix sum, as long as the whole sum fits in 32 bits.
  The window's fold is a left fold of word additions from zero over the window offsets; such a fold is the sum of its
  terms modulo 2^32. At result position k the offset n reads operand position k + n − (N − 1) when that is not negative
  and the padding (zero) otherwise, so shifting the offsets by N − 1 − k turns the sum into the sum over positions ≤ k.
-/
import proofs.«123027_g70274254897801_cont_sun_c4_842_6_alg».proof.Proof.RefTerm
import proofs.«123027_g70274254897801_cont_sun_c4_842_6_alg».proof.Proof.Gen.ReferenceIdeal
import Idealize.ShloMosaic.Lib.ValueIdx

noncomputable section

namespace Cert.ReferenceIdeal.Read

open Idealize.ShloMosaic Idealize.ShloMosaic.ValueIdx Cert.ReferenceIdeal
open scoped BigOperators

/-- A left fold of 32-bit word additions is the sum of the words, modulo 2^32. -/
theorem foldl_addi_toNat {ι : Type} (l : List ι) (g : ι → BitVec 32) (a : BitVec 32) :
    (l.foldl (fun r i => IntOp.addi r (g i)) a).toNat
      = (a.toNat + (l.map fun i => (g i).toNat).sum) % 2 ^ 32 := by
  induction l generalizing a with
  | nil => simp [Nat.mod_eq_of_lt a.isLt]
  | cons b l ih =>
    rw [List.foldl_cons, ih]
    simp only [List.map_cons, List.sum_cons, IntOp.addi, BitVec.toNat_add]
    omega

/-- On a rank-1 shape the row-major position of an index is its one coordinate. -/
theorem rowMajor_symm_one_val {d : Fin 1 → Nat} (n : Fin (⟨1, d⟩ : Shape).numel) (a : Fin 1) :
    (((⟨1, d⟩ : Shape).rowMajor.symm n) a).val = n.val := by
  obtain rfl : a = 0 := Subsingleton.elim _ _
  have := Shape.rowMajor_val_one ((⟨1, d⟩ : Shape).rowMajor.symm n)
  rw [Equiv.apply_symm_apply] at this
  exact this.symm

/-- The one coordinate of a rank-1 index built from a coordinate. -/
theorem ix1_val {n : Nat} (a : Fin n) (d : Fin 1) : (ix1 a d).val = a.val := by
  match d with | ⟨0, _⟩ => rfl

/-- The window offsets that read the operand, shifted, are the positions up to k. -/
theorem sum_window_shift (N M k : Nat) (hNM : M + 1 = N) (hk : k < N) (A : ℕ → ℕ) :
    (∑ m ∈ Finset.range N, if M ≤ k + m then A (k + m - M) else 0)
      = ∑ m ∈ Finset.range N, if m ≤ k then A m else 0 := by
  rw [← Finset.sum_filter, ← Finset.sum_filter]
  refine Finset.sum_nbij' (fun m => k + m - M) (fun m => m + M - k) ?_ ?_ ?_ ?_ ?_
  · intro m hm
    simp only [Finset.mem_filter, Finset.mem_range] at hm ⊢
    omega
  · intro m hm
    simp only [Finset.mem_filter, Finset.mem_range] at hm ⊢
    omega
  · intro m hm
    simp only [Finset.mem_filter, Finset.mem_range] at hm ⊢
    omega
  · intro m hm
    simp only [Finset.mem_filter, Finset.mem_range] at hm ⊢
    omega
  · intro m hm
    rfl

/-- A full-width window padded low by its width less one, over 32-bit words with word addition from zero: the result at
    position k is the sum of the operand's entries at positions up to k, modulo 2^32. -/
theorem reduceWindow_prefix_toNat {N M : Nat} (hNM : M + 1 = N) {u : Shape} (x : IVec ⟨1, ![N]⟩ 32) (init : u.Idx → BitVec 32)
    (h : (⟨1, ![N]⟩ : Shape).ReduceWindows (![N] : Fin 1 → Nat) ![1] ![M] ![0] ⟨1, ![N]⟩) (hu : 0 < u.numel)
    (hinit : init (Shape.Idx.first hu) = 0#32) (k : Fin N) :
    (Host.reduceWindow IntOp.addi (![N] : Fin 1 → Nat) ![1] ![M] ![0] x init h hu (ix1 k)).toNat
      = (∑ k' : Fin N, if k'.val ≤ k.val then (x (ix1 k')).toNat else 0) % 2 ^ 32 := by
  unfold Host.reduceWindow
  dsimp only
  rw [foldl_addi_toNat, hinit]
  simp only [Matrix.cons_val_fin_one, ix1_val, rowMajor_symm_one_val, Nat.mul_one, forall_const]
  rw [← Fin.sum_univ_def]
  have hnum : (⟨1, ![N]⟩ : Shape).numel = N := by simp [Shape.numel]
  let A : ℕ → ℕ := fun m => if hm : m < N then (x (ix1 ⟨m, hm⟩)).toNat else 0
  have hA : ∀ k' : Fin N, (x (ix1 k')).toNat = A k'.val := fun k' => by
    simp only [A, dif_pos k'.isLt]
  let Hn : ℕ → ℕ := fun m => if M ≤ k.val + m then A (k.val + m - M) else 0
  let Kn : ℕ → ℕ := fun m => if m ≤ k.val then A m else 0
  calc _ = (0 + ∑ i : Fin (⟨1, ![N]⟩ : Shape).numel, Hn i.val) % 2 ^ 32 := by
        congr 2
        apply Finset.sum_congr rfl
        intro i _
        show _ = if M ≤ k.val + i.val then A (k.val + i.val - M) else 0
        by_cases hc : M ≤ k.val + i.val ∧ k.val + i.val - M < N
        · rw [dif_pos hc, if_pos hc.1]
          simp only [A, dif_pos hc.2]
          congr 2
          funext a
          apply Fin.ext
          exact (ix1_val (⟨k.val + i.val - M, hc.2⟩ : Fin N) a).symm
        · rw [dif_neg hc]
          by_cases hc1 : M ≤ k.val + i.val
          · rw [if_pos hc1]
            simp only [A]
            rw [dif_neg (fun h2 => hc ⟨hc1, h2⟩)]
            rfl
          · rw [if_neg hc1]
            rfl
    _ = (∑ k' : Fin N, Kn k'.val) % 2 ^ 32 := by
        rw [Fin.sum_univ_eq_sum_range Hn, Fin.sum_univ_eq_sum_range Kn, hnum, Nat.zero_add]
        exact congrArg (· % 2 ^ 32) (sum_window_shift N M k.val hNM k.isLt A)
    _ = _ := by
        congr 1
        apply Finset.sum_congr rfl
        intro k' _
        show (if k'.val ≤ k.val then A k'.val else 0) = _
        rw [hA]

/-- The running sum at position k is the sum of the entries at positions ≤ k. -/
theorem cumsum_toNat (v : IVec S1048576 32) (hsum : (∑ k' : Fin 1048576, (v (ix1 k')).toNat) < 2 ^ 32) (k : Fin 1048576) :
    (Term.cumsum v (ix1 k)).toNat = ∑ k' : Fin 1048576, if k'.val ≤ k.val then (v (ix1 k')).toNat else 0 := by
  refine (reduceWindow_prefix_toNat (N := 1048576) (M := 1048575) rfl v
    (broadcastInDim S_ ![] Facts₀.bcast_S_S_ (constantI S_ 32 0#32))
    Facts₀.reduceWindows_S1048576_S1048576_w1048576s1p1048575_0 Facts₀.h_S_ rfl k).trans ?_
  apply Nat.mod_eq_of_lt
  refine lt_of_le_of_lt (Finset.sum_le_sum fun k' _ => ?_) hsum
  split
  · exact le_rfl
  · exact Nat.zero_le _

end Cert.ReferenceIdeal.Read

end
-- ==== Proof.RefHist.lean ====
/-
  jnp.bincount of the running counts, read at a bin: a scatter of ones adds one to bin b for every position whose
  running count is b; a count equal to the length lies outside the histogram and is dropped.
-/
import proofs.«123027_g70274254897801_cont_sun_c4_842_6_alg».proof.Proof.RefTerm
import proofs.«123027_g70274254897801_cont_sun_c4_842_6_alg».proof.Proof.Gen.ReferenceIdeal
import Idealize.ShloMosaic.Lib.ValueIdx

noncomputable section

namespace Cert.ReferenceIdeal.Read

open Idealize.ShloMosaic Idealize.ShloMosaic.ValueIdx Cert.ReferenceIdeal
open scoped BigOperators

/-- A scatter of ones with integer addition, read at one position: the start value plus the number of updates that land there. -/
theorem scatter_ones_apply {s si u : Shape} {w : Nat} (d : ScatterDims s si u) (x : s.Idx → BitVec 32) (idx : IVec si w)
    (upd : u.Idx → BitVec 32) (hupd : ∀ j, upd j = 1#32) (b : s.Idx) :
    Host.scatter d IntOp.addi x idx upd b
      = x b + BitVec.ofNat 32 ((List.finRange u.numel).countP fun n => d.resultIdx? (u.rowMajor.symm n) idx = some b) := by
  unfold Host.scatter
  generalize List.finRange u.numel = l
  induction l generalizing x with
  | nil => simp
  | cons n l ih =>
    rw [List.foldl_cons, ih, List.countP_cons]
    cases hr : d.resultIdx? (u.rowMajor.symm n) idx with
    | none => simp
    | some i =>
      by_cases hib : i = b
      · subst hib
        simp [hupd, IntOp.addi, BitVec.ofNat_add, BitVec.add_assoc, BitVec.add_comm]
      · have hbi : ¬ b = i := fun h => hib h.symm
        simp [hib, hbi]

/-- Counting along the list of all positions is counting in the finite set of all positions. -/
theorem countP_finRange_eq_card {n : Nat} (p : Fin n → Prop) [DecidablePred p] :
    (List.finRange n).countP (fun i => decide (p i)) = (Finset.univ.filter p).card := by
  rw [List.countP_eq_length_filter, Fin.univ_def]
  simp only [Finset.card, Finset.filter_val, Multiset.filter_coe, Multiset.coe_card]

/-- A rank-1 index is its one coordinate. -/
def ix1Equiv (n : Nat) : Fin n ≃ (⟨1, ![n]⟩ : Shape).Idx where
  toFun := ix1
  invFun j := j 0
  left_inv _ := rfl
  right_inv j := (eq_ix1 j).symm

/-- The histogram scatter's landing position: update k lands at its start index, read signed, exactly when that lies
    inside the histogram. -/
theorem resultIdx_iff [Facts₀] (idx : IVec S1048576x1 32) (k b : Fin 1048576) :
    scatter_S1048576_S1048576x1_S1048576_n_0_0_1.resultIdx? (ix1 k) idx = some (ix1 b)
      ↔ (idx (ix2 k 0)).toInt = (b.val : Int) := by
  generalize hd : scatter_S1048576_S1048576x1_S1048576_n_0_0_1 = d
  have hstart : d.start (ix1 k) idx 0 = (idx (ix2 k 0)).toInt := by
    subst hd
    unfold ScatterDims.start
    rw [dif_pos (show (0 : Fin 1) ∈ scatter_S1048576_S1048576x1_S1048576_n_0_0_1.scatterDimsToOperandDims from List.mem_singleton.mpr rfl)]
    congr 2
    funext a; refine Fin.ext ?_
    match a with
    | ⟨0, _⟩ => rfl
    | ⟨1, _⟩ => rfl
  have hwin : d.window (ix1 k) 0 = 0 := by
    subst hd
    unfold ScatterDims.window
    rw [dif_neg]
    show (0 : Fin 1) ∉ Shape.kept S1048576 [0]
    decide
  have hb := b.isLt
  unfold ScatterDims.resultIdx?
  by_cases h : ∀ a, 0 ≤ d.start (ix1 k) idx a + d.window (ix1 k) a ∧ d.start (ix1 k) idx a + d.window (ix1 k) a < S1048576.size a
  · rw [dif_pos h, Option.some.injEq]
    have h0 := h 0; rw [hstart, hwin] at h0
    constructor
    · intro e
      have e1 := congrArg Fin.val (congrFun e 0)
      have e2 : (d.start (ix1 k) idx 0 + d.window (ix1 k) 0).toNat = b.val := e1
      rw [hstart, hwin] at e2
      omega
    · intro e
      funext a; obtain rfl : a = 0 := Subsingleton.elim _ _
      refine Fin.ext ?_
      show (d.start (ix1 k) idx 0 + d.window (ix1 k) 0).toNat = b.val
      rw [hstart, hwin]; omega
  · rw [dif_neg h]
    constructor
    · intro e; exact absurd e (by simp)
    · intro e; exfalso; apply h
      intro a; obtain rfl : a = 0 := Subsingleton.elim _ _
      rw [hstart, hwin]
      show 0 ≤ _ + ((0 : Nat) : Int) ∧ _ + ((0 : Nat) : Int) < ((1048576 : Nat) : Int)
      omega

/-- The bins laid out as a column read the bin of their row. -/
theorem col_apply [Facts₀] (v : IVec S1048576 32) (k : Fin 1048576) :
    broadcastInDim S1048576x1 ![0] Facts₀.bcast_S1048576_S1048576x1_0 v (ix2 k 0) = v (ix1 k) := by
  unfold broadcastInDim
  congr 1
  funext a; obtain rfl : a = 0 := Subsingleton.elim _ _
  rw [dif_neg (by decide)]
  rfl

/-- A word between 0 and the length is its own bin: clipping below at zero and wrapping a negative index leave it. -/
theorem bin_word (r : BitVec 32) (h : r.toNat ≤ 1048576) :
    Scalar.select (IntOp.cmpi .slt (IntOp.maxsi 0#32 r) 0#32) (IntOp.addi (IntOp.maxsi 0#32 r) 1048576#32) (IntOp.maxsi 0#32 r) = r
      ∧ r.toInt = (r.toNat : Int) := by
  have hi : r.toInt = (r.toNat : Int) := by
    rw [BitVec.toInt_eq_toNat_cond]; rw [if_pos (by omega)]
  have hs : r.slt 0#32 = false := by
    rw [BitVec.slt, hi]; simp
  refine ⟨?_, hi⟩
  have hm : IntOp.maxsi 0#32 r = r := by unfold IntOp.maxsi; rw [hs]; simp
  rw [hm]
  unfold IntOp.cmpi
  simp only [hs]
  rfl

/-- Bin b holds the number of positions whose running count is b, when every running count is at most the length. -/
theorem hist_toNat (adj : FVec Ideal S1024x1024 .f32)
    (hr : ∀ k : Fin 1048576, (Term.running adj (ix1 k)).toNat ≤ 1048576) (b : Fin 1048576) :
    (Term.hist adj (ix1 b)).toNat
      = (Finset.univ.filter fun k : Fin 1048576 => (Term.running adj (ix1 k)).toNat = b.val).card := by
  have hbin : ∀ k : Fin 1048576, Term.binOf adj (ix1 k) = Term.running adj (ix1 k) := fun k => (bin_word _ (hr k)).1
  unfold Term.hist
  rw [scatter_ones_apply _ _ _ (Term.splat 1#32) (fun _ => rfl), countP_finRange_eq_card]
  have hcard : ∀ (d : ScatterDims S1048576 S1048576x1 S1048576) (idx : IVec S1048576x1 32),
      (∀ k : Fin 1048576, d.resultIdx? (ix1 k) idx = some (ix1 b) ↔ (Term.running adj (ix1 k)).toNat = b.val) →
      (Finset.univ.filter fun n : Fin S1048576.numel => d.resultIdx? (S1048576.rowMajor.symm n) idx = some (ix1 b)).card
        = (Finset.univ.filter fun k : Fin 1048576 => (Term.running adj (ix1 k)).toNat = b.val).card := by
    intro d idx hd
    refine Finset.card_equiv (S1048576.rowMajor.symm.trans (ix1Equiv 1048576).symm) (fun n => ?_)
    simp only [Finset.mem_filter, Finset.mem_univ, true_and]
    show _ ↔ (Term.running adj (ix1 ((S1048576.rowMajor.symm n) 0))).toNat = b.val
    generalize S1048576.rowMajor.symm n = j
    obtain ⟨k, rfl⟩ : ∃ k, j = ix1 k := ⟨j 0, eq_ix1 j⟩
    exact hd k
  rw [hcard]
  · show (0#32 + BitVec.ofNat 32 _).toNat = _
    rw [BitVec.zero_add, BitVec.toNat_ofNat, Nat.mod_eq_of_lt]
    have := Finset.card_filter_le (Finset.univ : Finset (Fin 1048576)) (fun k => (Term.running adj (ix1 k)).toNat = b.val)
    rw [Finset.card_univ, Fintype.card_fin] at this
    omega
  · intro k
    rw [resultIdx_iff, col_apply, hbin, (bin_word _ (hr k)).2]
    exact Int.ofNat_inj

end Cert.ReferenceIdeal.Read

end
-- ==== Proof.RefDivMod.lean ====
/-
  The integer glue of jnp.nonzero read at a position: row = (p div 1024) mod 1024 and column = p mod 1024 of a flat
  position p ≤ 1048576 through jnp.floor_divide and jnp.remainder (sign corrections that never fire on a non-negative
  dividend and a positive divisor), the wrap of a non-negative index, the iota, and the count of nonzero entries.
-/
import proofs.«123027_g70274254897801_cont_sun_c4_842_6_alg».proof.Proof.RefTerm
import proofs.«123027_g70274254897801_cont_sun_c4_842_6_alg».proof.Proof.Gen.ReferenceIdeal
import proofs.«123027_g70274254897801_cont_sun_c4_842_6_alg».proof.Proof.Spec
import Idealize.ShloMosaic.PureOps.Ideal.Laws
import Idealize.ShloMosaic.PureOps.Reduce
import Idealize.ShloMosaic.Lib.IndicatorCount
import Idealize.ShloMosaic.Lib.ValueIdxRank1
import Idealize.ShloMosaic.Lib.Pipeline.Value

noncomputable section

namespace Cert.ReferenceIdeal.Read

open Idealize.ShloMosaic Idealize.ShloMosaic.ValueIdx Cert.ReferenceIdeal
open scoped BigOperators

/-! ### Words: signed division and remainder of non-negative words are the natural-number ones -/

/-- A word whose value is positive is not the zero word. -/
theorem ne_zero_of_toNat_pos (y : BitVec 32) (hy0 : 0 < y.toNat) : y ≠ 0 := by
  intro h
  have h0 : y.toNat = 0 := by rw [h]; rfl
  omega

/-- Below 2^31 the sign bit is clear. -/
theorem msb_false_of_lt (x : BitVec 32) (hx : x.toNat < 2 ^ 31) : x.msb = false := by
  rw [BitVec.msb_eq_false_iff_two_mul_lt]; omega

/-- Neither a zero divisor nor the most negative dividend: the division is the ordinary one. -/
theorem not_corner (x y : BitVec 32) (hx : x.toNat < 2 ^ 31) (hy0 : 0 < y.toNat) : ¬ IntOp.SDivCorner x y := by
  rintro (h | ⟨h, _⟩)
  · exact ne_zero_of_toNat_pos y hy0 h
  · have := congrArg BitVec.toNat h
    rw [BitVec.toNat_intMin] at this; omega

/-- Signed division of two non-negative words, the divisor positive, is Nat division. -/
theorem divsi_host_nonneg (x y : BitVec 32) (hx : x.toNat < 2 ^ 31) (hy0 : 0 < y.toNat) (hy : y.toNat < 2 ^ 31) :
    IntOp.divsi .host x y = BitVec.ofNat 32 (x.toNat / y.toNat) := by
  unfold IntOp.divsi
  rw [if_neg (not_corner x y hx hy0), BitVec.sdiv_eq, msb_false_of_lt x hx, msb_false_of_lt y hy]
  apply BitVec.eq_of_toNat_eq
  simp only [BitVec.udiv_eq, BitVec.toNat_udiv, BitVec.toNat_ofNat]
  have := Nat.div_le_self x.toNat y.toNat
  rw [Nat.mod_eq_of_lt (by omega)]

/-- Signed remainder of two non-negative words, the divisor positive, is the Nat remainder. -/
theorem remsi_host_nonneg (x y : BitVec 32) (hx : x.toNat < 2 ^ 31) (hy0 : 0 < y.toNat) (hy : y.toNat < 2 ^ 31) :
    IntOp.remsi .host x y = BitVec.ofNat 32 (x.toNat % y.toNat) := by
  unfold IntOp.remsi
  rw [if_neg (not_corner x y hx hy0), BitVec.srem_eq, msb_false_of_lt x hx, msb_false_of_lt y hy]
  apply BitVec.eq_of_toNat_eq
  simp only [BitVec.umod_eq, BitVec.toNat_umod, BitVec.toNat_ofNat]
  have := Nat.mod_lt x.toNat hy0
  exact (Nat.mod_eq_of_lt (by omega)).symm

/-- The value of a word given by a number below 2^32. -/
theorem toNat_ofNat_of_lt (m : Nat) (h : m < 2 ^ 32) : (BitVec.ofNat 32 m).toNat = m := by
  rw [BitVec.toNat_ofNat]; exact Nat.mod_eq_of_lt h

/-- jnp.floor_divide on one word: a non-negative dividend and a positive divisor need no correction. -/
theorem floorDiv_word (x d : BitVec 32) (hx : x.toNat < 2 ^ 31) (hd0 : 0 < d.toNat) (hd : d.toNat < 2 ^ 31) :
    (if IntOp.andi
          (IntOp.cmpi CmpIPredicate.ne (if x = 0 then (0 : BitVec 32) else if x.msb = true then -1 else 1)
            (if d = 0 then (0 : BitVec 32) else if d.msb = true then -1 else 1))
          (IntOp.cmpi CmpIPredicate.ne (IntOp.remsi ArithUnit.host x d) 0#32) = 1
      then IntOp.subi (IntOp.divsi ArithUnit.host x d) 1#32
      else IntOp.divsi ArithUnit.host x d) = BitVec.ofNat 32 (x.toNat / d.toNat) := by
  have hdne : d ≠ 0 := ne_zero_of_toNat_pos d hd0
  rw [if_neg, divsi_host_nonneg x d hx hd0 hd]
  by_cases hx0 : x = 0
  · have hr : IntOp.remsi ArithUnit.host x d = 0#32 := by
      rw [remsi_host_nonneg x d hx hd0 hd, hx0]
      have : (0 : BitVec 32).toNat = 0 := rfl
      rw [this, Nat.zero_mod]
    rw [hr]
    simp [IntOp.andi, IntOp.cmpi]
  · rw [if_neg hx0, if_neg hdne, msb_false_of_lt x hx, msb_false_of_lt d hd]
    simp [IntOp.andi, IntOp.cmpi]

/-! ### The operations of the reference read at one position -/

/-- The float zero splat is the extended real 0 at every index. -/
theorem zerosNN_apply (i : S1024x1024.Idx) : (Term.zerosNN : FVec Ideal S1024x1024 .f32) i = 0 := by
  show Ideal.ofBits .f32 0x00000000#32 = 0
  exact Ideal.ofBits_zero_f32

/-- The nonzero mask at an index, as a decided proposition. -/
theorem nz_eq (adj : FVec Ideal S1024x1024 .f32) (i : S1024x1024.Idx) :
    Term.nz adj i = BitVec.ofBool (decide (adj i ≠ 0)) := by
  show FloatOps.cmpf .une (adj i) (Term.zerosNN i) = _
  rw [Ideal.cmpf_def, zerosNN_apply]; rfl

/-- jnp.floor_divide by a constant word read at a position. -/
theorem floorDiv_apply (v : IVec S1048576 32) (d : BitVec 32) (n : S1048576.Idx) (hv : (v n).toNat < 2 ^ 31)
    (hd0 : 0 < d.toNat) (hd : d.toNat < 2 ^ 31) :
    Term.floorDiv v (constantI S_ 32 d) n = BitVec.ofNat 32 ((v n).toNat / d.toNat) := by
  unfold Term.floorDiv Term.splatS Term.splat
  simp only [select, Scalar.select, andi, cmpi, signi, subi, Host.divsi, Host.remsi, broadcastInDim, constantI]
  exact floorDiv_word (v n) d hv hd0 hd

/-- A positive divisor is not replaced by 1. -/
theorem safe_word (d : BitVec 32) (hd0 : 0 < d.toNat) :
    (if IntOp.cmpi CmpIPredicate.eq d 0#32 = 1 then 1#32 else d) = d := by
  rw [if_neg]
  have hne : d ≠ 0#32 := ne_zero_of_toNat_pos d hd0
  have hb : (d == 0#32) = false := by simpa using hne
  unfold IntOp.cmpi
  simp only [hb]
  decide

/-- A word with a clear sign bit is not below zero. -/
theorem slt_zero_word (x : BitVec 32) (hx : x.msb = false) : IntOp.cmpi CmpIPredicate.slt x 0#32 = 0#1 := by
  show BitVec.ofBool (x.slt 0#32) = 0#1
  rw [BitVec.slt_zero_eq_msb, hx]; rfl

/-- jnp.remainder on one word: a non-negative dividend and a positive divisor need no correction. -/
theorem remainder_word (x d : BitVec 32) (hx : x.toNat < 2 ^ 31) (hd0 : 0 < d.toNat) (hd : d.toNat < 2 ^ 31) :
    (if IntOp.andi
          (IntOp.cmpi CmpIPredicate.ne
            (IntOp.cmpi CmpIPredicate.slt
              (IntOp.remsi ArithUnit.host x (if IntOp.cmpi CmpIPredicate.eq d 0#32 = 1 then 1#32 else d)) 0#32)
            (IntOp.cmpi CmpIPredicate.slt (if IntOp.cmpi CmpIPredicate.eq d 0#32 = 1 then 1#32 else d) 0#32))
          (IntOp.cmpi CmpIPredicate.ne
            (IntOp.remsi ArithUnit.host x (if IntOp.cmpi CmpIPredicate.eq d 0#32 = 1 then 1#32 else d)) 0#32) = 1
      then IntOp.addi (IntOp.remsi ArithUnit.host x (if IntOp.cmpi CmpIPredicate.eq d 0#32 = 1 then 1#32 else d))
        (if IntOp.cmpi CmpIPredicate.eq d 0#32 = 1 then 1#32 else d)
      else IntOp.remsi ArithUnit.host x (if IntOp.cmpi CmpIPredicate.eq d 0#32 = 1 then 1#32 else d))
      = BitVec.ofNat 32 (x.toNat % d.toNat) := by
  rw [safe_word d hd0, remsi_host_nonneg x d hx hd0 hd]
  have hlt : x.toNat % d.toNat < 2 ^ 31 := by
    have := Nat.mod_lt x.toNat hd0; omega
  have hm : (BitVec.ofNat 32 (x.toNat % d.toNat)).msb = false :=
    msb_false_of_lt _ (by rw [toNat_ofNat_of_lt _ (by omega)]; exact hlt)
  rw [slt_zero_word _ hm, slt_zero_word d (msb_false_of_lt d hd), if_neg]
  simp [IntOp.andi, IntOp.cmpi]

/-- jnp.remainder by a constant word read at a position. -/
theorem remainder_apply (v : IVec S1048576 32) (d : BitVec 32) (n : S1048576.Idx) (hv : (v n).toNat < 2 ^ 31)
    (hd0 : 0 < d.toNat) (hd : d.toNat < 2 ^ 31) :
    Term.remainder v (constantI S_ 32 d) n = BitVec.ofNat 32 ((v n).toNat % d.toNat) := by
  unfold Term.remainder Term.safeDiv Term.splatS Term.splat
  simp only [select, Scalar.select, andi, cmpi, addi, Host.remsi, broadcastInDim, constantI]
  exact remainder_word (v n) d hv hd0 hd

/-- The count as a word: the number of indices of adj's shape where the mask is set. -/
theorem count_eq (adj : FVec Ideal S1024x1024 .f32) :
    Term.count adj ix0
      = BitVec.ofNat 32 (Finset.univ.filter fun i : S1024x1024.Idx => Term.nz adj i = 1#1).card := by
  unfold Term.count
  rw [Host.reduce_eq_fold]
  have hall : (Finset.univ.filter fun i : S1024x1024.Idx => Facts₀.reducesTo_S1024x1024_S_d0_1.drop i = ix0) = Finset.univ := by
    apply Finset.filter_true_of_mem
    intro i _
    exact funext fun a => a.elim0
  rw [hall]
  exact IndicatorCount.fold_addi_setWidth_eq_card (Term.nz adj) Finset.univ

/-- Whether an entry of adj is nonzero, as the program's comparison says it. -/
theorem nz_apply (adj : FVec Ideal S1024x1024 .f32) (i j : Fin 1024) :
    Term.nz adj (ix2 i j) = 1#1 ↔ adj (ix2 i j) ≠ 0 := by
  rw [nz_eq]
  by_cases h : adj (ix2 i j) ≠ 0
  · simp [h]
  · simp [h]

theorem nz_cases (adj : FVec Ideal S1024x1024 .f32) (i : S1024x1024.Idx) : Term.nz adj i = 1#1 ∨ Term.nz adj i = 0#1 := by
  exact (BitVec.eq_zero_or_eq_one (Term.nz adj i)).symm

theorem rowOf_toNat (v : IVec S1048576 32) (n : S1048576.Idx) (hv : (v n).toNat ≤ 1048576) :
    (Term.remainder (Term.floorDiv v (constantI S_ 32 1024#32)) (constantI S_ 32 1024#32) n).toNat = (v n).toNat / 1024 % 1024 := by
  have h1024 : (1024#32 : BitVec 32).toNat = 1024 := rfl
  have hq : Term.floorDiv v (constantI S_ 32 1024#32) n = BitVec.ofNat 32 ((v n).toNat / 1024) := by
    rw [floorDiv_apply v 1024#32 n (by omega) (by rw [h1024]; omega) (by rw [h1024]; omega), h1024]
  have hqn : (Term.floorDiv v (constantI S_ 32 1024#32) n).toNat = (v n).toNat / 1024 := by
    rw [hq, toNat_ofNat_of_lt _ (by omega)]
  rw [remainder_apply _ 1024#32 n (by rw [hqn]; omega) (by rw [h1024]; omega) (by rw [h1024]; omega), hqn, h1024,
    toNat_ofNat_of_lt _ (by omega)]

theorem colOf_toNat (v : IVec S1048576 32) (n : S1048576.Idx) (hv : (v n).toNat ≤ 1048576) :
    (Term.remainder (Term.floorDiv v (constantI S_ 32 1#32)) (constantI S_ 32 1024#32) n).toNat = (v n).toNat % 1024 := by
  have h1024 : (1024#32 : BitVec 32).toNat = 1024 := rfl
  have h1 : (1#32 : BitVec 32).toNat = 1 := rfl
  have hqn : (Term.floorDiv v (constantI S_ 32 1#32) n).toNat = (v n).toNat := by
    rw [floorDiv_apply v 1#32 n (by omega) (by rw [h1]; omega) (by rw [h1]; omega), h1, Nat.div_one,
      toNat_ofNat_of_lt _ (by omega)]
  rw [remainder_apply _ 1024#32 n (by rw [hqn]; omega) (by rw [h1024]; omega) (by rw [h1024]; omega), hqn, h1024,
    toNat_ofNat_of_lt _ (by omega)]

/-- A word below 2^31 is not negative: the wrap leaves it. -/
theorem wrap_of_lt (len : BitVec 32) (v : IVec S1048576 32) (n : S1048576.Idx) (h : (v n).toNat < 2 ^ 31) :
    Term.wrap len v n = v n := by
  unfold Term.wrap Term.splat
  simp only [select, Scalar.select, andi, cmpi, addi, broadcastInDim, constantI]
  have hc : ¬ (IntOp.cmpi CmpIPredicate.slt (v n) 0#32 = 1) := by
    rw [slt_zero_word _ (msb_false_of_lt _ h)]; decide
  exact if_neg hc

theorem iota_toNat (k : Fin 1048576) : (Term.iota (ix1 k)).toNat = k.val := by
  show (BitVec.ofNat 32 k.val).toNat = k.val
  have := k.isLt
  exact toNat_ofNat_of_lt _ (by omega)

/-- The position of entry (i, j) in row-major order. -/
def flatPos (i j : Fin 1024) : Fin 1048576 := ⟨1024 * i.val + j.val, by omega⟩

/-- The row-major flattening of the nonzero mask. -/
theorem nz_flat (adj : FVec Ideal S1024x1024 .f32) (i j : Fin 1024) :
    shapeCast S1048576 (Term.nz adj) Facts₀.shapeCasts_S1024x1024_S1048576 (ix1 (flatPos i j)) = Term.nz adj (ix2 i j) := by
  apply shapeCast_apply
  rw [Shape.rowMajor_val_two, Shape.rowMajor_val_one]
  show i.val * 1024 + j.val = 1024 * i.val + j.val
  omega

/-- jnp.count_nonzero: the number of nonzero entries. -/
theorem count_toNat (adj : FVec Ideal S1024x1024 .f32) :
    (Term.count adj ix0).toNat
      = (Finset.univ.filter fun k : Fin 1048576 => shapeCast S1048576 (Term.nz adj) Facts₀.shapeCasts_S1024x1024_S1048576 (ix1 k) = 1#1).card := by
  rw [count_eq]
  have hcard : (Finset.univ.filter fun i : S1024x1024.Idx => Term.nz adj i = 1#1).card
      = (Finset.univ.filter fun k : Fin 1048576 => shapeCast S1048576 (Term.nz adj) Facts₀.shapeCasts_S1024x1024_S1048576 (ix1 k) = 1#1).card := by
    symm
    refine Finset.card_equiv ((idxEquiv1 (n := 1048576)).symm.trans (Shape.reshapeEquiv Facts₀.shapeCasts_S1024x1024_S1048576)) ?_
    intro k
    simp only [Finset.mem_filter, Finset.mem_univ, true_and]
    exact Iff.rfl
  rw [hcard]
  apply toNat_ofNat_of_lt
  have hle := Finset.card_filter_le (Finset.univ : Finset (Fin 1048576))
    (fun k => shapeCast S1048576 (Term.nz adj) Facts₀.shapeCasts_S1024x1024_S1048576 (ix1 k) = 1#1)
  rw [Finset.card_univ, Fintype.card_fin] at hle
  omega

end Cert.ReferenceIdeal.Read

end
-- ==== Proof.RefInt.lean ====
/-
  What jnp.nonzero's integer pipeline delivers, as two facts about the edge list: every listed slot names a nonzero
  entry of adj by its row and column, and every nonzero entry is named by exactly one listed slot. (The running count
  of the mask, its histogram and the histogram's running sum put the position of the k-th nonzero entry in slot k.)
-/
import proofs.«123027_g70274254897801_cont_sun_c4_842_6_alg».proof.Proof.RefTerm
import proofs.«123027_g70274254897801_cont_sun_c4_842_6_alg».proof.Proof.Gen.ReferenceIdeal
import proofs.«123027_g70274254897801_cont_sun_c4_842_6_alg».proof.Proof.Spec
import proofs.«123027_g70274254897801_cont_sun_c4_842_6_alg».proof.Proof.Nonzero
import proofs.«123027_g70274254897801_cont_sun_c4_842_6_alg».proof.Proof.RefCumsum
import proofs.«123027_g70274254897801_cont_sun_c4_842_6_alg».proof.Proof.RefHist
import proofs.«123027_g70274254897801_cont_sun_c4_842_6_alg».proof.Proof.RefDivMod

noncomputable section

namespace Cert.ReferenceIdeal.Read

open Idealize.ShloMosaic Idealize.ShloMosaic.ValueIdx Cert.ReferenceIdeal
open scoped BigOperators

/-! ## Counting by fibres

For f : Fin N → ℕ and b < N, the fibres of f over the values b' ≤ b partition the positions with f k ≤ b, so the
fibres' sizes add up to the number of such positions. -/

theorem sum_card_fiber_le {N : ℕ} (f : Fin N → ℕ) (b : ℕ) (hb : b < N) :
    (∑ b' : Fin N, if b'.val ≤ b then (Finset.univ.filter fun k : Fin N => f k = b'.val).card else 0)
      = (Finset.univ.filter fun k : Fin N => f k ≤ b).card := by
  simp only [Finset.card_filter]
  have e : ∀ b' : Fin N, (if b'.val ≤ b then ∑ k : Fin N, (if f k = b'.val then 1 else 0) else 0)
      = ∑ k : Fin N, if (b'.val ≤ b ∧ f k = b'.val) then 1 else 0 := by
    intro b'
    by_cases h : b'.val ≤ b
    · rw [if_pos h]; exact Finset.sum_congr rfl fun k _ => by simp [h]
    · rw [if_neg h]; exact (Finset.sum_eq_zero fun k _ => by simp [h]).symm
  rw [Finset.sum_congr rfl fun b' _ => e b', Finset.sum_comm]
  refine Finset.sum_congr rfl fun k _ => ?_
  by_cases h : f k ≤ b
  · rw [if_pos h]
    have hlt : f k < N := lt_of_le_of_lt h hb
    rw [Finset.sum_eq_single (⟨f k, hlt⟩ : Fin N)]
    · rw [if_pos ⟨h, rfl⟩]
    · intro b' _ hne
      rw [if_neg]
      rintro ⟨_, h2⟩
      exact hne (Fin.ext h2.symm)
    · intro hx; exact absurd (Finset.mem_univ _) hx
  · rw [if_neg h]
    refine Finset.sum_eq_zero fun b' _ => ?_
    rw [if_neg]
    rintro ⟨h1, h2⟩
    exact h (h2 ▸ h1)

/-- All the fibres together hold at most every position. -/
theorem sum_card_fiber_le_card {N : ℕ} (f : Fin N → ℕ) :
    (∑ b' : Fin N, (Finset.univ.filter fun k : Fin N => f k = b'.val).card) ≤ N := by
  rcases Nat.eq_zero_or_pos N with h0 | hN
  · subst h0; simp
  · have h := sum_card_fiber_le f (N - 1) (by omega)
    have e : (∑ b' : Fin N, (Finset.univ.filter fun k : Fin N => f k = b'.val).card)
        = ∑ b' : Fin N, if b'.val ≤ N - 1 then (Finset.univ.filter fun k : Fin N => f k = b'.val).card else 0 :=
      Finset.sum_congr rfl fun b' _ => by rw [if_pos (by have := b'.isLt; omega)]
    rw [e, h]
    calc _ ≤ (Finset.univ : Finset (Fin N)).card := Finset.card_filter_le _ _
      _ = N := by rw [Finset.card_univ, Fintype.card_fin]

/-! ## The mask and its running count -/

/-- The nonzero mask of adj in row-major order. -/
def mask (adj : FVec Ideal S1024x1024 .f32) (k : Fin 1048576) : Bool :=
  decide (shapeCast S1048576 (Term.nz adj) Facts₀.shapeCasts_S1024x1024_S1048576 (ix1 k) = 1#1)

theorem mask_iff (adj : FVec Ideal S1024x1024 .f32) (k : Fin 1048576) :
    mask adj k = true ↔ shapeCast S1048576 (Term.nz adj) Facts₀.shapeCasts_S1024x1024_S1048576 (ix1 k) = 1#1 := by
  unfold mask; exact decide_eq_true_iff

/-- A bit widened to a word is 1 where the bit is set and 0 elsewhere. -/
theorem bit_toNat (b : BitVec 1) : (b.setWidth 32).toNat = if decide (b = 1#1) = true then 1 else 0 := by
  rcases BitVec.eq_zero_or_eq_one b with rfl | rfl <;> rfl

/-- The mask as 32-bit words: 1 at a nonzero entry, 0 elsewhere. -/
theorem ext_toNat (adj : FVec Ideal S1024x1024 .f32) (k : Fin 1048576) :
    (extui 32 (shapeCast S1048576 (Term.nz adj) Facts₀.shapeCasts_S1024x1024_S1048576) Facts₀.natLt_1_32 (ix1 k)).toNat
      = if mask adj k = true then 1 else 0 := by
  rw [extui_apply]; exact bit_toNat _

/-- The mask's words add up to at most the number of positions. -/
theorem ext_sum_lt (adj : FVec Ideal S1024x1024 .f32) :
    (∑ k' : Fin 1048576,
      (extui 32 (shapeCast S1048576 (Term.nz adj) Facts₀.shapeCasts_S1024x1024_S1048576) Facts₀.natLt_1_32 (ix1 k')).toNat)
      < 2 ^ 32 := by
  have h : (∑ k' : Fin 1048576,
      (extui 32 (shapeCast S1048576 (Term.nz adj) Facts₀.shapeCasts_S1024x1024_S1048576) Facts₀.natLt_1_32 (ix1 k')).toNat)
      ≤ ∑ k' : Fin 1048576, 1 :=
    Finset.sum_le_sum fun k' _ => by rw [ext_toNat]; split <;> omega
  rw [Finset.sum_const, Finset.card_univ, Fintype.card_fin, smul_eq_mul, mul_one] at h
  omega

/-- The running count of the mask's words is the running count of set positions. -/
theorem running_eq_cnt (adj : FVec Ideal S1024x1024 .f32) (k : Fin 1048576) :
    (Term.running adj (ix1 k)).toNat = Nonzero.cnt (mask adj) k := by
  unfold Term.running
  rw [cumsum_toNat _ (ext_sum_lt adj) k]
  unfold Nonzero.cnt
  rw [Finset.card_filter]
  refine Finset.sum_congr rfl fun k' _ => ?_
  rw [ext_toNat]
  by_cases h1 : k'.val ≤ k.val <;> by_cases h2 : mask adj k' = true <;> simp [h1, h2]

theorem running_le (adj : FVec Ideal S1024x1024 .f32) (k : Fin 1048576) :
    (Term.running adj (ix1 k)).toNat ≤ 1048576 := by
  rw [running_eq_cnt]
  exact (Nonzero.cnt_le_total _ k).trans (Nonzero.total_le _)

/-! ## The histogram and its running sum -/

/-- Bin b holds the number of positions whose running count is b. -/
theorem hist_eq (adj : FVec Ideal S1024x1024 .f32) (b : Fin 1048576) :
    (Term.hist adj (ix1 b)).toNat
      = (Finset.univ.filter fun k : Fin 1048576 => Nonzero.cnt (mask adj) k = b.val).card := by
  rw [hist_toNat adj (running_le adj) b]
  simp only [running_eq_cnt]

theorem hist_sum_lt (adj : FVec Ideal S1024x1024 .f32) :
    (∑ b' : Fin 1048576, (Term.hist adj (ix1 b')).toNat) < 2 ^ 32 := by
  simp only [hist_eq]
  have := sum_card_fiber_le_card (Nonzero.cnt (mask adj))
  omega

/-- Slot b of the histogram's running sum holds the number of positions whose running count is at most b. -/
theorem flat_eq_pos (adj : FVec Ideal S1024x1024 .f32) (b : Fin 1048576) :
    (Term.flat adj (ix1 b)).toNat = Nonzero.pos (mask adj) b.val := by
  unfold Term.flat
  rw [cumsum_toNat _ (hist_sum_lt adj) b]
  simp only [hist_eq]
  exact sum_card_fiber_le (Nonzero.cnt (mask adj)) b.val b.isLt

theorem flat_le (adj : FVec Ideal S1024x1024 .f32) (b : Fin 1048576) :
    (Term.flat adj (ix1 b)).toNat ≤ 1048576 := by
  rw [flat_eq_pos]; exact Nonzero.pos_le _ _

/-! ## The count, and which slots are listed -/

theorem count_eq_total (adj : FVec Ideal S1024x1024 .f32) :
    (Term.count adj ix0).toNat = Nonzero.total (mask adj) := by
  rw [count_toNat]
  unfold Nonzero.total
  simp only [mask_iff]

/-- A scalar splat reads the scalar everywhere. -/
theorem splatS_apply (d : IVec S_ 32) (n : S1048576.Idx) : Term.splatS d n = d ix0 := by
  unfold Term.splatS broadcastInDim
  exact congrArg d (funext fun a => a.elim0)

/-- A word below 2^31 read signed is itself. -/
theorem toInt_of_lt (x : BitVec 32) (h : x.toNat < 2 ^ 31) : x.toInt = (x.toNat : ℤ) := by
  rw [BitVec.toInt_eq_toNat_cond, if_pos (by omega)]

theorem count_lt (adj : FVec Ideal S1024x1024 .f32) : (Term.count adj ix0).toNat < 2 ^ 31 := by
  rw [count_eq_total]
  have := Nonzero.total_le (mask adj)
  omega

theorem iota_lt (n : Fin 1048576) : (Term.iota (ix1 n)).toNat < 2 ^ 31 := by
  rw [iota_toNat]; have := n.isLt; omega

/-- A slot is listed exactly when it lies below the number of nonzero entries. -/
theorem valid_iff (adj : FVec Ideal S1024x1024 .f32) (n : Fin 1048576) :
    Term.valid adj (ix1 n) = 1#1 ↔ n.val < Nonzero.total (mask adj) := by
  show IntOp.cmpi .slt (Term.iota (ix1 n)) (Term.splatS (Term.count adj) (ix1 n)) = 1#1 ↔ _
  rw [IntOp.cmpi_slt, splatS_apply, toInt_of_lt _ (iota_lt n), toInt_of_lt _ (count_lt adj), iota_toNat, count_eq_total]
  exact Nat.cast_lt

/-- A slot is past the end exactly when it lies at or above the number of nonzero entries. -/
theorem pastEnd_iff (adj : FVec Ideal S1024x1024 .f32) (n : Fin 1048576) :
    Term.pastEnd adj (ix1 n) = 1#1 ↔ Nonzero.total (mask adj) ≤ n.val := by
  show IntOp.cmpi .sge (Term.iota (ix1 n)) (Term.splatS (Term.count adj) (ix1 n)) = 1#1 ↔ _
  rw [IntOp.cmpi_sge, splatS_apply, toInt_of_lt _ (iota_lt n), toInt_of_lt _ (count_lt adj), iota_toNat, count_eq_total]
  exact Nat.cast_le

/-! ## Row and column of a slot -/

theorem pastEnd_zero (adj : FVec Ideal S1024x1024 .f32) (n : Fin 1048576) (hn : n.val < Nonzero.total (mask adj)) :
    Term.pastEnd adj (ix1 n) = 0#1 :=
  eq_zero_of_ne_one fun h => by have := (pastEnd_iff adj n).1 h; omega

/-- A listed slot's row is that of the position it holds. -/
theorem src_of_valid (adj : FVec Ideal S1024x1024 .f32) (n : Fin 1048576) (hn : n.val < Nonzero.total (mask adj)) :
    (Term.src adj (ix1 n)).toNat = Nonzero.pos (mask adj) n.val / 1024 % 1024 := by
  unfold Term.src
  rw [select_apply, pastEnd_zero adj n hn, select_zero, rowOf_toNat _ _ (flat_le adj n), flat_eq_pos]

/-- A listed slot's column is that of the position it holds. -/
theorem dst_of_valid (adj : FVec Ideal S1024x1024 .f32) (n : Fin 1048576) (hn : n.val < Nonzero.total (mask adj)) :
    (Term.dst adj (ix1 n)).toNat = Nonzero.pos (mask adj) n.val % 1024 := by
  unfold Term.dst
  rw [select_apply, pastEnd_zero adj n hn, select_zero, colOf_toNat _ _ (flat_le adj n), flat_eq_pos]

/-- A slot past the end holds row 0. -/
theorem src_of_pastEnd (adj : FVec Ideal S1024x1024 .f32) (n : Fin 1048576) (hn : Nonzero.total (mask adj) ≤ n.val) :
    (Term.src adj (ix1 n)).toNat = 0 := by
  unfold Term.src
  rw [select_apply, (pastEnd_iff adj n).2 hn, select_one, splatS_apply]
  rfl

/-- A slot past the end holds column 0. -/
theorem dst_of_pastEnd (adj : FVec Ideal S1024x1024 .f32) (n : Fin 1048576) (hn : Nonzero.total (mask adj) ≤ n.val) :
    (Term.dst adj (ix1 n)).toNat = 0 := by
  unfold Term.dst
  rw [select_apply, (pastEnd_iff adj n).2 hn, select_one, splatS_apply]
  rfl

/-! ## The two facts about the edge list -/

/-- A position below 1024·1024 is the row-major position of its quotient and remainder by 1024. -/
theorem flatPos_divmod (p : ℕ) (hp : p < 1048576) :
    flatPos ⟨p / 1024, by omega⟩ ⟨p % 1024, by omega⟩ = ⟨p, hp⟩ := by
  apply Fin.ext
  show 1024 * (p / 1024) + p % 1024 = p
  omega

/-- The mask at the row-major position of (i, j) says whether adj i j is nonzero. -/
theorem mask_flatPos (adj : FVec Ideal S1024x1024 .f32) (i j : Fin 1024) :
    mask adj (flatPos i j) = true ↔ adj (ix2 i j) ≠ 0 := by
  rw [mask_iff, nz_flat, nz_apply]

/-- A listed slot names a nonzero entry. -/
theorem valid_src_dst (adj : FVec Ideal S1024x1024 .f32) (n : Fin 1048576) (hn : Term.valid adj (ix1 n) = 1#1) :
    ∃ i j : Fin 1024, (Term.src adj (ix1 n)).toNat = i.val ∧ (Term.dst adj (ix1 n)).toNat = j.val ∧ adj (ix2 i j) ≠ 0 := by
  have hlt : n.val < Nonzero.total (mask adj) := (valid_iff adj n).1 hn
  have hp : Nonzero.pos (mask adj) n.val < 1048576 := Nonzero.pos_lt _ hlt
  have hm : mask adj ⟨Nonzero.pos (mask adj) n.val, hp⟩ = true := Nonzero.mask_pos _ hlt
  have hs := src_of_valid adj n hlt
  have hd := dst_of_valid adj n hlt
  obtain ⟨p, hpe⟩ : ∃ p, p = Nonzero.pos (mask adj) n.val := ⟨_, rfl⟩
  simp only [← hpe] at hp hm hs hd
  refine ⟨⟨p / 1024, by omega⟩, ⟨p % 1024, by omega⟩, ?_, ?_, ?_⟩
  · rw [hs]; show p / 1024 % 1024 = p / 1024; omega
  · rw [hd]
  · rw [← mask_flatPos, flatPos_divmod p hp]; exact hm

/-- Every nonzero entry has exactly one listed slot. -/
theorem exists_unique_slot (adj : FVec Ideal S1024x1024 .f32) (i j : Fin 1024) (h : adj (ix2 i j) ≠ 0) :
    ∃! n : Fin 1048576, Term.valid adj (ix1 n) = 1#1 ∧ (Term.src adj (ix1 n)).toNat = i.val ∧ (Term.dst adj (ix1 n)).toNat = j.val := by
  have hk : mask adj (flatPos i j) = true := (mask_flatPos adj i j).2 h
  have hc : Nonzero.cnt (mask adj) (flatPos i j) - 1 < Nonzero.total (mask adj) := Nonzero.cnt_sub_one_lt _ hk
  have hN := Nonzero.total_le (mask adj)
  have hpc : Nonzero.pos (mask adj) (Nonzero.cnt (mask adj) (flatPos i j) - 1) = (flatPos i j).val := Nonzero.pos_cnt _ hk
  have hfp : (flatPos i j).val = 1024 * i.val + j.val := rfl
  have hi := i.isLt
  have hj := j.isLt
  obtain ⟨c, hce⟩ : ∃ c, c = Nonzero.cnt (mask adj) (flatPos i j) - 1 := ⟨_, rfl⟩
  rw [← hce] at hc hpc
  rw [hfp] at hpc
  have hcN : c < 1048576 := by omega
  have hs := src_of_valid adj ⟨c, hcN⟩ hc
  have hd := dst_of_valid adj ⟨c, hcN⟩ hc
  simp only [hpc] at hs hd
  refine ⟨⟨c, hcN⟩, ⟨(valid_iff adj _).2 hc, ?_, ?_⟩, ?_⟩
  · rw [hs]; omega
  · rw [hd]; omega
  · rintro n' ⟨hv, hs', hd'⟩
    have hlt' := (valid_iff adj n').1 hv
    rw [src_of_valid adj n' hlt'] at hs'
    rw [dst_of_valid adj n' hlt'] at hd'
    have hp' := Nonzero.pos_lt (mask adj) hlt'
    have e : Nonzero.pos (mask adj) n'.val = Nonzero.pos (mask adj) c := by rw [hpc]; omega
    exact Fin.ext (Nonzero.pos_injOn _ hlt' hc e)

/-- A slot's validity is a bit. -/
theorem valid_cases (adj : FVec Ideal S1024x1024 .f32) (n : S1048576.Idx) : Term.valid adj n = 1#1 ∨ Term.valid adj n = 0#1 := by
  rcases BitVec.eq_zero_or_eq_one (Term.valid adj n) with h | h
  · exact Or.inr h
  · exact Or.inl h

/-- Every slot's row and column index lie in the table (slots past the end hold 0). -/
theorem src_lt (adj : FVec Ideal S1024x1024 .f32) (n : S1048576.Idx) : (Term.src adj n).toNat < 1024 := by
  obtain ⟨k, rfl⟩ : ∃ k : Fin 1048576, n = ix1 k := ⟨n 0, eq_ix1 n⟩
  by_cases h : k.val < Nonzero.total (mask adj)
  · rw [src_of_valid adj k h]; omega
  · rw [src_of_pastEnd adj k (by omega)]; omega
theorem dst_lt (adj : FVec Ideal S1024x1024 .f32) (n : S1048576.Idx) : (Term.dst adj n).toNat < 1024 := by
  obtain ⟨k, rfl⟩ : ∃ k : Fin 1048576, n = ix1 k := ⟨n 0, eq_ix1 n⟩
  by_cases h : k.val < Nonzero.total (mask adj)
  · rw [dst_of_valid adj k h]; omega
  · rw [dst_of_pastEnd adj k (by omega)]; omega

end Cert.ReferenceIdeal.Read

end
-- ==== Proof.RefEdge.lean ====
/-
  The reference's logits read at a pair (i, j). The listed slots' scores, scattered to their (row, column), put at
  every nonzero entry of adj exactly its own score leaky(f i + g j) — one listed slot lands there, the slots past the
  end add zero — so where adj > 0 the logit is the pair's score, and elsewhere both sides hold the fill.
-/
import proofs.«123027_g70274254897801_cont_sun_c4_842_6_alg».proof.Proof.RefTerm
import proofs.«123027_g70274254897801_cont_sun_c4_842_6_alg».proof.Proof.Gen.ReferenceIdeal
import proofs.«123027_g70274254897801_cont_sun_c4_842_6_alg».proof.Proof.Spec
import proofs.«123027_g70274254897801_cont_sun_c4_842_6_alg».proof.Proof.RefInt
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import Idealize.ShloMosaic.Lib.Affine
import Mathlib.Algebra.BigOperators.Fin

noncomputable section

namespace Cert.ReferenceIdeal.Read

open Idealize.ShloMosaic Idealize.ShloMosaic.ValueIdx Cert.ReferenceIdeal
open scoped BigOperators

namespace Edge

/-- The product's dimension numbers are the plain matrix product's: rows by the contracted axis, times the contracted axis by columns. -/
theorem dot_rec1 : (dot_S1024x128_S128x64_S1024x64_1_0_0_1_n_n : DotDims S1024x128 S128x64 S1024x64) = DotDims.plain 1024 128 64 := rfl

/-- The host's x·W at an entry: the sum over the 128 input features. -/
theorem feat_h (x : FVec Ideal S1024x128 .f32) (W : FVec Ideal S128x64 .f32) (i : Fin 1024) (c : Fin 64) :
    Term.feat x W (ix2 i c) = Cert.Spec.h x W i c := by
  unfold Term.feat
  rw [dot_rec1, StackMember.dotGeneral_plain_apply]
  rfl

/-- A splat word read anywhere. -/
theorem splat_apply (v : BitVec 32) (k : S1048576.Idx) : Term.splat v k = v := rfl

/-- jnp's index normalisation leaves a word below 2^31: it is not negative. -/
theorem wrap_apply_of_lt (n : BitVec 32) (v : IVec S1048576 32) (k : S1048576.Idx) (h : (v k).toNat < 2 ^ 31) :
    Term.wrap n v k = v k := by
  have hc : ¬ IntOp.cmpi .slt (v k) 0#32 = 1#1 := by
    rw [IntOp.cmpi_slt, BitVec.toInt_eq_toNat_of_lt (by omega)]
    simp
  show Scalar.select (IntOp.cmpi .slt (v k) 0#32) (IntOp.addi (v k) n) (v k) = v k
  rw [eq_zero_of_ne_one hc, select_zero]

/-- The start indices are the wrapped row numbers. -/
theorem takeIdx_apply (idx : IVec S1048576 32) (n : Fin 1048576) (q : Fin 1) :
    Term.takeIdx idx (ix2 n q) = Term.wrap 1024#32 idx (ix1 n) := by
  unfold Term.takeIdx
  exact broadcastInDim_apply _ _ _ (ix2 n q) (ix1 n) (fun a => match a with | ⟨0, _⟩ => rfl)

/-- A left fold of `and` with one, from one, stays one. -/
theorem foldl_andi_one {β : Type} (l : List β) : l.foldl (fun (r : BitVec 1) _ => IntOp.andi r 1#1) 1#1 = 1#1 := by
  induction l with
  | nil => rfl
  | cons a l ih => exact ih

/-- An and-reduction of an array of ones from one is one. -/
theorem reduce_andi_const_one {s t u : Shape} {axes : List (Fin s.rank)} (init : u.Idx → BitVec 1) (h : s.ReducesTo axes t)
    (hu : 0 < u.numel) (hinit : init (Shape.Idx.first hu) = 1#1) (j : t.Idx) :
    Host.reduce IntOp.andi (fun _ : s.Idx => 1#1) init h hu j = 1#1 := by
  unfold Host.reduce
  rw [hinit]; exact foldl_andi_one _

/-- With every row number in the table, the in-range test is one everywhere. -/
theorem takeOk_apply (idx : IVec S1048576 32) (hidx : ∀ m, (idx m).toNat < 1024) (j : S1048576.Idx) :
    Term.takeOk idx j = 1#1 := by
  unfold Term.takeOk
  have e : (andi (cmpi .sge (Term.takeIdx idx) (broadcastInDim S1048576x1 ![] Facts₀.bcast_S_S1048576x1 (constantI S_ 32 0#32)))
          (cmpi .sle (Term.takeIdx idx) (broadcastInDim S1048576x1 ![0, 1] Facts₀.bcast_S1x1_S1048576x1_0_1
            (broadcastInDim S1x1 ![1] Facts₀.bcast_S1_S1x1_1 (constantI S1 32 1023#32)))) : IVec S1048576x1 1) = fun _ => 1#1 := by
    funext p
    obtain ⟨n, q, rfl⟩ : ∃ (n : Fin 1048576) (q : Fin 1), p = ix2 n q := ⟨p 0, p 1, eq_ix2 p⟩
    have hw := hidx (ix1 n)
    show IntOp.andi (IntOp.cmpi .sge (Term.takeIdx idx (ix2 n q)) 0#32) (IntOp.cmpi .sle (Term.takeIdx idx (ix2 n q)) 1023#32) = 1#1
    rw [takeIdx_apply, wrap_apply_of_lt _ _ _ (by omega)]
    have hi : (idx (ix1 n)).toInt = ((idx (ix1 n)).toNat : Int) := BitVec.toInt_eq_toNat_of_lt (by omega)
    refine IntOp.andi_eq_one.mpr ⟨IntOp.cmpi_sge.mpr ?_, IntOp.cmpi_sle.mpr ?_⟩
    · rw [hi]; simp
    · rw [hi]; simp; omega
  rw [e]
  exact reduce_andi_const_one _ _ _ rfl j

/-- The row gather at (n, c): row (start index n, read signed and clamped into the table), column c. -/
theorem gather_rows_apply {α : Type} (hf : S1024x64.Idx → α) (si : IVec S1048576x1 32) (n : Fin 1048576) (c : Fin 64)
    (h : (si (ix2 n 0)).toNat < 1024) :
    Host.gather gather_S1024x64_S1048576x1_S1048576x64_1_0_n_n_0_1_164 hf si (ix2 n c) = hf (ix2 ⟨(si (ix2 n 0)).toNat, h⟩ c) := by
  unfold Host.gather
  congr 1
  funext a
  refine Fin.ext ?_
  match a with
  | ⟨0, _⟩ =>
    show gather_S1024x64_S1048576x1_S1048576x64_1_0_n_n_0_1_164.start (ix2 n c) si 0
        + gather_S1024x64_S1048576x1_S1048576x64_1_0_n_n_0_1_164.batchCoord (ix2 n c) 0
        + gather_S1024x64_S1048576x1_S1048576x64_1_0_n_n_0_1_164.offCoord (ix2 n c) 0 = (si (ix2 n 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x64_S1048576x1_S1048576x64_1_0_n_n_0_1_164.startIndexMap from List.mem_singleton.mpr rfl)]
    have hsi : gather_S1024x64_S1048576x1_S1048576x64_1_0_n_n_0_1_164.siIdx (ix2 n c)
        ⟨List.idxOf (0 : Fin 2) gather_S1024x64_S1048576x1_S1048576x64_1_0_n_n_0_1_164.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    have hi : (si (ix2 n 0)).toInt = ((si (ix2 n 0)).toNat : Int) := BitVec.toInt_eq_toNat_of_lt (by omega)
    rw [hi, Int.toNat_natCast]
    show min (si (ix2 n 0)).toNat (1024 - 1) = _
    omega
  | ⟨1, _⟩ =>
    show gather_S1024x64_S1048576x1_S1048576x64_1_0_n_n_0_1_164.start (ix2 n c) si 1
        + gather_S1024x64_S1048576x1_S1048576x64_1_0_n_n_0_1_164.batchCoord (ix2 n c) 1
        + gather_S1024x64_S1048576x1_S1048576x64_1_0_n_n_0_1_164.offCoord (ix2 n c) 1 = c.val
    rw [GatherDims.batchCoord_eq_zero _ _ _ List.not_mem_nil]
    unfold GatherDims.start
    rw [dif_neg (show ¬ (1 : Fin 2) ∈ gather_S1024x64_S1048576x1_S1048576x64_1_0_n_n_0_1_164.startIndexMap by decide)]
    unfold GatherDims.offCoord
    rw [dif_pos ((GatherDims.mem_sKept _ _).mpr ⟨by decide, List.not_mem_nil⟩)]
    simp only [Nat.zero_add, Nat.add_zero]
    rfl

/-- jnp.take of a row that lies in the table reads that row. -/
theorem take_apply (hf : FVec Ideal S1024x64 .f32) (idx : IVec S1048576 32) (hidx : ∀ m, (idx m).toNat < 1024)
    (n : Fin 1048576) (c : Fin 64) :
    Term.take hf idx (ix2 n c) = hf (ix2 ⟨(idx (ix1 n)).toNat, hidx _⟩ c) := by
  have hw : Term.takeIdx idx (ix2 n 0) = idx (ix1 n) := by
    rw [takeIdx_apply, wrap_apply_of_lt _ _ _ (by have := hidx (ix1 n); omega)]
  have hok : broadcastInDim S1048576x64 ![0] Facts₀.bcast_S1048576_S1048576x64_0 (Term.takeOk idx) (ix2 n c) = 1#1 := by
    rw [broadcastInDim_apply _ _ _ (ix2 n c) (ix1 n) (fun a => match a with | ⟨0, _⟩ => rfl)]
    exact takeOk_apply idx hidx _
  unfold Term.take
  rw [select_apply, hok, select_one, gather_rows_apply _ _ n c (by rw [hw]; exact hidx _)]
  simp only [hw]

/-! ## The stages after the edge list, over an arbitrary list of rows, columns and listed-slot bits

The reference's edge stages read the edge list only through three arrays: the slots' rows, columns and the bit that says
a slot is listed. Stated over three arbitrary arrays, each stage is read at an index below. -/

/-- The scatter's index pairs for rows s and columns d. -/
def pairsOf (s d : IVec S1048576 32) : IVec S1048576x2 32 :=
  concatenate S1048576x2 1
    [⟨S1048576x1, broadcastInDim S1048576x1 ![0] Facts₀.bcast_S1048576_S1048576x1_0 (Term.wrap 1024#32 s)⟩,
     ⟨S1048576x1, broadcastInDim S1048576x1 ![0] Facts₀.bcast_S1048576_S1048576x1_0 (Term.wrap 1024#32 d)⟩]
    Facts₀.concatenates_S1048576x1_S1048576x1_S1048576x2_d1

/-- Both endpoints' features side by side, for rows s and columns d. -/
def edgeFeatOf (hf : FVec Ideal S1024x64 .f32) (s d : IVec S1048576 32) : FVec Ideal S1048576x128 .f32 :=
  concatenate S1048576x128 1 [⟨S1048576x64, Term.take hf s⟩, ⟨S1048576x64, Term.take hf d⟩]
    Facts₀.concatenates_S1048576x64_S1048576x64_S1048576x128_d1

/-- Each slot's score, zero where the bit v is clear. -/
def edgeScoreOf (hf : FVec Ideal S1024x64 .f32) (s d : IVec S1048576 32) (v : IVec S1048576 1) (a : FVec Ideal S128x1 .f32) :
    FVec Ideal S1048576 .f32 :=
  select v
    (shapeCast S1048576
      (Term.leakyCol (Host.dotGeneral dot_S1048576x128_S128x1_S1048576x1_1_0_0_1_n_n none (edgeFeatOf hf s d) a)
        (constant S_ .f32 0x3E4CCCCD#32))
      Facts₀.shapeCasts_S1048576x1_S1048576)
    (broadcastInDim S1048576 ![] Facts₀.bcast_S_S1048576 (constant S_ .f32 0x00000000#32))

/-- The scores scattered to a dense matrix of zeros. -/
def denseOf (hf : FVec Ideal S1024x64 .f32) (s d : IVec S1048576 32) (v : IVec S1048576 1) (a : FVec Ideal S128x1 .f32) :
    FVec Ideal S1024x1024 .f32 :=
  Host.scatterAdd scatter_S1024x1024_S1048576x2_S1048576_n_01_01_1 Term.zerosNN (pairsOf s d) (edgeScoreOf hf s d v a)

/-- The reference's dense scores are these stages at its own edge list. -/
theorem dense_eq (hf : FVec Ideal S1024x64 .f32) (adj : FVec Ideal S1024x1024 .f32) (a : FVec Ideal S128x1 .f32) :
    Term.dense hf adj a = denseOf hf (Term.src adj) (Term.dst adj) (Term.valid adj) a := rfl

/-- The first 64 columns of the endpoints' features are the source row's. -/
theorem edgeFeatOf_lo (hf : FVec Ideal S1024x64 .f32) (s d : IVec S1048576 32) (n : Fin 1048576) (c : Fin 64) :
    edgeFeatOf hf s d (ix2 n (Cert.Spec.lo c)) = Term.take hf s (ix2 n c) := by
  unfold edgeFeatOf
  exact concatenate_pair_apply_left (t := S1048576x128) (s₁ := S1048576x64) (s₂ := S1048576x64) 1 _ _ _
    (ix2 n (Cert.Spec.lo c)) rfl (ix2 n c : S1048576x64.Idx) (fun b => match b with | ⟨0, _⟩ => rfl | ⟨1, _⟩ => rfl)

/-- The last 64 columns are the target row's. -/
theorem edgeFeatOf_hi (hf : FVec Ideal S1024x64 .f32) (s d : IVec S1048576 32) (n : Fin 1048576) (c : Fin 64) :
    edgeFeatOf hf s d (ix2 n (Cert.Spec.hi c)) = Term.take hf d (ix2 n c) := by
  unfold edgeFeatOf
  exact concatenate_pair_apply_right (t := S1048576x128) (s₁ := S1048576x64) (s₂ := S1048576x64) 1 _ _ _
    (ix2 n (Cert.Spec.hi c)) rfl rfl (ix2 n c : S1048576x64.Idx)
    (fun b hb => match b with | ⟨0, _⟩ => rfl | ⟨1, _⟩ => absurd rfl hb)
    (by show c.val + 64 = 64 + c.val; omega)

/-- A sum over 128 entries splits at the middle. -/
theorem sum_lo_hi (f : Fin 128 → EReal) :
    ∑ k : Fin 128, f k = ∑ c : Fin 64, f (Cert.Spec.lo c) + ∑ c : Fin 64, f (Cert.Spec.hi c) :=
  Fin.sum_univ_add (a := 64) (b := 64) f

/-- The score product's dimension numbers are the plain matrix product's too. -/
theorem dot_rec2 : (dot_S1048576x128_S128x1_S1048576x1_1_0_0_1_n_n : DotDims S1048576x128 S128x1 S1048576x1)
    = DotDims.plain 1048576 128 1 := rfl

/-- The endpoints' features against a: the source row against a's first half plus the target row against its second. -/
theorem edgeDot_apply (hf : FVec Ideal S1024x64 .f32) (s d : IVec S1048576 32) (a : FVec Ideal S128x1 .f32)
    (n : Fin 1048576) :
    Host.dotGeneral dot_S1048576x128_S128x1_S1048576x1_1_0_0_1_n_n none (edgeFeatOf hf s d) a (ix2 n (0 : Fin 1))
      = ∑ c : Fin 64, Term.take hf s (ix2 n c) * a (ix2 (Cert.Spec.lo c) (0 : Fin 1))
        + ∑ c : Fin 64, Term.take hf d (ix2 n c) * a (ix2 (Cert.Spec.hi c) (0 : Fin 1)) := by
  rw [dot_rec2, StackMember.dotGeneral_plain_apply,
    sum_lo_hi (fun k => edgeFeatOf hf s d (ix2 n k) * a (ix2 k (0 : Fin 1)))]
  simp only [edgeFeatOf_lo, edgeFeatOf_hi]

/-- leaky_relu on a column, entry by entry. -/
theorem leakyCol_apply (v : FVec Ideal S1048576x1 .f32) (n : Fin 1048576) :
    Term.leakyCol v (constant S_ .f32 0x3E4CCCCD#32) (ix2 n (0 : Fin 1)) = Cert.Spec.leaky (v (ix2 n (0 : Fin 1))) := by
  unfold Term.leakyCol Cert.Spec.leaky
  rw [select_apply, cmpf_apply, mulf_apply, broadcastInDim_scalar_apply, broadcastInDim_scalar_apply]
  rfl

/-- A slot's score: the score of the pair (its row, its column) where its bit is set, zero elsewhere. -/
theorem edgeScoreOf_apply (x : FVec Ideal S1024x128 .f32) (W : FVec Ideal S128x64 .f32) (a : FVec Ideal S128x1 .f32)
    (s d : IVec S1048576 32) (v : IVec S1048576 1) (hs : ∀ m, (s m).toNat < 1024) (hd : ∀ m, (d m).toNat < 1024)
    (n : Fin 1048576) :
    edgeScoreOf (Term.feat x W) s d v a (ix1 n)
      = Scalar.select (v (ix1 n))
          (Cert.Spec.score x W a ⟨(s (ix1 n)).toNat, hs _⟩ ⟨(d (ix1 n)).toNat, hd _⟩) 0 := by
  unfold edgeScoreOf
  rw [select_apply, shapeCast_apply _ _ (ix1 n) (ix2 n (0 : Fin 1))
      (by rw [Shape.rowMajor_val_two, Shape.rowMajor_val_one]; show n.val * 1 + 0 = n.val; omega),
    leakyCol_apply, edgeDot_apply, broadcastInDim_scalar_apply, constant_apply, Ideal.ofBits_zero_f32]
  simp only [take_apply _ _ hs, take_apply _ _ hd, feat_h]
  rfl

/-- The index pairs: the first component is the slot's row. -/
theorem pairsOf_apply0 (s d : IVec S1048576 32) (hs : ∀ m, (s m).toNat < 1024) (n : Fin 1048576) :
    pairsOf s d (ix2 n (0 : Fin 2)) = s (ix1 n) := by
  unfold pairsOf
  rw [concatenate_pair_apply_left (t := S1048576x2) (s₁ := S1048576x1) (s₂ := S1048576x1) 1 _ _ _ (ix2 n (0 : Fin 2)) rfl
      (ix2 n (0 : Fin 1) : S1048576x1.Idx) (fun b => match b with | ⟨0, _⟩ => rfl | ⟨1, _⟩ => rfl),
    broadcastInDim_apply _ _ _ (ix2 n (0 : Fin 1)) (ix1 n) (fun a => match a with | ⟨0, _⟩ => rfl),
    wrap_apply_of_lt _ _ _ (by have := hs (ix1 n); omega)]

/-- The second component is the slot's column. -/
theorem pairsOf_apply1 (s d : IVec S1048576 32) (hd : ∀ m, (d m).toNat < 1024) (n : Fin 1048576) :
    pairsOf s d (ix2 n (1 : Fin 2)) = d (ix1 n) := by
  unfold pairsOf
  rw [concatenate_pair_apply_right (t := S1048576x2) (s₁ := S1048576x1) (s₂ := S1048576x1) 1 _ _ _ (ix2 n (1 : Fin 2)) rfl rfl
      (ix2 n (0 : Fin 1) : S1048576x1.Idx) (fun b hb => match b with | ⟨0, _⟩ => rfl | ⟨1, _⟩ => absurd rfl hb) rfl,
    broadcastInDim_apply _ _ _ (ix2 n (0 : Fin 1)) (ix1 n) (fun a => match a with | ⟨0, _⟩ => rfl),
    wrap_apply_of_lt _ _ _ (by have := hd (ix1 n); omega)]
/-- The scatter's start on the row axis: the pair's first component, read signed. -/
theorem scatter_start0 (idx : IVec S1048576x2 32) (n : Fin 1048576) :
    scatter_S1024x1024_S1048576x2_S1048576_n_01_01_1.start (ix1 n) idx 0 = (idx (ix2 n (0 : Fin 2))).toInt := by
  unfold ScatterDims.start
  rw [dif_pos (show (0 : Fin 2) ∈ scatter_S1024x1024_S1048576x2_S1048576_n_01_01_1.scatterDimsToOperandDims by decide)]
  have hsi : scatter_S1024x1024_S1048576x2_S1048576_n_01_01_1.siIdx (ix1 n)
      ⟨List.idxOf (0 : Fin 2) scatter_S1024x1024_S1048576x2_S1048576_n_01_01_1.scatterDimsToOperandDims,
        List.idxOf_lt_length_iff.2 (by decide)⟩ = ix2 n (0 : Fin 2) := by
    funext b; refine Fin.ext ?_
    match b with
    | ⟨0, _⟩ => rfl
    | ⟨1, _⟩ => rfl
  rw [hsi]

/-- … and on the column axis the second. -/
theorem scatter_start1 (idx : IVec S1048576x2 32) (n : Fin 1048576) :
    scatter_S1024x1024_S1048576x2_S1048576_n_01_01_1.start (ix1 n) idx 1 = (idx (ix2 n (1 : Fin 2))).toInt := by
  unfold ScatterDims.start
  rw [dif_pos (show (1 : Fin 2) ∈ scatter_S1024x1024_S1048576x2_S1048576_n_01_01_1.scatterDimsToOperandDims by decide)]
  have hsi : scatter_S1024x1024_S1048576x2_S1048576_n_01_01_1.siIdx (ix1 n)
      ⟨List.idxOf (1 : Fin 2) scatter_S1024x1024_S1048576x2_S1048576_n_01_01_1.scatterDimsToOperandDims,
        List.idxOf_lt_length_iff.2 (by decide)⟩ = ix2 n (1 : Fin 2) := by
    funext b; refine Fin.ext ?_
    match b with
    | ⟨0, _⟩ => rfl
    | ⟨1, _⟩ => rfl
  rw [hsi]

/-- Both operand axes are inserted: an update is one element, its window coordinate zero. -/
theorem scatter_window (j : S1048576.Idx) (a : Fin 2) :
    scatter_S1024x1024_S1048576x2_S1048576_n_01_01_1.window j a = 0 := by
  unfold ScatterDims.window
  rw [dif_neg (by revert a; decide)]

/-- Where an update lands: at (row, column) when the pair's two components, read signed, are a row and a column of the matrix. -/
theorem resultIdx_eq (idx : IVec S1048576x2 32) (n : Fin 1048576) (r c : Fin 1024)
    (h0 : (idx (ix2 n (0 : Fin 2))).toInt = (r.val : Int)) (h1 : (idx (ix2 n (1 : Fin 2))).toInt = (c.val : Int)) :
    scatter_S1024x1024_S1048576x2_S1048576_n_01_01_1.resultIdx? (ix1 n) idx = some (ix2 r c) := by
  have e0 : ∀ hlt : 0 < S1024x1024.rank, scatter_S1024x1024_S1048576x2_S1048576_n_01_01_1.start (ix1 n) idx ⟨0, hlt⟩
      + (scatter_S1024x1024_S1048576x2_S1048576_n_01_01_1.window (ix1 n) ⟨0, hlt⟩ : Int) = (r.val : Int) := by
    intro hlt
    rw [scatter_window]
    exact ((Int.add_zero _).trans (scatter_start0 idx n)).trans h0
  have e1 : ∀ hlt : 1 < S1024x1024.rank, scatter_S1024x1024_S1048576x2_S1048576_n_01_01_1.start (ix1 n) idx ⟨1, hlt⟩
      + (scatter_S1024x1024_S1048576x2_S1048576_n_01_01_1.window (ix1 n) ⟨1, hlt⟩ : Int) = (c.val : Int) := by
    intro hlt
    rw [scatter_window]
    exact ((Int.add_zero _).trans (scatter_start1 idx n)).trans h1
  have hr : ((r.val : Nat) : Int) < 1024 := by have := r.isLt; omega
  have hc : ((c.val : Nat) : Int) < 1024 := by have := c.isLt; omega
  unfold ScatterDims.resultIdx?
  rw [dif_pos (by
    intro a
    match a with
    | ⟨0, hlt⟩ => rw [e0 hlt]; exact ⟨by omega, hr⟩
    | ⟨1, hlt⟩ => rw [e1 hlt]; exact ⟨by omega, hc⟩)]
  congr 1
  funext a
  refine Fin.ext ?_
  match a with
  | ⟨0, hlt⟩ =>
    show (scatter_S1024x1024_S1048576x2_S1048576_n_01_01_1.start (ix1 n) idx ⟨0, hlt⟩
      + (scatter_S1024x1024_S1048576x2_S1048576_n_01_01_1.window (ix1 n) ⟨0, hlt⟩ : Int)).toNat = r.val
    rw [e0 hlt]; exact Int.toNat_natCast _
  | ⟨1, hlt⟩ =>
    show (scatter_S1024x1024_S1048576x2_S1048576_n_01_01_1.start (ix1 n) idx ⟨1, hlt⟩
      + (scatter_S1024x1024_S1048576x2_S1048576_n_01_01_1.window (ix1 n) ⟨1, hlt⟩ : Int)).toNat = c.val
    rw [e1 hlt]; exact Int.toNat_natCast _

/-- A slot's update lands at (its row, its column). -/
theorem resultIdx_pairsOf (s d : IVec S1048576 32) (hs : ∀ m, (s m).toNat < 1024) (hd : ∀ m, (d m).toNat < 1024)
    (n : Fin 1048576) (r c : Fin 1024) (hr : (s (ix1 n)).toNat = r.val) (hc : (d (ix1 n)).toNat = c.val) :
    scatter_S1024x1024_S1048576x2_S1048576_n_01_01_1.resultIdx? (ix1 n) (pairsOf s d) = some (ix2 r c) := by
  have hs' := hs (ix1 n)
  have hd' := hd (ix1 n)
  refine resultIdx_eq _ n r c ?_ ?_
  · rw [pairsOf_apply0 s d hs, BitVec.toInt_eq_toNat_of_lt (by omega), hr]
  · rw [pairsOf_apply1 s d hd, BitVec.toInt_eq_toNat_of_lt (by omega), hc]

/-- The splat of the zero word reads Spec's zero. -/
theorem zerosNN_eq (p : S1024x1024.Idx) : Term.zerosNN (F := Ideal) p = Cert.Spec.zero := by
  unfold Term.zerosNN
  rw [broadcastInDim_scalar_apply, constant_apply]
  rfl

/-- The fill: -9e15 times one. -/
theorem fill_apply (p : S1024x1024.Idx) : Term.fill (F := Ideal) p = Cert.Spec.negBig := by
  unfold Term.fill
  rw [mulf_apply, broadcastInDim_scalar_apply, broadcastInDim_scalar_apply, constant_apply, constant_apply,
    Ideal.ofBits_one_f32, mul_one]
  rfl

/-- An entry that compares above zero is not zero. -/
theorem ne_zero_of_cmp_ogt {v : EReal} (h : Ideal.cmp .ogt v Cert.Spec.zero = 1#1) : v ≠ 0 := by
  intro hv
  subst hv
  have hz : Cert.Spec.zero = 0 := Ideal.ofBits_zero_f32
  rw [hz] at h
  simp [Ideal.cmp] at h

/-- At the extended reals the host's accumulating scatter is the operand plus the sum of the updates landing there. -/
theorem scatterAdd_ideal {s si su : Shape} {φ : FTy} {w : Nat} (d : ScatterDims s si su) (x : FVec Ideal s φ)
    (idx : IVec si w) (upd : FVec Ideal su φ) :
    Host.scatterAdd d x idx upd = Ideal.hostScatterAdd d x idx upd := rfl

/-- An accumulating scatter at an element where one update lands and every other update landing there is zero: the
    operand's element plus that update. -/
theorem hostScatterAdd_eq_single {s si su : Shape} {w : Nat} (d : ScatterDims s si su) (x : s.Idx → EReal)
    (idx : IVec si w) (upd : su.Idx → EReal) (p : s.Idx) (m0 : su.Idx) (h0 : d.resultIdx? m0 idx = some p)
    (hz : ∀ m, m ≠ m0 → d.resultIdx? m idx = some p → upd m = 0) :
    Ideal.hostScatterAdd d x idx upd p = x p + upd m0 := by
  unfold Ideal.hostScatterAdd
  rw [Finset.sum_eq_single m0]
  · intro m hm hne
    exact hz m hne (Finset.mem_filter.mp hm).2
  · intro hnot
    exact (hnot (Finset.mem_filter.mpr ⟨Finset.mem_univ _, h0⟩)).elim

/-- The scattered scores at (i, j), when exactly one slot with its bit set has row i and column j: that pair's score.
    The one slot lands there with the score; every other slot that lands there has its bit clear and adds zero. -/
theorem denseOf_apply (x : FVec Ideal S1024x128 .f32) (W : FVec Ideal S128x64 .f32) (a : FVec Ideal S128x1 .f32)
    (s d : IVec S1048576 32) (v : IVec S1048576 1) (hs : ∀ m, (s m).toNat < 1024) (hd : ∀ m, (d m).toNat < 1024)
    (hv : ∀ m, v m = 1#1 ∨ v m = 0#1) (i j : Fin 1024) (n0 : Fin 1048576)
    (h1 : v (ix1 n0) = 1#1) (hi : (s (ix1 n0)).toNat = i.val) (hj : (d (ix1 n0)).toNat = j.val)
    (huniq : ∀ n : Fin 1048576, v (ix1 n) = 1#1 → (s (ix1 n)).toNat = i.val → (d (ix1 n)).toNat = j.val → n = n0) :
    denseOf (Term.feat x W) s d v a (ix2 i j) = Cert.Spec.score x W a i j := by
  have hland : ∀ n : Fin 1048576,
      scatter_S1024x1024_S1048576x2_S1048576_n_01_01_1.resultIdx? (ix1 n) (pairsOf s d) = some (ix2 i j)
        → (s (ix1 n)).toNat = i.val ∧ (d (ix1 n)).toNat = j.val := by
    intro n e
    rw [resultIdx_pairsOf s d hs hd n ⟨_, hs _⟩ ⟨_, hd _⟩ rfl rfl] at e
    have e' := Option.some.inj e
    have e0 := congrArg Fin.val (congrFun e' 0)
    have e1 := congrArg Fin.val (congrFun e' 1)
    exact ⟨e0, e1⟩
  have hscore : Cert.Spec.score x W a ⟨(s (ix1 n0)).toNat, hs _⟩ ⟨(d (ix1 n0)).toNat, hd _⟩ = Cert.Spec.score x W a i j := by
    rw [show (⟨(s (ix1 n0)).toNat, hs _⟩ : Fin 1024) = i from Fin.ext hi,
      show (⟨(d (ix1 n0)).toNat, hd _⟩ : Fin 1024) = j from Fin.ext hj]
  have hz : ∀ m : S1048576.Idx, m ≠ ix1 n0 →
      scatter_S1024x1024_S1048576x2_S1048576_n_01_01_1.resultIdx? m (pairsOf s d) = some (ix2 i j) →
      edgeScoreOf (Term.feat x W) s d v a m = 0 := by
    intro m hne hm
    obtain ⟨n, rfl⟩ : ∃ n : Fin 1048576, m = ix1 n := ⟨m 0, eq_ix1 m⟩
    have hl := hland n hm
    rcases hv (ix1 n) with hv' | hv'
    · exact absurd (congrArg ix1 (huniq n hv' hl.1 hl.2)) hne
    · rw [edgeScoreOf_apply x W a s d v hs hd, hv', select_zero]
  have key := hostScatterAdd_eq_single scatter_S1024x1024_S1048576x2_S1048576_n_01_01_1 (Term.zerosNN (F := Ideal))
    (pairsOf s d) (edgeScoreOf (Term.feat x W) s d v a) (ix2 i j) (ix1 n0) (resultIdx_pairsOf s d hs hd n0 i j hi hj) hz
  unfold denseOf
  rw [scatterAdd_ideal, key, zerosNN_eq, show Cert.Spec.zero = 0 from Ideal.ofBits_zero_f32, zero_add,
    edgeScoreOf_apply x W a s d v hs hd, h1, select_one, hscore]

/-- The reference's dense scores at a nonzero entry of adj: its own score (one listed slot names the entry; the slots
    past the end add zero). -/
theorem dense_apply (x : FVec Ideal S1024x128 .f32) (adj : FVec Ideal S1024x1024 .f32) (W : FVec Ideal S128x64 .f32)
    (a : FVec Ideal S128x1 .f32) (i j : Fin 1024) (h : adj (ix2 i j) ≠ 0) :
    Term.dense (Term.feat x W) adj a (ix2 i j) = Cert.Spec.score x W a i j := by
  obtain ⟨n0, ⟨hv, hs, hd⟩, huniq⟩ := exists_unique_slot adj i j h
  exact (congrFun (dense_eq (Term.feat x W) adj a) (ix2 i j)).trans
    (denseOf_apply x W a (Term.src adj) (Term.dst adj) (Term.valid adj) (src_lt adj) (dst_lt adj) (valid_cases adj)
      i j n0 hv hs hd (fun n h1 h2 h3 => huniq n ⟨h1, h2, h3⟩))

end Edge

open Edge

/-- The host's x·W at an entry. -/
theorem feat_apply (x : FVec Ideal S1024x128 .f32) (W : FVec Ideal S128x64 .f32) (i : Fin 1024) (c : Fin 64) :
    Term.feat x W (ix2 i c) = Cert.Spec.h x W i c := by
  exact feat_h x W i c

/-- The reference's logit at a pair. -/
theorem logits_apply (x : FVec Ideal S1024x128 .f32) (adj : FVec Ideal S1024x1024 .f32) (W : FVec Ideal S128x64 .f32)
    (a : FVec Ideal S128x1 .f32) (i j : Fin 1024) :
    Term.logits (Term.feat x W) adj a (ix2 i j) = Cert.Spec.logit x adj W a i j := by
  unfold Term.logits Cert.Spec.logit
  rw [select_apply, cmpf_apply, zerosNN_eq, fill_apply, Ideal.cmpf_def]
  by_cases hc : Ideal.cmp .ogt (adj (ix2 i j)) Cert.Spec.zero = 1#1
  · rw [hc, select_one, select_one]
    exact dense_apply x adj W a i j (ne_zero_of_cmp_ogt hc)
  · rw [eq_zero_of_ne_one hc, select_zero, select_zero]

end Cert.ReferenceIdeal.Read

end
-- ==== Proof.RefTail.lean ====
/-
  From the logits to the result: the reference's row softmax, its product with h and elu are the specification's
  rowMax, wgt, den, att, agg and elu, entry by entry.
-/
import proofs.«123027_g70274254897801_cont_sun_c4_842_6_alg».proof.Proof.RefTerm
import proofs.«123027_g70274254897801_cont_sun_c4_842_6_alg».proof.Proof.Gen.ReferenceIdeal
import proofs.«123027_g70274254897801_cont_sun_c4_842_6_alg».proof.Proof.Spec
import Idealize.ShloMosaic.PureOps.Ideal.Laws

noncomputable section

namespace Cert.ReferenceIdeal.Read

open Idealize.ShloMosaic Idealize.ShloMosaic.ValueIdx Cert.ReferenceIdeal
open scoped BigOperators

/-! The pieces of the tail, each read at one entry. -/
namespace Tail

/-- The word 0x3F800000 denotes 1. -/
theorem one_eq : Cert.Spec.one = 1 := by
  unfold Cert.Spec.one
  simp [Ideal.ofBits, Ideal.ieee, -EReal.coe_mul]; norm_num

/-- The word 0xFF800000 denotes -∞. -/
theorem negInf_eq : Ideal.ofBits .f32 0xFF800000#32 = ⊥ := by simp [Ideal.ofBits, Ideal.ieee]

/-- elu as the reference spells it, read at an entry. -/
theorem eluV_apply (y : FVec Ideal S1024x64 .f32) (i : S1024x64.Idx) :
    Term.eluV y i = Cert.Spec.elu (y i) := by
  show Scalar.select (Ideal.cmp .ogt (y i) Cert.Spec.zero) (y i)
      (Cert.Spec.one * (Ideal.exp (Scalar.select (Ideal.cmp .ogt (y i) Cert.Spec.zero) Cert.Spec.zero (y i)) - 1))
    = Scalar.select (Ideal.cmp .ogt (y i) Cert.Spec.zero) (y i) (Ideal.exp (y i) - Cert.Spec.one)
  by_cases hb : Ideal.cmp .ogt (y i) Cert.Spec.zero = 1#1
  · rw [hb, select_one, select_one]
  · rw [eq_zero_of_ne_one hb, select_zero, select_zero, select_zero, one_eq, one_mul]

/-- The source index over row i with column k inserted is (i, k). -/
theorem lift_row (h : S1024x1024.Reduces [1] S1024) (i k : Fin 1024) : h.lift (ix1 i) k = ix2 i k := by
  funext c; apply Fin.ext
  match c with
  | ⟨0, _⟩ => rfl
  | ⟨1, _⟩ => rfl

/-- A vector [1024] broadcast to a column [1024,1] and then across the rows [1024,1024], read at (i, j): its entry i. -/
theorem bcast_row_apply {α : Type} (h1 : S1024.BroadcastsInDim S1024x1 ![0]) (h2 : S1024x1.BroadcastsInDim S1024x1024 ![0, 1])
    (v : S1024.Idx → α) (i j : Fin 1024) :
    broadcastInDim S1024x1024 ![0, 1] h2 (broadcastInDim S1024x1 ![0] h1 v) (ix2 i j) = v (ix1 i) := by
  unfold broadcastInDim
  refine congrArg v (funext fun a => Fin.ext ?_)
  match a with
  | ⟨0, _⟩ => rfl

/-- The row maximum as the reference takes it (a fold of max from -∞, then max with -∞ once more) is the fold of max
    from ⊥ over the row's entries. -/
theorem rowMax_apply (hb : S_.BroadcastsInDim S1024 ![]) (hr : S1024x1024.ReducesTo [1] S1024) (hu : 0 < S_.numel)
    (l : FVec Ideal S1024x1024 .f32) (i : Fin 1024) :
    maximumf (broadcastInDim S1024 ![] hb (constant (F := Ideal) S_ .f32 0xFF800000#32))
        (Host.reduce FloatOps.maximumf l (constant (F := Ideal) S_ .f32 0xFF800000#32) hr hu) (ix1 i)
      = (Finset.univ : Finset (Fin 1024)).fold max ⊥ (fun j => l (ix2 i j)) := by
  have h : S1024x1024.Reduces [1] S1024 := by decide
  rw [maximumf_apply, Host.reduce_eq_fold_single FloatOps.maximumf l _ hr h hu]
  have e : (l ∘ h.lift (ix1 i)) = fun j => l (ix2 i j) := funext fun k => congrArg l (lift_row h i k)
  rw [e]
  show max (Ideal.ofBits .f32 0xFF800000#32)
      ((Finset.univ : Finset (Fin 1024)).fold max (Ideal.ofBits .f32 0xFF800000#32) fun j => l (ix2 i j)) = _
  rw [negInf_eq, max_bot_left]

/-- The host's row sum from the zero word is the sum over the row's entries. -/
theorem rowSum_apply (hr : S1024x1024.ReducesTo [1] S1024) (hu : 0 < S_.numel) (e : FVec Ideal S1024x1024 .f32) (i : Fin 1024) :
    Host.reduceAdd e (constant (F := Ideal) S_ .f32 0x00000000#32) hr hu (ix1 i) = ∑ k : Fin 1024, e (ix2 i k) := by
  have h : S1024x1024.Reduces [1] S1024 := by decide
  show Ideal.hostReduceAdd hr e (Ideal.ofBits .f32 0x00000000#32) (ix1 i) = _
  rw [Ideal.hostReduceAdd_single hr h, Ideal.ofBits_zero_f32, zero_add]
  exact Finset.sum_congr rfl fun k _ => congrArg e (lift_row h i k)

/-- exp of an entry minus its row's value, read at (i, j). -/
theorem expSub_apply (h1 : S1024.BroadcastsInDim S1024x1 ![0]) (h2 : S1024x1.BroadcastsInDim S1024x1024 ![0, 1])
    (l : FVec Ideal S1024x1024 .f32) (m : FVec Ideal S1024 .f32) (i j : Fin 1024) :
    Host.exp (subf l (broadcastInDim S1024x1024 ![0, 1] h2 (broadcastInDim S1024x1 ![0] h1 m))) (ix2 i j)
      = Ideal.exp (l (ix2 i j) - m (ix1 i)) := by
  show Ideal.exp (l (ix2 i j) - broadcastInDim S1024x1024 ![0, 1] h2 (broadcastInDim S1024x1 ![0] h1 m) (ix2 i j)) = _
  rw [bcast_row_apply]

/-- The host's quotient at an entry. -/
theorem hostDivf_apply {s : Shape} (a b : FVec Ideal s .f32) (i : s.Idx) : Host.divf a b i = Ideal.div (a i) (b i) := rfl

/-- The reference's row softmax, read at (i, j): exp (l i j − max of row i) over the sum of those along the row. -/
theorem softmax_apply (l : FVec Ideal S1024x1024 .f32) (i j : Fin 1024) :
    Term.softmax l (ix2 i j)
      = Ideal.div (Ideal.exp (l (ix2 i j) - (Finset.univ : Finset (Fin 1024)).fold max ⊥ (fun k => l (ix2 i k))))
          (∑ k : Fin 1024, Ideal.exp (l (ix2 i k) - (Finset.univ : Finset (Fin 1024)).fold max ⊥ (fun k' => l (ix2 i k')))) := by
  unfold Term.softmax
  rw [hostDivf_apply, bcast_row_apply, rowSum_apply, expSub_apply, rowMax_apply]
  refine congrArg (Ideal.div _) (Finset.sum_congr rfl fun k _ => ?_)
  rw [expSub_apply, rowMax_apply]

/-! The aggregation's dot: its operand indices at result (p, q) and contraction position k are (p, k) and (k, q). -/

theorem lhs_agg_0 (j : S1024x64.Idx) (k : dot_S1024x1024_S1024x64_S1024x64_1_0_0_1_n_n.contr.Idx) :
    (dot_S1024x1024_S1024x64_S1024x64_1_0_0_1_n_n.lhsIdx j k 0).val = (j 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl

theorem lhs_agg_1 (j : S1024x64.Idx) (k : dot_S1024x1024_S1024x64_S1024x64_1_0_0_1_n_n.contr.Idx) :
    (dot_S1024x1024_S1024x64_S1024x64_1_0_0_1_n_n.lhsIdx j k 1).val = (k ⟨0, by decide⟩).val :=
  DotDims.lhsIdx_val_of_single dot_S1024x1024_S1024x64_S1024x64_1_0_0_1_n_n (cl := 1) rfl j k

theorem rhs_agg_0 (j : S1024x64.Idx) (k : dot_S1024x1024_S1024x64_S1024x64_1_0_0_1_n_n.contr.Idx) :
    (dot_S1024x1024_S1024x64_S1024x64_1_0_0_1_n_n.rhsIdx j k 0).val = (k ⟨0, by decide⟩).val :=
  DotDims.rhsIdx_val_of_single dot_S1024x1024_S1024x64_S1024x64_1_0_0_1_n_n (cr := 0) rfl j k

theorem rhs_agg_1 (j : S1024x64.Idx) (k : dot_S1024x1024_S1024x64_S1024x64_1_0_0_1_n_n.contr.Idx) :
    (dot_S1024x1024_S1024x64_S1024x64_1_0_0_1_n_n.rhsIdx j k 1).val = (j 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The aggregation's dot at (p, q): the sum over the 1024 nodes of the weights' row p against the features' column q. -/
theorem agg_dot_apply (A : FVec Ideal S1024x1024 .f32) (B : FVec Ideal S1024x64 .f32) (p : Fin 1024) (q : Fin 64) :
    Host.dotGeneral dot_S1024x1024_S1024x64_S1024x64_1_0_0_1_n_n none A B (ix2 p q) = ∑ k : Fin 1024, A (ix2 p k) * B (ix2 k q) := by
  simp only [Host.dotGeneral]
  rw [Ideal.dotGeneral_apply]
  refine ((Equiv.sum_comp (contrEquiv1 dot_S1024x1024_S1024x64_S1024x64_1_0_0_1_n_n 1024 rfl rfl).symm _).symm.trans ?_)
  refine Finset.sum_congr rfl fun k _ => ?_
  have hk := contrEquiv1_symm_val dot_S1024x1024_S1024x64_S1024x64_1_0_0_1_n_n 1024 rfl rfl k
  have eL : dot_S1024x1024_S1024x64_S1024x64_1_0_0_1_n_n.lhsIdx (ix2 p q) ((contrEquiv1 dot_S1024x1024_S1024x64_S1024x64_1_0_0_1_n_n 1024 rfl rfl).symm k) = ix2 p k :=
    funext fun a => Fin.ext (by
      match a with
      | ⟨0, _⟩ => exact lhs_agg_0 _ _
      | ⟨1, _⟩ => exact (lhs_agg_1 _ _).trans hk)
  have eR : dot_S1024x1024_S1024x64_S1024x64_1_0_0_1_n_n.rhsIdx (ix2 p q) ((contrEquiv1 dot_S1024x1024_S1024x64_S1024x64_1_0_0_1_n_n 1024 rfl rfl).symm k) = ix2 k q :=
    funext fun a => Fin.ext (by
      match a with
      | ⟨0, _⟩ => exact (rhs_agg_0 _ _).trans hk
      | ⟨1, _⟩ => exact rhs_agg_1 _ _)
  rw [eL, eR]

/-- The row softmax of an array whose entries are named: l (i, j) = g i j. -/
theorem softmax_of_rows (l : FVec Ideal S1024x1024 .f32) (g : Fin 1024 → Fin 1024 → EReal)
    (hg : ∀ i j : Fin 1024, l (ix2 i j) = g i j) (i j : Fin 1024) :
    Term.softmax l (ix2 i j)
      = Ideal.div (Ideal.exp (g i j - (Finset.univ : Finset (Fin 1024)).fold max ⊥ (fun k => g i k)))
          (∑ k : Fin 1024, Ideal.exp (g i k - (Finset.univ : Finset (Fin 1024)).fold max ⊥ (fun k' => g i k'))) := by
  rw [softmax_apply]
  have e : (fun k => l (ix2 i k)) = fun k => g i k := funext fun k => hg i k
  rw [e, hg]
  exact congrArg (Ideal.div _) (Finset.sum_congr rfl fun k _ => by rw [hg])

end Tail

/-- Given the logits and the features entry by entry, the reference's result is the specification. -/
theorem out_eq_G (x : FVec Ideal S1024x128 .f32) (adj : FVec Ideal S1024x1024 .f32) (W : FVec Ideal S128x64 .f32)
    (a : FVec Ideal S128x1 .f32)
    (hf : ∀ (i : Fin 1024) (c : Fin 64), Term.feat x W (ix2 i c) = Cert.Spec.h x W i c)
    (hl : ∀ i j : Fin 1024, Term.logits (Term.feat x W) adj a (ix2 i j) = Cert.Spec.logit x adj W a i j) :
    Term.out x adj W a = Cert.Spec.G x adj W a := by
  funext j
  obtain ⟨p, q, rfl⟩ : ∃ (p : Fin 1024) (q : Fin 64), j = ix2 p q := ⟨j 0, j 1, eq_ix2 j⟩
  rw [Cert.Spec.G_apply]
  unfold Term.out
  rw [Tail.eluV_apply, Tail.agg_dot_apply]
  refine congrArg Cert.Spec.elu (Finset.sum_congr rfl fun k _ => ?_)
  rw [Tail.softmax_of_rows _ (Cert.Spec.logit x adj W a) hl, hf]
  rfl

end Cert.ReferenceIdeal.Read

end
-- ==== Proof.KDat.lean ====
/- The proof data of the one pipelined kernel region of the program: the arrays as the region finds them,
   each window's block at a grid point, what the body leaves in the output window's staging buffer, and the
   bundle the launch and the body obligation are stated over. Two windows (0 and 1) read ONE array: they hold
   the two disjoint halves of its full share. -/
import proofs.«123027_g70274254897801_cont_sun_c4_842_6_alg».proof.Proof.Gen.KernelIdeal.Launch
import proofs.«123027_g70274254897801_cont_sun_c4_842_6_alg».proof.Proof.Gen.KernelIdeal.Skeleton
import proofs.«123027_g70274254897801_cont_sun_c4_842_6_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal.Gen

variable {F : FTy → Type} [FloatOps F]

variable (m : (ℓ : Loc nD τ sig) → Buf (Elt F) ℓ)

/-- Core `c`'s TensorCore buffers when the region is entered: as launched (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in the output window's staging buffer, from the five input windows' blocks
    (`x0` … `x4`: windows 0 … 4): its one whole-block store's payload. The body loads window 0 (all of the
    features), window 3 (the weights) twice, window 4 (the attention vector), window 1 (the row block of the
    features) and window 2 (the row block of the adjacency), in that order. -/
def out0_5 (x0 : Vec F S1024x128 .f32) (x1 : Vec F S256x128 .f32) (x2 : Vec F S256x1024 .f32) (x3 : Vec F S128x64 .f32)
    (x4 : Vec F S128x1 .f32) : Vec F S256x64 .f32 :=
  k0_pay1 (k0_pay2 x0 x3 x4 x1 x3 x2) (Scalar.ofBits .f32 0x00000000#32)

/-- The proof data of the pipeline on core `c`: the arrays as the region finds them; after the body at point `t`
    each input's buffer at its block and the output's at `out0_5` of the input blocks; the invariant the scoped
    rest and the generator register, untouched; nothing owed; windows 0 and 1, on one array, at the two halves of
    its full share, the other inputs at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by
  dsimp only [dats]

/-- The shares, window by window. -/
theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]
theorem q0_4 (c : Dev nD) : (dats m 0 c).q 4 = fullShare := by dsimp only [dats]
theorem q0_5 (c : Dev nD) : (dats m 0 c).q 5 = fullShare := by dsimp only [dats]

end Cert.KernelIdeal.Hand

end
-- ==== Proof.KSplit.lean ====
/-
  The launch's hand-over of the argument arrays to the windows. The kernel is handed the feature array twice, whole
  and in row blocks, so two windows stand on one buffer: the buffer's full share is split into its two halves, one per
  window, and every other array goes to its one window whole.
-/
import proofs.«123027_g70274254897801_cont_sun_c4_842_6_alg».proof.Proof.KDat
import Idealize.ShloMosaic.Lib.Pipeline.Launch
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- Buffer b whole, at share q, at the entry contents. -/
abbrev bufAt (c : Dev nD) (b : Ref sig .tc) (q : PosShare TreeShare) : sProp 𝕄 :=
  ((c.tc : Thread nD τ).loc b) ↦{q} V m c b

/-- Window w's array at entry: its buffer whole, at the window's share, at the entry contents. -/
theorem arr_at (c : Dev nD) (w : Fin 6) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  have h : (cfg0.win w).arr.view.set = Finset.univ := (arr_whole0 w).set_eq_univ
  rw [h]
  rfl

/-- The shares the windows hold their arrays at: the two windows on the feature array a half each, the rest full. -/
theorem share0_0 (c : Dev nD) : (dats m 0 c).share 0 = fullShare.left := by
  show (if (cfg0.win 0).isOut then fullShare else (dats m 0 c).q 0) = _
  rw [q0_0]; rfl
theorem share0_1 (c : Dev nD) : (dats m 0 c).share 1 = fullShare.right := by
  show (if (cfg0.win 1).isOut then fullShare else (dats m 0 c).q 1) = _
  rw [q0_1]; rfl
theorem share0_2 (c : Dev nD) : (dats m 0 c).share 2 = fullShare := by
  show (if (cfg0.win 2).isOut then fullShare else (dats m 0 c).q 2) = _
  rw [q0_2]; rfl
theorem share0_3 (c : Dev nD) : (dats m 0 c).share 3 = fullShare := by
  show (if (cfg0.win 3).isOut then fullShare else (dats m 0 c).q 3) = _
  rw [q0_3]; rfl
theorem share0_4 (c : Dev nD) : (dats m 0 c).share 4 = fullShare := by
  show (if (cfg0.win 4).isOut then fullShare else (dats m 0 c).q 4) = _
  rw [q0_4]; rfl
theorem share0_5 (c : Dev nD) : (dats m 0 c).share 5 = fullShare := by
  show (if (cfg0.win 5).isOut then fullShare else (dats m 0 c).q 5) = _
  rfl

/-- The buffers behind the windows' arrays, each whole at the full share at the entry contents, make the proof data's
    arrays at entry: the shared buffer's share split between windows 0 and 1. -/
theorem arrays_split_shared (c : Dev nD) :
    (Pipeline.arrBufs (cfgs 0).spec c (V m c) : sProp 𝕄) ⊢ (dats m 0 c).arrays ((dats m 0 c).arrAt · 0) := by
  have hL : (Pipeline.arrBufs (cfgs 0).spec c (V m c) : sProp 𝕄)
      = bigSepL [main_arg0, main_arg1, main_arg2, main_arg3, main_v0] fun b => ((c : Thread nD τ).loc b) ↦{fullShare} V m c b := by
    unfold Pipeline.arrBufs
    exact bigSep_eq_bigSepL_of_eq _ (by decide) (by decide) _
  rw [hL]
  unfold Dat.arrays
  rw [bigSep_W0, arr_at m c 0, arr_at m c 1, arr_at m c 2, arr_at m c 3, arr_at m c 4, arr_at m c 5,
    share0_0, share0_1, share0_2, share0_3, share0_4, share0_5]
  show (iprop(bufAt m c main_arg0 fullShare ∗ bufAt m c main_arg1 fullShare ∗ bufAt m c main_arg2 fullShare
        ∗ bufAt m c main_arg3 fullShare ∗ bufAt m c main_v0 fullShare) : sProp 𝕄)
      ⊢ iprop(bufAt m c main_arg0 fullShare.left ∗ bufAt m c main_arg0 fullShare.right ∗ bufAt m c main_arg1 fullShare
        ∗ bufAt m c main_arg2 fullShare ∗ bufAt m c main_arg3 fullShare ∗ bufAt m c main_v0 fullShare)
  iintro ⟨H0, H1, H2, H3, H5⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H5

end Cert.KernelIdeal.Hand

end
-- ==== Proof.KRun.lean ====
/-
  The launch of the kernel's one pipelined region: given the body obligation at every grid point, every weakly fair
  execution of the program terminates with the output array at the proof data's final contents and the four argument
  arrays as launched. The argument arrays reach the windows by the shared split (two windows stand on the feature array);
  nothing but the windows' staging buffers is scoped, so the body's invariant is the scoped rest and the generator register.
-/
import proofs.«123027_g70274254897801_cont_sun_c4_842_6_alg».proof.Proof.KDat
import proofs.«123027_g70274254897801_cont_sun_c4_842_6_alg».proof.Proof.KSplit
import proofs.«123027_g70274254897801_cont_sun_c4_842_6_alg».proof.Proof.Gen.KernelIdeal.Launch
import proofs.«123027_g70274254897801_cont_sun_c4_842_6_alg».proof.Proof.Gen.KernelIdeal.Points
import Idealize.ShloMosaic.Lib.Pipeline.FrameBody
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the launch's conclusion is matched against this statement up to the unfolding of definitions
set_option backward.isDefEq.respectTransparency.types false in
set_option maxRecDepth 16384 in
/-- From the body obligation to the run. -/
theorem run_main_of (m : (ℓ : Loc nD τ sig) → Buf (Elt F) ℓ) (ρ : Dev nD → PrngReg)
    (hbody : ∀ c : Dev nD, Pipeline.BodyObligation (dats (F := F) m 0 c) (defs₀ (F := F)) Variants.none () Set.univ) :
    θ_run (defs (F := F)) (onTc (τ := τ) (main (F := F))) ⟨m, fun _ => 0, ρ⟩ fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  classical
  refine Pipeline.θ_run_region_pf pcfgs (fun q => (cfgs q).toPCfg_adm) (dats m) () cellOf_inj (0 : Fin 1) winFacts₀0
    (Pipeline.OwnSemFacts.none _) (Pipeline.PreFacts.none _) emb₁ defs₀ Variants.none m ρ main
    (hbody := fun c => (hbody c).loose) (hne := block_pos0) (harr := arr_whole0) (hstage := stage_whole0)
    (howed := fun _ _ => rfl) (G := fun _ => iprop(emp))
    (u₀ := initOf (Pipeline.cells cfgs cellOf_inj) (Pipeline.launchToks cfgs cellOf_inj))
    (hu₀ := ?hu) (V := V m)
    (hmain := Pipeline.hmain_region cfgs 0 defs₀ Variants.none m main fun c => (main_chain c).trans rfl)
    (hsplit := arrays_split_shared m) (hpf := fun _ k => k.elim0)
    (X := fun c => iprop(∃ r, prngReg c r)) (Y := fun c => iprop(∃ r, prngReg c r)) (Z := fun _ => iprop(emp))
    (hX := ?hX) (hin := ?hin) (hout := ?hout) (QY := fun _ _ => True) (hY := ?hY) (hQ := ?hQ)
  -- the ghost state is the initial one, and nothing more is handed to the cores
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  -- of what a core holds beside the arrays, the region keeps the generator register alone
  case hX =>
    intro c
    iintro ⟨-, -, -, -, Hp, -⟩; imodintro
    isplitl [Hp]
    · iexists _; iexact Hp
    iempintro
  -- the region's invariant, the scoped rest with the generator register, holds before the first point …
  case hin =>
    intro c
    show _ ⊢ Pipeline.ΦA spec0 c
    unfold Pipeline.ΦA
    iintro ⟨Hp, -, Hr⟩
    isplitl [Hr]
    · iexact Hr
    iexact Hp
  -- … and gives both back after the last
  case hout =>
    intro c
    show Pipeline.ΦA spec0 c ⊢ _
    rw [Pipeline.ownSems0_none]; unfold Pipeline.ΦA
    iintro ⟨Hr, Hp⟩
    isplitl [Hp]
    · iexact Hp
    isplitr
    · iempintro
    iexact Hr
  -- nothing further is read off the final state
  case hY =>
    intro c s'
    iintro ⟨-, -, HSI⟩; imodintro
    isplitr
    · ipureintro; trivial
    iexact HSI
  -- the output array ends at the data's final contents; an input array is never written, so it ends as it was launched
  case hQ =>
    intro s h c
    exact ⟨(h c).1 5,
      ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4))⟩

end Cert.KernelIdeal.Hand

end
-- ==== Proof.KFrame.lean ====
/- The run of the one pipelined kernel region by hand: the body's triple, the body obligation at every grid point,
   and the launch. Windows 0 and 1 read one array (the features, whole and in row blocks); the body loads its six
   staging buffers whole, computes, and stores the output block whole. -/
import proofs.«123027_g70274254897801_cont_sun_c4_842_6_alg».proof.Proof.KDat
import proofs.«123027_g70274254897801_cont_sun_c4_842_6_alg».proof.Proof.KSplit
import proofs.«123027_g70274254897801_cont_sun_c4_842_6_alg».proof.Proof.KRun
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on whole staging memrefs, the five inputs' at read contents `x0` … `x4` and the output's at
    anything, runs to the continuation holding the inputs' as they were and the output's at `out0_5` of the inputs':
    the printed functions are their skeletons, which the run executes through the part call; each of the six loads
    is through the whole-buffer rectangle and reads the contents, and the one store, through the whole-buffer
    rectangle, leaves its payload. -/
theorem sound_kernel (c : Dev nD) (E : Set ℕ) (i : grid0.Coords)
    (arg1 : Memref sig .tc .vmem S1024x128 .f32) (harg1 : arg1.IsWhole) (arg2 : Memref sig .tc .vmem S256x128 .f32) (harg2 : arg2.IsWhole)
    (arg3 : Memref sig .tc .vmem S256x1024 .f32) (harg3 : arg3.IsWhole) (arg4 : Memref sig .tc .vmem S128x64 .f32) (harg4 : arg4.IsWhole)
    (arg5 : Memref sig .tc .vmem S128x1 .f32) (harg5 : arg5.IsWhole) (arg6 : Memref sig .tc .vmem S256x64 .f32) (harg6 : arg6.IsWhole)
    (x0 : Vec F S1024x128 .f32) (x1 : Vec F S256x128 .f32) (x2 : Vec F S256x1024 .f32) (x3 : Vec F S128x64 .f32) (x4 : Vec F S128x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__gat_kernel i arg1 harg1 arg2 harg2 arg3 harg3 arg4 harg4 arg5 harg5 arg6 harg6) K := by
  simp only [cc0__gat_kernel_eq_skeleton]; unfold cc0__gat_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have h0 : (![0, 0] : Fin 2 → Nat) = fun _ => 0 := by funext a; fin_cases a <;> rfl
  refine (View.read_writes_eq_canon _ _ _ (fun y => ⟨_, List.mem_singleton_self _,
    View.mem_set_unit_zero (S := S256x64) h0 inb_S256x64_S256x64_0_0 y⟩)).trans ?_
  rw [View.canon_unit_zero (S := S256x64) h0]
  unfold out0_5 sound_kernel.sl.cst_21
  simp only [View.readAt_eq_ld]
  rw [View.ld_unit_zero (S := S1024x128) h0, View.ld_unit_zero (S := S128x64) h0, View.ld_unit_zero (S := S128x1) h0,
    View.ld_unit_zero (S := S256x128) h0, View.ld_unit_zero (S := S256x1024) h0]

/-! ## What the body finds in each input window's buffer: its block, fetched there or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- At the compiled mesh, for any values, from any memory with zero counters: every weakly fair execution of @main on
    the TensorCores terminates, and every final state has the result array at what the library computes from the
    proof data after the last write-back and the four argument arrays as launched. -/
theorem run_main : θ_run (defs (F := F)) (onTc (τ := τ) (main (F := F))) ⟨m, fun _ => 0, ρ⟩ fun r => ∀ c : Dev nD,
    r.2.mem ((c.tc : Thread nD τ).loc main_v0) = (dats m 0 c).arrAt 5 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  run_main_of m ρ (body_obligation m)

end Cert.KernelIdeal.Hand

end
-- ==== Proof.KDatBits.lean ====
/- The proof data of the one pipelined kernel region of the program: the arrays as the region finds them,
   each window's block at a grid point, what the body leaves in the output window's staging buffer, and the
   bundle the launch and the body obligation are stated over. Two windows (0 and 1) read ONE array: they hold
   the two disjoint halves of its full share. -/
import proofs.«123027_g70274254897801_cont_sun_c4_842_6_alg».proof.Proof.Gen.Kernel.Launch
import proofs.«123027_g70274254897801_cont_sun_c4_842_6_alg».proof.Proof.Gen.Kernel.Skeleton
import proofs.«123027_g70274254897801_cont_sun_c4_842_6_alg».proof.Proof.Gen.Kernel.Points
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel.Gen

variable {F : FTy → Type} [FloatOps F]

variable (m : (ℓ : Loc nD τ sig) → Buf (Elt F) ℓ)

/-- Core `c`'s TensorCore buffers when the region is entered: as launched (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in the output window's staging buffer, from the five input windows' blocks
    (`x0` … `x4`: windows 0 … 4): its one whole-block store's payload. The body loads window 0 (all of the
    features), window 3 (the weights) twice, window 4 (the attention vector), window 1 (the row block of the
    features) and window 2 (the row block of the adjacency), in that order. -/
def out0_5 (x0 : Vec F S1024x128 .f32) (x1 : Vec F S256x128 .f32) (x2 : Vec F S256x1024 .f32) (x3 : Vec F S128x64 .f32)
    (x4 : Vec F S128x1 .f32) : Vec F S256x64 .f32 :=
  k0_pay1 (k0_pay2 x0 x3 x4 x1 x3 x2) (Scalar.ofBits .f32 0x00000000#32)

/-- The proof data of the pipeline on core `c`: the arrays as the region finds them; after the body at point `t`
    each input's buffer at its block and the output's at `out0_5` of the input blocks; the invariant the scoped
    rest and the generator register, untouched; nothing owed; windows 0 and 1, on one array, at the two halves of
    its full share, the other inputs at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by
  dsimp only [dats]

/-- The shares, window by window. -/
theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]
theorem q0_4 (c : Dev nD) : (dats m 0 c).q 4 = fullShare := by dsimp only [dats]
theorem q0_5 (c : Dev nD) : (dats m 0 c).q 5 = fullShare := by dsimp only [dats]

end Cert.Kernel.Hand

end
-- ==== Proof.KSplitBits.lean ====
/-
  The launch's hand-over of the argument arrays to the windows. The kernel is handed the feature array twice, whole
  and in row blocks, so two windows stand on one buffer: the buffer's full share is split into its two halves, one per
  window, and every other array goes to its one window whole.
-/
import proofs.«123027_g70274254897801_cont_sun_c4_842_6_alg».proof.Proof.KDatBits
import Idealize.ShloMosaic.Lib.Pipeline.Launch
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel.Gen

variable {F : FTy → Type} [FloatOps F]

local notation "𝕄" => MT nD τ sig Unit (Elt F) ℕ (UR sig nD τ) ℕ

variable (m : (ℓ : Loc nD τ sig) → Buf (Elt F) ℓ)

/-- Buffer b whole, at share q, at the entry contents. -/
abbrev bufAt (c : Dev nD) (b : Ref sig .tc) (q : PosShare TreeShare) : sProp 𝕄 :=
  ((c.tc : Thread nD τ).loc b) ↦{q} V m c b

/-- Window w's array at entry: its buffer whole, at the window's share, at the entry contents. -/
theorem arr_at (c : Dev nD) (w : Fin 6) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  have h : (cfg0.win w).arr.view.set = Finset.univ := (arr_whole0 w).set_eq_univ
  rw [h]
  rfl

/-- The shares the windows hold their arrays at: the two windows on the feature array a half each, the rest full. -/
theorem share0_0 (c : Dev nD) : (dats m 0 c).share 0 = fullShare.left := by
  show (if (cfg0.win 0).isOut then fullShare else (dats m 0 c).q 0) = _
  rw [q0_0]; rfl
theorem share0_1 (c : Dev nD) : (dats m 0 c).share 1 = fullShare.right := by
  show (if (cfg0.win 1).isOut then fullShare else (dats m 0 c).q 1) = _
  rw [q0_1]; rfl
theorem share0_2 (c : Dev nD) : (dats m 0 c).share 2 = fullShare := by
  show (if (cfg0.win 2).isOut then fullShare else (dats m 0 c).q 2) = _
  rw [q0_2]; rfl
theorem share0_3 (c : Dev nD) : (dats m 0 c).share 3 = fullShare := by
  show (if (cfg0.win 3).isOut then fullShare else (dats m 0 c).q 3) = _
  rw [q0_3]; rfl
theorem share0_4 (c : Dev nD) : (dats m 0 c).share 4 = fullShare := by
  show (if (cfg0.win 4).isOut then fullShare else (dats m 0 c).q 4) = _
  rw [q0_4]; rfl
theorem share0_5 (c : Dev nD) : (dats m 0 c).share 5 = fullShare := by
  show (if (cfg0.win 5).isOut then fullShare else (dats m 0 c).q 5) = _
  rfl

/-- The buffers behind the windows' arrays, each whole at the full share at the entry contents, make the proof data's
    arrays at entry: the shared buffer's share split between windows 0 and 1. -/
theorem arrays_split_shared (c : Dev nD) :
    (Pipeline.arrBufs (cfgs 0).spec c (V m c) : sProp 𝕄) ⊢ (dats m 0 c).arrays ((dats m 0 c).arrAt · 0) := by
  have hL : (Pipeline.arrBufs (cfgs 0).spec c (V m c) : sProp 𝕄)
      = bigSepL [main_arg0, main_arg1, main_arg2, main_arg3, main_v0] fun b => ((c : Thread nD τ).loc b) ↦{fullShare} V m c b := by
    unfold Pipeline.arrBufs
    exact bigSep_eq_bigSepL_of_eq _ (by decide) (by decide) _
  rw [hL]
  unfold Dat.arrays
  rw [bigSep_W0, arr_at m c 0, arr_at m c 1, arr_at m c 2, arr_at m c 3, arr_at m c 4, arr_at m c 5,
    share0_0, share0_1, share0_2, share0_3, share0_4, share0_5]
  show (iprop(bufAt m c main_arg0 fullShare ∗ bufAt m c main_arg1 fullShare ∗ bufAt m c main_arg2 fullShare
        ∗ bufAt m c main_arg3 fullShare ∗ bufAt m c main_v0 fullShare) : sProp 𝕄)
      ⊢ iprop(bufAt m c main_arg0 fullShare.left ∗ bufAt m c main_arg0 fullShare.right ∗ bufAt m c main_arg1 fullShare
        ∗ bufAt m c main_arg2 fullShare ∗ bufAt m c main_arg3 fullShare ∗ bufAt m c main_v0 fullShare)
  iintro ⟨H0, H1, H2, H3, H5⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H5

end Cert.Kernel.Hand

end
-- ==== Proof.KRunBits.lean ====
/-
  The launch of the kernel's one pipelined region: given the body obligation at every grid point, every weakly fair
  execution of the program terminates with the output array at the proof data's final contents and the four argument
  arrays as launched. The argument arrays reach the windows by the shared split (two windows stand on the feature array);
  nothing but the windows' staging buffers is scoped, so the body's invariant is the scoped rest and the generator register.
-/
import proofs.«123027_g70274254897801_cont_sun_c4_842_6_alg».proof.Proof.KDatBits
import proofs.«123027_g70274254897801_cont_sun_c4_842_6_alg».proof.Proof.KSplitBits
import proofs.«123027_g70274254897801_cont_sun_c4_842_6_alg».proof.Proof.Gen.Kernel.Launch
import proofs.«123027_g70274254897801_cont_sun_c4_842_6_alg».proof.Proof.Gen.Kernel.Points
import Idealize.ShloMosaic.Lib.Pipeline.FrameBody
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the launch's conclusion is matched against this statement up to the unfolding of definitions
set_option backward.isDefEq.respectTransparency.types false in
set_option maxRecDepth 16384 in
/-- From the body obligation to the run. -/
theorem run_main_of (m : (ℓ : Loc nD τ sig) → Buf (Elt F) ℓ) (ρ : Dev nD → PrngReg)
    (hbody : ∀ c : Dev nD, Pipeline.BodyObligation (dats (F := F) m 0 c) (defs₀ (F := F)) Variants.none () Set.univ) :
    θ_run (defs (F := F)) (onTc (τ := τ) (main (F := F))) ⟨m, fun _ => 0, ρ⟩ fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  classical
  refine Pipeline.θ_run_region_pf pcfgs (fun q => (cfgs q).toPCfg_adm) (dats m) () cellOf_inj (0 : Fin 1) winFacts₀0
    (Pipeline.OwnSemFacts.none _) (Pipeline.PreFacts.none _) emb₁ defs₀ Variants.none m ρ main
    (hbody := fun c => (hbody c).loose) (hne := block_pos0) (harr := arr_whole0) (hstage := stage_whole0)
    (howed := fun _ _ => rfl) (G := fun _ => iprop(emp))
    (u₀ := initOf (Pipeline.cells cfgs cellOf_inj) (Pipeline.launchToks cfgs cellOf_inj))
    (hu₀ := ?hu) (V := V m)
    (hmain := Pipeline.hmain_region cfgs 0 defs₀ Variants.none m main fun c => (main_chain c).trans rfl)
    (hsplit := arrays_split_shared m) (hpf := fun _ k => k.elim0)
    (X := fun c => iprop(∃ r, prngReg c r)) (Y := fun c => iprop(∃ r, prngReg c r)) (Z := fun _ => iprop(emp))
    (hX := ?hX) (hin := ?hin) (hout := ?hout) (QY := fun _ _ => True) (hY := ?hY) (hQ := ?hQ)
  -- the ghost state is the initial one, and nothing more is handed to the cores
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  -- of what a core holds beside the arrays, the region keeps the generator register alone
  case hX =>
    intro c
    iintro ⟨-, -, -, -, Hp, -⟩; imodintro
    isplitl [Hp]
    · iexists _; iexact Hp
    iempintro
  -- the region's invariant, the scoped rest with the generator register, holds before the first point …
  case hin =>
    intro c
    show _ ⊢ Pipeline.ΦA spec0 c
    unfold Pipeline.ΦA
    iintro ⟨Hp, -, Hr⟩
    isplitl [Hr]
    · iexact Hr
    iexact Hp
  -- … and gives both back after the last
  case hout =>
    intro c
    show Pipeline.ΦA spec0 c ⊢ _
    rw [Pipeline.ownSems0_none]; unfold Pipeline.ΦA
    iintro ⟨Hr, Hp⟩
    isplitl [Hp]
    · iexact Hp
    isplitr
    · iempintro
    iexact Hr
  -- nothing further is read off the final state
  case hY =>
    intro c s'
    iintro ⟨-, -, HSI⟩; imodintro
    isplitr
    · ipureintro; trivial
    iexact HSI
  -- the output array ends at the data's final contents; an input array is never written, so it ends as it was launched
  case hQ =>
    intro s h c
    exact ⟨(h c).1 5,
      ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4))⟩

end Cert.Kernel.Hand

end
-- ==== Proof.KFrameBits.lean ====
/- The run of the one pipelined kernel region by hand: the body's triple, the body obligation at every grid point,
   and the launch. Windows 0 and 1 read one array (the features, whole and in row blocks); the body loads its six
   staging buffers whole, computes, and stores the output block whole. -/
import proofs.«123027_g70274254897801_cont_sun_c4_842_6_alg».proof.Proof.KDatBits
import proofs.«123027_g70274254897801_cont_sun_c4_842_6_alg».proof.Proof.KSplitBits
import proofs.«123027_g70274254897801_cont_sun_c4_842_6_alg».proof.Proof.KRunBits
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on whole staging memrefs, the five inputs' at read contents `x0` … `x4` and the output's at
    anything, runs to the continuation holding the inputs' as they were and the output's at `out0_5` of the inputs':
    the printed functions are their skeletons, which the run executes through the part call; each of the six loads
    is through the whole-buffer rectangle and reads the contents, and the one store, through the whole-buffer
    rectangle, leaves its payload. -/
theorem sound_kernel (c : Dev nD) (E : Set ℕ) (i : grid0.Coords)
    (arg1 : Memref sig .tc .vmem S1024x128 .f32) (harg1 : arg1.IsWhole) (arg2 : Memref sig .tc .vmem S256x128 .f32) (harg2 : arg2.IsWhole)
    (arg3 : Memref sig .tc .vmem S256x1024 .f32) (harg3 : arg3.IsWhole) (arg4 : Memref sig .tc .vmem S128x64 .f32) (harg4 : arg4.IsWhole)
    (arg5 : Memref sig .tc .vmem S128x1 .f32) (harg5 : arg5.IsWhole) (arg6 : Memref sig .tc .vmem S256x64 .f32) (harg6 : arg6.IsWhole)
    (x0 : Vec F S1024x128 .f32) (x1 : Vec F S256x128 .f32) (x2 : Vec F S256x1024 .f32) (x3 : Vec F S128x64 .f32) (x4 : Vec F S128x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__gat_kernel i arg1 harg1 arg2 harg2 arg3 harg3 arg4 harg4 arg5 harg5 arg6 harg6) K := by
  simp only [cc0__gat_kernel_eq_skeleton]; unfold cc0__gat_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have h0 : (![0, 0] : Fin 2 → Nat) = fun _ => 0 := by funext a; fin_cases a <;> rfl
  refine (View.read_writes_eq_canon _ _ _ (fun y => ⟨_, List.mem_singleton_self _,
    View.mem_set_unit_zero (S := S256x64) h0 inb_S256x64_S256x64_0_0 y⟩)).trans ?_
  rw [View.canon_unit_zero (S := S256x64) h0]
  unfold out0_5 sound_kernel.sl.cst_21
  simp only [View.readAt_eq_ld]
  rw [View.ld_unit_zero (S := S1024x128) h0, View.ld_unit_zero (S := S128x64) h0, View.ld_unit_zero (S := S128x1) h0,
    View.ld_unit_zero (S := S256x128) h0, View.ld_unit_zero (S := S256x1024) h0]

/-! ## What the body finds in each input window's buffer: its block, fetched there or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- At the compiled mesh, for any values, from any memory with zero counters: every weakly fair execution of @main on
    the TensorCores terminates, and every final state has the result array at what the library computes from the
    proof data after the last write-back and the four argument arrays as launched. -/
theorem run_main : θ_run (defs (F := F)) (onTc (τ := τ) (main (F := F))) ⟨m, fun _ => 0, ρ⟩ fun r => ∀ c : Dev nD,
    r.2.mem ((c.tc : Thread nD τ).loc main_v0) = (dats m 0 c).arrAt 5 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  run_main_of m ρ (body_obligation m)

end Cert.Kernel.Hand

end
-- ==== Proof.KPay.lean ====
/-
  The kernel body's arithmetic at one entry of its output block. At grid point t the body holds all of x, W and a,
  rows 256·t … 256·t + 255 of x once more, and the same rows of adj; entry (p, q) of what it stores is the
  specification's value at row 256·t + p, column q: the three small products are h, f and g as sums, the broadcast
  add and the two selects are the logit, the lane maximum and lane sum are the row's maximum and normaliser, the
  last product the aggregation, and the final select elu.
-/
import proofs.«123027_g70274254897801_cont_sun_c4_842_6_alg».proof.Proof.Spec
import proofs.«123027_g70274254897801_cont_sun_c4_842_6_alg».proof.Proof.Gen.KernelIdeal
import proofs.«123027_g70274254897801_cont_sun_c4_842_6_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx Cert.KernelIdeal Cert.KernelIdeal.Gen
open scoped BigOperators

/-- Row p of block t of a 1024-row array. -/
def rowOf (t : Fin 4) (p : Fin 256) : Fin 1024 := ⟨256 * t.val + p.val, by omega⟩

/-! ## A 1024×128 by 128×64 product into the zero splat -/

theorem lhs_xw_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide),
    dif_pos (show (0 : Fin S1024x128.rank) ∈ dot_S1024x128_S128x64_S1024x64_1_0_0_1_n_n.lhsNonContracting by decide)]
  rfl
theorem lhs_xw_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_xw_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_xw_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide),
    dif_pos (show (1 : Fin S128x64.rank) ∈ dot_S1024x128_S128x64_S1024x64_1_0_0_1_n_n.rhsNonContracting by decide)]
  rfl

/-- Entry (i, c) of the product is the sum over the 128 shared coordinates. -/
theorem mm_xw (A : FVec Ideal S1024x128 .f32) (B : FVec Ideal S128x64 .f32) (i : Fin 1024) (c : Fin 64) :
    matmul dot_S1024x128_S128x64_S1024x64_1_0_0_1_n_n none A B (constant (F := Ideal) S1024x64 .f32 0x00000000#32) (ix2 i c)
      = ∑ k : Fin 128, A (ix2 i k) * B (ix2 k c) := by
  simp only [matmul]
  rw [Ideal.matmul_constant_zero_apply,
    ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 i c)
      ((contrEquiv1 dot_S1024x128_S128x64_S1024x64_1_0_0_1_n_n 128 rfl rfl).symm k) = ix2 i k :=
    funext fun a => Fin.ext (by
      match a with
      | ⟨0, _⟩ => exact lhs_xw_0 _ _
      | ⟨1, _⟩ => exact (lhs_xw_1 _ _).trans hk)
  have er : dot_S1024x128_S128x64_S1024x64_1_0_0_1_n_n.rhsIdx (ix2 i c)
      ((contrEquiv1 dot_S1024x128_S128x64_S1024x64_1_0_0_1_n_n 128 rfl rfl).symm k) = ix2 k c :=
    funext fun a => Fin.ext (by
      match a with
      | ⟨0, _⟩ => exact (rhs_xw_0 _ _).trans hk
      | ⟨1, _⟩ => exact rhs_xw_1 _ _)
  rw [el, er]

/-! ## A 1024×64 by 64×1 product into the zero splat -/

theorem lhs_ha_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide),
    dif_pos (show (0 : Fin S1024x64.rank) ∈ dot_S1024x64_S64x1_S1024x1_1_0_0_1_n_n.lhsNonContracting by decide)]
  rfl
theorem lhs_ha_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem rhs_ha_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhs_ha_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide),
    dif_pos (show (1 : Fin S64x1.rank) ∈ dot_S1024x64_S64x1_S1024x1_1_0_0_1_n_n.rhsNonContracting by decide)]
  rfl

/-- Entry (i, c) of the product is the sum over the 64 shared coordinates. -/
theorem mm_ha (A : FVec Ideal S1024x64 .f32) (B : FVec Ideal S64x1 .f32) (i : Fin 1024) (c : Fin 1) :
    matmul dot_S1024x64_S64x1_S1024x1_1_0_0_1_n_n none A B (constant (F := Ideal) S1024x1 .f32 0x00000000#32) (ix2 i c)
      = ∑ k : Fin 64, A (ix2 i k) * B (ix2 k c) := by
  simp only [matmul]
  rw [Ideal.matmul_constant_zero_apply,
    ← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 i c)
      ((contrEquiv1 dot_S1024x64_S64x1_S1024x1_1_0_0_1_n_n 64 rfl rfl).symm k) = ix2 i k :=
    funext fun a => Fin.ext (by
      match a with
      | ⟨0, _⟩ => exact lhs_ha_0 _ _
      | ⟨1, _⟩ => exact (lhs_ha_1 _ _).trans hk)
  have er : dot_S1024x64_S64x1_S1024x1_1_0_0_1_n_n.rhsIdx (ix2 i c)
      ((contrEquiv1 dot_S1024x64_S64x1_S1024x1_1_0_0_1_n_n 64 rfl rfl).symm k) = ix2 k c :=
    funext fun a => Fin.ext (by
      match a with
      | ⟨0, _⟩ => exact (rhs_ha_0 _ _).trans hk
      | ⟨1, _⟩ => exact rhs_ha_1 _ _)
  rw [el, er]

/-! ## A 256×128 by 128×64 product into the zero splat -/

theorem lhs_bw_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide),
    dif_pos (show (0 : Fin S256x128.rank) ∈ dot_S256x128_S128x64_S256x64_1_0_0_1_n_n.lhsNonContracting by decide)]
  rfl
theorem lhs_bw_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem rhs_bw_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem rhs_bw_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide),
    dif_pos (show (1 : Fin S128x64.rank) ∈ dot_S256x128_S128x64_S256x64_1_0_0_1_n_n.rhsNonContracting by decide)]
  rfl

/-- Entry (i, c) of the product is the sum over the 128 shared coordinates. -/
theorem mm_bw (A : FVec Ideal S256x128 .f32) (B : FVec Ideal S128x64 .f32) (i : Fin 256) (c : Fin 64) :
    matmul dot_S256x128_S128x64_S256x64_1_0_0_1_n_n none A B (constant (F := Ideal) S256x64 .f32 0x00000000#32) (ix2 i c)
      = ∑ k : Fin 128, A (ix2 i k) * B (ix2 k c) := by
  simp only [matmul]
  rw [Ideal.matmul_constant_zero_apply,
    ← Equiv.sum_comp (contrEquiv1 dot_S256x128_S128x64_S256x64_1_0_0_1_n_n 128 rfl rfl).symm]
  refine Finset.sum_congr rfl fun k _ => ?_
  have hk := contrEquiv1_symm_val dot_S256x128_S128x64_S256x64_1_0_0_1_n_n 128 rfl rfl k
  have el : dot_S256x128_S128x64_S256x64_1_0_0_1_n_n.lhsIdx (ix2 i c)
      ((contrEquiv1 dot_S256x128_S128x64_S256x64_1_0_0_1_n_n 128 rfl rfl).symm k) = ix2 i k :=
    funext fun a => Fin.ext (by
      match a with
      | ⟨0, _⟩ => exact lhs_bw_0 _ _
      | ⟨1, _⟩ => exact (lhs_bw_1 _ _).trans hk)
  have er : dot_S256x128_S128x64_S256x64_1_0_0_1_n_n.rhsIdx (ix2 i c)
      ((contrEquiv1 dot_S256x128_S128x64_S256x64_1_0_0_1_n_n 128 rfl rfl).symm k) = ix2 k c :=
    funext fun a => Fin.ext (by
      match a with
      | ⟨0, _⟩ => exact (rhs_bw_0 _ _).trans hk
      | ⟨1, _⟩ => exact rhs_bw_1 _ _)
  rw [el, er]

/-! ## A 256×64 by 64×1 product into the zero splat -/

theorem lhs_ba_0 (i : S256x1.Idx) (q : dot_S256x64_S64x1_S256x1_1_0_0_1_n_n.contr.Idx) :
    (dot_S256x64_S64x1_S256x1_1_0_0_1_n_n.lhsIdx i q 0).val = (i 0).val := by
  unfold DotDims.lhsIdx
  rw [dif_neg (show ¬(0 : Fin S256x64.rank) ∈ dot_S256x64_S64x1_S256x1_1_0_0_1_n_n.lhsBatch by decide),
    dif_pos (show (0 : Fin S256x64.rank) ∈ dot_S256x64_S64x1_S256x1_1_0_0_1_n_n.lhsNonContracting by decide)]
  rfl
theorem lhs_ba_1 (i : S256x1.Idx) (q : dot_S256x64_S64x1_S256x1_1_0_0_1_n_n.contr.Idx) :
    (dot_S256x64_S64x1_S256x1_1_0_0_1_n_n.lhsIdx i q 1).val = (q ⟨0, by decide⟩).val :=
  dot_S256x64_S64x1_S256x1_1_0_0_1_n_n.lhsIdx_val_of_single rfl i q
theorem rhs_ba_0 (i : S256x1.Idx) (q : dot_S256x64_S64x1_S256x1_1_0_0_1_n_n.contr.Idx) :
    (dot_S256x64_S64x1_S256x1_1_0_0_1_n_n.rhsIdx i q 0).val = (q ⟨0, by decide⟩).val :=
  dot_S256x64_S64x1_S256x1_1_0_0_1_n_n.rhsIdx_val_of_single rfl i q
theorem rhs_ba_1 (i : S256x1.Idx) (q : dot_S256x64_S64x1_S256x1_1_0_0_1_n_n.contr.Idx) :
    (dot_S256x64_S64x1_S256x1_1_0_0_1_n_n.rhsIdx i q 1).val = (i 1).val := by
  unfold DotDims.rhsIdx
  rw [dif_neg (show ¬(1 : Fin S64x1.rank) ∈ dot_S256x64_S64x1_S256x1_1_0_0_1_n_n.rhsBatch by decide),
    dif_pos (show (1 : Fin S64x1.rank) ∈ dot_S256x64_S64x1_S256x1_1_0_0_1_n_n.rhsNonContracting by decide)]
  rfl

/-- Entry (i, c) of the product is the sum over the 64 shared coordinates. -/
theorem mm_ba (A : FVec Ideal S256x64 .f32) (B : FVec Ideal S64x1 .f32) (i : Fin 256) (c : Fin 1) :
    matmul dot_S256x64_S64x1_S256x1_1_0_0_1_n_n none A B (constant (F := Ideal) S256x1 .f32 0x00000000#32) (ix2 i c)
      = ∑ k : Fin 64, A (ix2 i k) * B (ix2 k c) := by
  simp only [matmul]
  rw [Ideal.matmul_constant_zero_apply,
    ← Equiv.sum_comp (contrEquiv1 dot_S256x64_S64x1_S256x1_1_0_0_1_n_n 64 rfl rfl).symm]
  refine Finset.sum_congr rfl fun k _ => ?_
  have hk := contrEquiv1_symm_val dot_S256x64_S64x1_S256x1_1_0_0_1_n_n 64 rfl rfl k
  have el : dot_S256x64_S64x1_S256x1_1_0_0_1_n_n.lhsIdx (ix2 i c)
      ((contrEquiv1 dot_S256x64_S64x1_S256x1_1_0_0_1_n_n 64 rfl rfl).symm k) = ix2 i k :=
    funext fun a => Fin.ext (by
      match a with
      | ⟨0, _⟩ => exact lhs_ba_0 _ _
      | ⟨1, _⟩ => exact (lhs_ba_1 _ _).trans hk)
  have er : dot_S256x64_S64x1_S256x1_1_0_0_1_n_n.rhsIdx (ix2 i c)
      ((contrEquiv1 dot_S256x64_S64x1_S256x1_1_0_0_1_n_n 64 rfl rfl).symm k) = ix2 k c :=
    funext fun a => Fin.ext (by
      match a with
      | ⟨0, _⟩ => exact (rhs_ba_0 _ _).trans hk
      | ⟨1, _⟩ => exact rhs_ba_1 _ _)
  rw [el, er]

/-! ## A 256×1024 by 1024×64 product into the zero splat -/

theorem lhs_ah_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide),
    dif_pos (show (0 : Fin S256x1024.rank) ∈ dot_S256x1024_S1024x64_S256x64_1_0_0_1_n_n.lhsNonContracting by decide)]
  rfl
theorem lhs_ah_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem rhs_ah_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
theorem rhs_ah_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide),
    dif_pos (show (1 : Fin S1024x64.rank) ∈ dot_S256x1024_S1024x64_S256x64_1_0_0_1_n_n.rhsNonContracting by decide)]
  rfl

/-- Entry (i, c) of the product is the sum over the 1024 shared coordinates. -/
theorem mm_ah (A : FVec Ideal S256x1024 .f32) (B : FVec Ideal S1024x64 .f32) (i : Fin 256) (c : Fin 64) :
    matmul dot_S256x1024_S1024x64_S256x64_1_0_0_1_n_n none A B (constant (F := Ideal) S256x64 .f32 0x00000000#32) (ix2 i c)
      = ∑ k : Fin 1024, A (ix2 i k) * B (ix2 k c) := by
  simp only [matmul]
  rw [Ideal.matmul_constant_zero_apply,
    ← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have el : dot_S256x1024_S1024x64_S256x64_1_0_0_1_n_n.lhsIdx (ix2 i c)
      ((contrEquiv1 dot_S256x1024_S1024x64_S256x64_1_0_0_1_n_n 1024 rfl rfl).symm k) = ix2 i k :=
    funext fun a => Fin.ext (by
      match a with
      | ⟨0, _⟩ => exact lhs_ah_0 _ _
      | ⟨1, _⟩ => exact (lhs_ah_1 _ _).trans hk)
  have er : dot_S256x1024_S1024x64_S256x64_1_0_0_1_n_n.rhsIdx (ix2 i c)
      ((contrEquiv1 dot_S256x1024_S1024x64_S256x64_1_0_0_1_n_n 1024 rfl rfl).symm k) = ix2 k c :=
    funext fun a => Fin.ext (by
      match a with
      | ⟨0, _⟩ => exact (rhs_ah_0 _ _).trans hk
      | ⟨1, _⟩ => exact rhs_ah_1 _ _)
  rw [el, er]

/-! ## Columns: the layout operations' column forms read at an index -/

/-- An [a, 1] column cast to the row [1, a] reads, at (0, j), the column at (j, 0). -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (j : Fin a) :
    shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.zero_mul, Nat.zero_add, Nat.mul_one, Nat.add_zero])

/-- An [a] vector cast to the column [a, 1] reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential at an index is the exponential of the element. -/
theorem exp_apply {s : Shape} {φ : FTy} (a : FVec Ideal s φ) (i : s.Idx) : exp a i = Ideal.exp (a i) := rfl

/-- The source index over row p of the lane reduction, at lane k, is (p, k). -/
theorem lift_row (p : Fin 256) (k : Fin 1024) : reduces_S256x1024_S256.lift (ix1 p) k = ix2 p k :=
  funext fun a => Fin.ext (by
    match a with
    | ⟨0, _⟩ => rfl
    | ⟨1, _⟩ => rfl)

/-! ## The body's value, stage by stage

The same term the body computes, cut at the values that are read more than once. -/

/-- h for all 1024 rows: x·W. -/
def kH (x : FVec Ideal S1024x128 .f32) (Wv : FVec Ideal S128x64 .f32) : FVec Ideal S1024x64 .f32 :=
  matmul dot_S1024x128_S128x64_S1024x64_1_0_0_1_n_n none x Wv (constant (F := Ideal) S1024x64 .f32 0x00000000#32)

/-- g for all rows, as a column: h against a's lower half. -/
def kG (x : FVec Ideal S1024x128 .f32) (Wv : FVec Ideal S128x64 .f32) (av : FVec Ideal S128x1 .f32) :
    FVec Ideal S1024x1 .f32 :=
  matmul dot_S1024x64_S64x1_S1024x1_1_0_0_1_n_n none (kH x Wv)
    (extractStridedSlice S64x1 ![64, 0] av slices_S128x1_o64_0_S64x1) (constant (F := Ideal) S1024x1 .f32 0x00000000#32)

/-- f for the block's 256 rows, as a column: the block's own product with W against a's upper half. -/
def kF (xb : FVec Ideal S256x128 .f32) (Wv : FVec Ideal S128x64 .f32) (av : FVec Ideal S128x1 .f32) :
    FVec Ideal S256x1 .f32 :=
  matmul dot_S256x64_S64x1_S256x1_1_0_0_1_n_n none
    (matmul dot_S256x128_S128x64_S256x64_1_0_0_1_n_n none xb Wv (constant (F := Ideal) S256x64 .f32 0x00000000#32))
    (extractStridedSlice S64x1 ![0, 0] av slices_S128x1_o0_0_S64x1) (constant (F := Ideal) S256x1 .f32 0x00000000#32)

/-- f i + g j for the block's rows i and every j. -/
def kS (x : FVec Ideal S1024x128 .f32) (Wv : FVec Ideal S128x64 .f32) (av : FVec Ideal S128x1 .f32)
    (xb : FVec Ideal S256x128 .f32) : FVec Ideal S256x1024 .f32 :=
  addf (broadcastTo S256x1024 (kF xb Wv av) broadcasts_S256x1_S256x1024)
    (broadcastTo S256x1024 (shapeCast S1x1024 (kG x Wv av) shapeCasts_S1024x1_S1x1024) broadcasts_S1x1024_S256x1024)

/-- The masked logits of the block's rows. -/
def kL (x : FVec Ideal S1024x128 .f32) (Wv : FVec Ideal S128x64 .f32) (av : FVec Ideal S128x1 .f32)
    (xb : FVec Ideal S256x128 .f32) (adjb : FVec Ideal S256x1024 .f32) : FVec Ideal S256x1024 .f32 :=
  select (cmpf .ogt adjb (broadcast S256x1024 (Scalar.ofBits (F := Ideal) .f32 0x00000000#32)))
    (select (cmpf .oge (kS x Wv av xb) (broadcast S256x1024 (Scalar.ofBits (F := Ideal) .f32 0x00000000#32)))
      (kS x Wv av xb)
      (mulf (broadcast S256x1024 (Scalar.ofBits (F := Ideal) .f32 0x3E4CCCCD#32)) (kS x Wv av xb)))
    (broadcast S256x1024 (Scalar.ofBits (F := Ideal) .f32 0xD9FFCB9E#32))

/-- Each row's maximum over the 1024 lanes. -/
def kM (x : FVec Ideal S1024x128 .f32) (Wv : FVec Ideal S128x64 .f32) (av : FVec Ideal S128x1 .f32)
    (xb : FVec Ideal S256x128 .f32) (adjb : FVec Ideal S256x1024 .f32) : FVec Ideal S256 .f32 :=
  multiReduction (F := Ideal) .maximumf [1] S256 (kL x Wv av xb adjb) 0xFF800000#32 reduces_S256x1024_S256 (.inl rfl) rfl

/-- The unnormalised weights: exp of the logit less its row's maximum. -/
def kE (x : FVec Ideal S1024x128 .f32) (Wv : FVec Ideal S128x64 .f32) (av : FVec Ideal S128x1 .f32)
    (xb : FVec Ideal S256x128 .f32) (adjb : FVec Ideal S256x1024 .f32) : FVec Ideal S256x1024 .f32 :=
  exp (subf (kL x Wv av xb adjb)
    (broadcastTo S256x1024 (shapeCast S256x1 (kM x Wv av xb adjb) shapeCasts_S256_S256x1) broadcasts_S256x1_S256x1024))

/-- Each row's normaliser: the lane sum of its weights. -/
def kD (x : FVec Ideal S1024x128 .f32) (Wv : FVec Ideal S128x64 .f32) (av : FVec Ideal S128x1 .f32)
    (xb : FVec Ideal S256x128 .f32) (adjb : FVec Ideal S256x1024 .f32) : FVec Ideal S256 .f32 :=
  multiReduction (F := Ideal) .add [1] S256 (kE x Wv av xb adjb) 0x00000000#32 reduces_S256x1024_S256 (.inl rfl) rfl

/-- The attention weights. -/
def kA (x : FVec Ideal S1024x128 .f32) (Wv : FVec Ideal S128x64 .f32) (av : FVec Ideal S128x1 .f32)
    (xb : FVec Ideal S256x128 .f32) (adjb : FVec Ideal S256x1024 .f32) : FVec Ideal S256x1024 .f32 :=
  divf (kE x Wv av xb adjb)
    (broadcastTo S256x1024 (shapeCast S256x1 (kD x Wv av xb adjb) shapeCasts_S256_S256x1) broadcasts_S256x1_S256x1024)

/-- The aggregation: the weights times h. -/
def kAgg (x : FVec Ideal S1024x128 .f32) (Wv : FVec Ideal S128x64 .f32) (av : FVec Ideal S128x1 .f32)
    (xb : FVec Ideal S256x128 .f32) (adjb : FVec Ideal S256x1024 .f32) : FVec Ideal S256x64 .f32 :=
  matmul dot_S256x1024_S1024x64_S256x64_1_0_0_1_n_n none (kA x Wv av xb adjb) (kH x Wv)
    (constant (F := Ideal) S256x64 .f32 0x00000000#32)

/-- The body's product term is the staged one (W is loaded twice; both loads are the same array here). -/
theorem pay2_eq (x : Vec Ideal S1024x128 .f32) (Wv : Vec Ideal S128x64 .f32) (av : Vec Ideal S128x1 .f32)
    (xb : Vec Ideal S256x128 .f32) (adjb : Vec Ideal S256x1024 .f32) :
    k0_pay2 (F := Ideal) x Wv av xb Wv adjb = kAgg x Wv av xb adjb := rfl

/-! ## Each stage is the specification's quantity at the block's row -/

section Values
variable (x : FVec Ideal S1024x128 .f32) (Wv : FVec Ideal S128x64 .f32) (av : FVec Ideal S128x1 .f32)
  (xb : FVec Ideal S256x128 .f32) (adjb : FVec Ideal S256x1024 .f32) (ADJ : Cert.Spec.Arr 1024 1024) (t : Fin 4)

/-- The projected features. -/
theorem kH_apply (j : Fin 1024) (c : Fin 64) : kH x Wv (ix2 j c) = Cert.Spec.h x Wv j c :=
  mm_xw x Wv j c

/-- a's rows 0 … 63. -/
theorem a_lo (c : Fin 64) :
    extractStridedSlice S64x1 ![0, 0] av slices_S128x1_o0_0_S64x1 (ix2 c (0 : Fin 1))
      = av (ix2 (Cert.Spec.lo c) (0 : Fin 1)) :=
  slice2_axis0_apply 0 av slices_S128x1_o0_0_S64x1 c 0 (Cert.Spec.lo c) (Nat.zero_add _).symm

/-- a's rows 64 … 127. -/
theorem a_hi (c : Fin 64) :
    extractStridedSlice S64x1 ![64, 0] av slices_S128x1_o64_0_S64x1 (ix2 c (0 : Fin 1))
      = av (ix2 (Cert.Spec.hi c) (0 : Fin 1)) :=
  slice2_axis0_apply 64 av slices_S128x1_o64_0_S64x1 c 0 (Cert.Spec.hi c) rfl

/-- The target half of the score, for every row. -/
theorem kG_apply (j : Fin 1024) : kG x Wv av (ix2 j (0 : Fin 1)) = Cert.Spec.g x Wv av j := by
  unfold kG Cert.Spec.g
  refine (mm_ha _ _ j 0).trans ?_
  refine Finset.sum_congr rfl fun c _ => ?_
  rw [kH_apply, a_hi]

/-- The source half of the score, for the block's rows: the block of x holds x's rows. -/
theorem kF_apply (hxb : ∀ (p : Fin 256) (k : Fin 128), xb (ix2 p k) = x (ix2 (rowOf t p) k)) (p : Fin 256) :
    kF xb Wv av (ix2 p (0 : Fin 1)) = Cert.Spec.f x Wv av (rowOf t p) := by
  unfold kF Cert.Spec.f
  refine (mm_ba _ _ p 0).trans ?_
  refine Finset.sum_congr rfl fun c _ => ?_
  rw [mm_bw, a_lo]
  unfold Cert.Spec.h
  exact congrArg (· * _) (Finset.sum_congr rfl fun k _ => by rw [hxb])

/-- The sum of the two halves. -/
theorem kS_apply (hxb : ∀ (p : Fin 256) (k : Fin 128), xb (ix2 p k) = x (ix2 (rowOf t p) k)) (p : Fin 256) (j : Fin 1024) :
    kS x Wv av xb (ix2 p j) = Cert.Spec.f x Wv av (rowOf t p) + Cert.Spec.g x Wv av j := by
  unfold kS
  rw [addf_apply, broadcastTo_a1_ab_apply, broadcastTo_1b_ab_apply, shapeCast_a1_1a_apply,
    kF_apply x Wv av xb t hxb, kG_apply]

/-- The logit: the two selects are the specification's own spelling of the leaky slope and of the mask. -/
theorem kL_apply (hxb : ∀ (p : Fin 256) (k : Fin 128), xb (ix2 p k) = x (ix2 (rowOf t p) k))
    (hadj : ∀ (p : Fin 256) (j : Fin 1024), adjb (ix2 p j) = ADJ (ix2 (rowOf t p) j)) (p : Fin 256) (j : Fin 1024) :
    kL x Wv av xb adjb (ix2 p j) = Cert.Spec.logit x ADJ Wv av (rowOf t p) j := by
  unfold kL
  rw [select_apply, select_apply, cmpf_apply, cmpf_apply, mulf_apply, broadcast_apply, broadcast_apply, broadcast_apply,
    kS_apply x Wv av xb t hxb, hadj]
  rfl

/-- The accumulator word of the lane maximum is −∞. -/
theorem ofBits_negInf : FloatOps.ofBits (F := Ideal) .f32 0xFF800000#32 = (⊥ : EReal) := by
  simp [Ideal.ofBits, Ideal.ieee]

/-- The row's maximum. -/
theorem kM_apply (hxb : ∀ (p : Fin 256) (k : Fin 128), xb (ix2 p k) = x (ix2 (rowOf t p) k))
    (hadj : ∀ (p : Fin 256) (j : Fin 1024), adjb (ix2 p j) = ADJ (ix2 (rowOf t p) j)) (p : Fin 256) :
    kM x Wv av xb adjb (ix1 p) = Cert.Spec.rowMax x ADJ Wv av (rowOf t p) := by
  unfold kM Cert.Spec.rowMax
  refine (Ideal.multiReduction_maximumf_single (kL x Wv av xb adjb) 0xFF800000#32 reduces_S256x1024_S256 (.inl rfl) rfl
    (ix1 p)).trans ?_
  rw [ofBits_negInf]
  show (Finset.univ : Finset (Fin 1024)).fold max ⊥
    (fun k => kL x Wv av xb adjb (reduces_S256x1024_S256.lift (ix1 p) k)) = _
  refine Finset.fold_congr fun (k : Fin 1024) _ => ?_
  show kL x Wv av xb adjb (reduces_S256x1024_S256.lift (ix1 p) k) = _
  rw [lift_row p k, kL_apply x Wv av xb adjb ADJ t hxb hadj]

/-- The unnormalised weight. -/
theorem kE_apply (hxb : ∀ (p : Fin 256) (k : Fin 128), xb (ix2 p k) = x (ix2 (rowOf t p) k))
    (hadj : ∀ (p : Fin 256) (j : Fin 1024), adjb (ix2 p j) = ADJ (ix2 (rowOf t p) j)) (p : Fin 256) (j : Fin 1024) :
    kE x Wv av xb adjb (ix2 p j) = Cert.Spec.wgt x ADJ Wv av (rowOf t p) j := by
  unfold kE Cert.Spec.wgt
  rw [exp_apply, subf_apply, broadcastTo_a1_ab_apply, shapeCast_a_a1_apply,
    kL_apply x Wv av xb adjb ADJ t hxb hadj, kM_apply x Wv av xb adjb ADJ t hxb hadj]

/-- The row's normaliser. -/
theorem kD_apply (hxb : ∀ (p : Fin 256) (k : Fin 128), xb (ix2 p k) = x (ix2 (rowOf t p) k))
    (hadj : ∀ (p : Fin 256) (j : Fin 1024), adjb (ix2 p j) = ADJ (ix2 (rowOf t p) j)) (p : Fin 256) :
    kD x Wv av xb adjb (ix1 p) = Cert.Spec.den x ADJ Wv av (rowOf t p) := by
  unfold kD Cert.Spec.den
  refine (Ideal.multiReduction_add_single (kE x Wv av xb adjb) 0x00000000#32 reduces_S256x1024_S256 (.inl rfl) rfl
    (ix1 p)).trans ?_
  show ∑ k : Fin 1024, kE x Wv av xb adjb (reduces_S256x1024_S256.lift (ix1 p) k) = _
  refine Finset.sum_congr rfl fun k _ => ?_
  rw [lift_row, kE_apply x Wv av xb adjb ADJ t hxb hadj]

/-- The attention weight. -/
theorem kA_apply (hxb : ∀ (p : Fin 256) (k : Fin 128), xb (ix2 p k) = x (ix2 (rowOf t p) k))
    (hadj : ∀ (p : Fin 256) (j : Fin 1024), adjb (ix2 p j) = ADJ (ix2 (rowOf t p) j)) (p : Fin 256) (j : Fin 1024) :
    kA x Wv av xb adjb (ix2 p j) = Cert.Spec.att x ADJ Wv av (rowOf t p) j := by
  unfold kA Cert.Spec.att
  rw [divf_apply, broadcastTo_a1_ab_apply, shapeCast_a_a1_apply,
    kE_apply x Wv av xb adjb ADJ t hxb hadj, kD_apply x Wv av xb adjb ADJ t hxb hadj]

/-- The aggregated features. -/
theorem kAgg_apply (hxb : ∀ (p : Fin 256) (k : Fin 128), xb (ix2 p k) = x (ix2 (rowOf t p) k))
    (hadj : ∀ (p : Fin 256) (j : Fin 1024), adjb (ix2 p j) = ADJ (ix2 (rowOf t p) j)) (p : Fin 256) (q : Fin 64) :
    kAgg x Wv av xb adjb (ix2 p q) = Cert.Spec.agg x ADJ Wv av (rowOf t p) q := by
  unfold kAgg Cert.Spec.agg
  refine (mm_ah _ _ p q).trans ?_
  refine Finset.sum_congr rfl fun j _ => ?_
  rw [kA_apply x Wv av xb adjb ADJ t hxb hadj, kH_apply]

end Values

/-- The final select is elu of the product term, entry by entry. -/
theorem pay1_apply (v : FVec Ideal S256x64 .f32) (i : S256x64.Idx) :
    k0_pay1 (F := Ideal) v (Scalar.ofBits .f32 0x00000000#32) i = Cert.Spec.elu (v i) := rfl

/-- The body's stored value at (p, q), from its six loads: x whole, W, a, x's row block, W again, adj's row block. -/
theorem pay_apply (x : Vec Ideal S1024x128 .f32) (Wv : Vec Ideal S128x64 .f32) (av : Vec Ideal S128x1 .f32)
    (xb : Vec Ideal S256x128 .f32) (adjb : Vec Ideal S256x1024 .f32) (ADJ : Cert.Spec.Arr 1024 1024) (t : Fin 4)
    (hxb : ∀ (p : Fin 256) (k : Fin 128), xb (ix2 p k) = x (ix2 (rowOf t p) k))
    (hadj : ∀ (p : Fin 256) (j : Fin 1024), adjb (ix2 p j) = ADJ (ix2 (rowOf t p) j))
    (p : Fin 256) (q : Fin 64) :
    k0_pay1 (F := Ideal) (k0_pay2 (F := Ideal) x Wv av xb Wv adjb) (Scalar.ofBits .f32 0x00000000#32) (ix2 p q)
      = Cert.Spec.elu (Cert.Spec.agg x ADJ Wv av (rowOf t p) q) := by
  refine (pay1_apply _ _).trans ?_
  rw [pay2_eq, kAgg_apply x Wv av xb adjb ADJ t hxb hadj]

end Cert.KernelIdeal.HandValue

end
-- ==== Proof.KValue.lean ====
/-
  The kernel's output array after its run, as one function of the argument arrays. Grid point t writes back rows
  256·t … 256·t + 255 of the output; what it writes is, entry by entry, the specification at those rows (the body's
  arithmetic read at an entry), because the point's blocks of x and adj are those rows of the arrays and its blocks of
  x (whole), W and a are the arrays themselves. The four blocks tile the 1024 rows, so the array ends at the specification.
-/
import proofs.«123027_g70274254897801_cont_sun_c4_842_6_alg».proof.Proof.Spec
import proofs.«123027_g70274254897801_cont_sun_c4_842_6_alg».proof.Proof.KDat
import proofs.«123027_g70274254897801_cont_sun_c4_842_6_alg».proof.Proof.KPay
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ)

/-- Where each window's block sits at grid point t, decided over the four points: the whole-array windows (all of x,
    W, a) at block (0, 0); the row-block windows of x, adj and of the output at block (t, 0). -/
theorem blockIndex : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid point as one of the four row blocks. -/
abbrev blockOf (t : Fin cfg0.N) : Fin 4 := Fin.cast N_0 t

/-- The five input blocks at point t, each at its literal type. -/
abbrev xAll (c : Dev nD) (t : Fin cfg0.N) : Vec Ideal S1024x128 .f32 := iblk m c 0 t
abbrev xRows (c : Dev nD) (t : Fin cfg0.N) : Vec Ideal S256x128 .f32 := iblk m c 1 t
abbrev adjRows (c : Dev nD) (t : Fin cfg0.N) : Vec Ideal S256x1024 .f32 := iblk m c 2 t
abbrev wAll (c : Dev nD) (t : Fin cfg0.N) : Vec Ideal S128x64 .f32 := iblk m c 3 t
abbrev aAll (c : Dev nD) (t : Fin cfg0.N) : Vec Ideal S128x1 .f32 := iblk m c 4 t

/-- Window 0's block is all of x. -/
theorem xAll_eq (c : Dev nD) (t : Fin cfg0.N) : xAll m c t = (V m c main_arg0 : S1024x128.Idx → EReal) := by
  obtain ⟨e0, e1, -⟩ := blockIndex t
  funext y
  show V m c main_arg0 (((cfg0.win 0).blk t).view.emb y) = V m c main_arg0 y
  refine congrArg _ (funext fun a => Fin.ext ?_)
  match a with
  | ⟨0, _⟩ => show win0_0.index t (0 : Fin 2) * 1024 + 1 * (y 0).val = (y 0).val; omega
  | ⟨1, _⟩ => show win0_0.index t (1 : Fin 2) * 128 + 1 * (y 1).val = (y 1).val; omega

/-- Window 3's block is all of W. -/
theorem wAll_eq (c : Dev nD) (t : Fin cfg0.N) : wAll m c t = (V m c main_arg2 : S128x64.Idx → EReal) := by
  obtain ⟨-, -, -, -, -, -, e0, e1, -⟩ := blockIndex t
  funext y
  show V m c main_arg2 (((cfg0.win 3).blk t).view.emb y) = V m c main_arg2 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Window 4's block is all of a. -/
theorem aAll_eq (c : Dev nD) (t : Fin cfg0.N) : aAll m c t = (V m c main_arg3 : S128x1.Idx → EReal) := by
  obtain ⟨-, -, -, -, -, -, -, -, e0, e1, -⟩ := blockIndex t
  funext y
  show V m c main_arg3 (((cfg0.win 4).blk t).view.emb y) = V m c main_arg3 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega

/-- Window 1's block is rows 256·t … 256·t + 255 of x. -/
theorem xRows_apply (c : Dev nD) (t : Fin cfg0.N) (p : Fin 256) (k : Fin 128) :
    xRows m c t (ix2 p k) = (V m c main_arg0 : S1024x128.Idx → EReal) (ix2 (rowOf (blockOf t) p) k) := by
  obtain ⟨-, -, e0, e1, -⟩ := blockIndex t
  show V m c main_arg0 (((cfg0.win 1).blk t).view.emb (ix2 p k)) = V m c main_arg0 (ix2 (rowOf (blockOf t) p) k)
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 128 + 1 * k.val = k.val; omega

/-- Window 2's block is the same rows of adj. -/
theorem adjRows_apply (c : Dev nD) (t : Fin cfg0.N) (p : Fin 256) (j : Fin 1024) :
    adjRows m c t (ix2 p j) = (V m c main_arg1 : S1024x1024.Idx → EReal) (ix2 (rowOf (blockOf t) p) j) := by
  obtain ⟨-, -, -, -, e0, e1, -⟩ := blockIndex t
  show V m c main_arg1 (((cfg0.win 2).blk t).view.emb (ix2 p j)) = V m c main_arg1 (ix2 (rowOf (blockOf t) p) j)
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * j.val = j.val; omega

/-- What the body leaves at entry (p, q) of its block at point t is the specification at row 256·t + p, column q. -/
theorem out_apply (c : Dev nD) (t : Fin cfg0.N) (p : Fin 256) (q : Fin 64) :
    out0_5 (xAll m c t) (xRows m c t) (adjRows m c t) (wAll m c t) (aAll m c t) (ix2 p q)
      = Cert.Spec.G (V m c main_arg0) (V m c main_arg1) (V m c main_arg2) (V m c main_arg3) (ix2 (rowOf (blockOf t) p) q) := by
  rw [xAll_eq, wAll_eq, aAll_eq, Cert.Spec.G_apply]
  unfold out0_5
  exact pay_apply (V m c main_arg0) (V m c main_arg2) (V m c main_arg3) (xRows m c t) (adjRows m c t) (V m c main_arg1)
    (blockOf t) (xRows_apply m c t) (adjRows_apply m c t) p q

/-- What point t writes back is its block of the specification of the argument arrays. -/
theorem flushed_eq (c : Dev nD) (t : Fin cfg0.N) :
    (dats m 0 c).flushed 5 t = ((cfg0.win 5).blk t).view.read (Elt Ideal)
      (Cert.Spec.G (V m c main_arg0) (V m c main_arg1) (V m c main_arg2) (V m c main_arg3)) := by
  show (cfg0.win 5).cut (grid0.coords t) ((dats m 0 c).after 5 t) = _
  rw [after0_5]
  obtain ⟨-, -, -, -, -, -, -, -, -, -, e0, e1⟩ := blockIndex t
  funext y
  obtain ⟨p, q, rfl⟩ : ∃ (p : Fin 256) (q : Fin 64), y = ix2 p q := ⟨y 0, y 1, eq_ix2 (n0 := 256) (n1 := 64) y⟩
  show out0_5 (xAll m c t) (xRows m c t) (adjRows m c t) (wAll m c t) (aAll m c t) (ix2 p q)
    = Cert.Spec.G (V m c main_arg0) (V m c main_arg1) (V m c main_arg2) (V m c main_arg3) (((cfg0.win 5).blk t).view.emb (ix2 p q))
  rw [out_apply]
  refine congrArg _ (funext fun a => Fin.ext ?_)
  match a with
  | ⟨0, _⟩ => show 256 * t.val + p.val = win0_5.index t (0 : Fin 2) * 256 + 1 * p.val; omega
  | ⟨1, _⟩ => show q.val = win0_5.index t (1 : Fin 2) * 64 + 1 * q.val; omega

/-- An index of the output is in point t's block iff each coordinate is in the block's range on its axis. -/
theorem mem_blk (t : Fin cfg0.N) (i : S1024x64.Idx) :
    i ∈ ((cfg0.win 5).blk t).view.set ↔ ∀ a : Fin 2, win0_5.index t a * S256x64.size a ≤ (i a).val
      ∧ (i a).val < win0_5.index t a * S256x64.size a + S256x64.size a := by
  show i ∈ ((View.whole main_v0).slice (win0_5.rect t)).set ↔ _
  rw [View.set_slice_whole, Rect.mem_set_unit]
  exact Iff.rfl

/-- Row r of the output is in the block of point r / 256: the four blocks tile the 1024 rows. -/
theorem cover (i : S1024x64.Idx) :
    ∃ t : Fin cfg0.N, (cfg0.win 5).flush t = true ∧ i ∈ ((cfg0.win 5).blk t).view.set := by
  have hi0 : (i 0).val < 1024 := (i 0).isLt
  have hi1 : (i 1).val < 64 := (i 1).isLt
  obtain ⟨t, ht⟩ : ∃ t : Fin cfg0.N, t.val = (i 0).val / 256 :=
    ⟨Fin.cast N_0.symm ⟨(i 0).val / 256, by omega⟩, rfl⟩
  refine ⟨t, flush0_5 t, ?_⟩
  rw [mem_blk]
  obtain ⟨-, -, -, -, -, -, -, -, -, -, e0, e1⟩ := blockIndex t
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 64 ≤ (i 1).val ∧ (i 1).val < win0_5.index t (1 : Fin 2) * 64 + 64; omega

/-- After the four points' write-backs the output array is the specification of the four argument arrays. -/
theorem final (c : Dev nD) :
    (dats (F := Ideal) m 0 c).arrAt 5 cfg0.N
      = Cert.Spec.G (m ((c : Thread nD τ).loc main_arg0)) (m ((c : Thread nD τ).loc main_arg1))
          (m ((c : Thread nD τ).loc main_arg2)) (m ((c : Thread nD τ).loc main_arg3)) :=
  (dats (F := Ideal) m 0 c).arrAt_eq_of_cover 5
    (Cert.Spec.G (V m c main_arg0) (V m c main_arg1) (V m c main_arg2) (V m c main_arg3))
    (fun t _ => flushed_eq m c t) cover

end Cert.KernelIdeal.HandValue

end
-- ==== Proof.lean ====
/-
  The certificate of a graph-attention layer's fused kernel against its edge-list reference.

  The reference builds the list of nonzero entries of the adjacency (jnp.nonzero: a running count of the mask, the
  histogram of that count and the histogram's running sum), gathers both endpoints' projected features per listed
  entry, scores them against one 128-vector, scatters the scores back to a dense matrix, and applies a masked row softmax,
  the aggregation with the projected features and elu. The kernel never builds the list: the score of a pair is
  leaky(f i + g j) with f and g the two halves of the inner product, so the dense score matrix is a broadcast sum, and
  the same mask, softmax, aggregation and elu follow, a block of 256 rows at a time. Over the extended reals both are the
  one function Spec.G of the four argument arrays: the listed slots enumerate the nonzero entries without repetition, so
  the scatter puts at every edge exactly its own score, and the two programs agree wherever the mask lets a score through
  and hold the same fill elsewhere. The idealization rewrote nothing, so the ledger's conjunct is trivial; the three frames
  are the three runs with their results dropped.
-/
import proofs.«123027_g70274254897801_cont_sun_c4_842_6_alg».proof.Defs
import proofs.«123027_g70274254897801_cont_sun_c4_842_6_alg».proof.Proof.Gen.Kernel
import proofs.«123027_g70274254897801_cont_sun_c4_842_6_alg».proof.Proof.Gen.KernelIdeal
import proofs.«123027_g70274254897801_cont_sun_c4_842_6_alg».proof.Proof.Gen.ReferenceIdeal
import proofs.«123027_g70274254897801_cont_sun_c4_842_6_alg».proof.Proof.Gen.Pre_finite_inputs
import proofs.«123027_g70274254897801_cont_sun_c4_842_6_alg».proof.Proof.Spec
import proofs.«123027_g70274254897801_cont_sun_c4_842_6_alg».proof.Proof.RefRun
import proofs.«123027_g70274254897801_cont_sun_c4_842_6_alg».proof.Proof.RefEdge
import proofs.«123027_g70274254897801_cont_sun_c4_842_6_alg».proof.Proof.RefTail
import proofs.«123027_g70274254897801_cont_sun_c4_842_6_alg».proof.Proof.KFrame
import proofs.«123027_g70274254897801_cont_sun_c4_842_6_alg».proof.Proof.KFrameBits
import proofs.«123027_g70274254897801_cont_sun_c4_842_6_alg».proof.Proof.KValue

noncomputable section

namespace Cert.Proof

open Idealize.ShloMosaic Idealize.ShloMosaic.TcCoe Idealize.SL.Sem

/-- The reference's staged term, at the extended reals, is the specification. -/
theorem ref_value (x : FVec Ideal Cert.ReferenceIdeal.S1024x128 .f32) (adj : FVec Ideal Cert.ReferenceIdeal.S1024x1024 .f32)
    (W : FVec Ideal Cert.ReferenceIdeal.S128x64 .f32) (a : FVec Ideal Cert.ReferenceIdeal.S128x1 .f32) :
    Cert.ReferenceIdeal.Term.out (F := Ideal) x adj W a = Cert.Spec.G x adj W a :=
  Cert.ReferenceIdeal.Read.out_eq_G x adj W a (Cert.ReferenceIdeal.Read.feat_apply x W)
    (Cert.ReferenceIdeal.Read.logits_apply x adj W a)

theorem frame_ri : Cert.frame_ReferenceIdeal := fun m ρ _ =>
  (θ_run Cert.ReferenceIdeal.defs _ _).mono (fun _ h c => (h c).2) (Cert.ReferenceIdeal.Run.run (F := Ideal) m ρ)

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KernelIdeal.HandValue.final m c), (h c).2⟩)
      (Cert.KernelIdeal.Hand.run_main (F := Ideal) m ρ)
  · refine (θ_run Cert.ReferenceIdeal.defs _ _).mono (fun _ h c => ⟨?_, (h c).2⟩) (Cert.ReferenceIdeal.Run.run (F := Ideal) m' ρ')
    rw [(h c).1, ref_value, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
